-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x128 : Shape := ⟨2, ![400000, 128]⟩
abbrev S200000x2 : Shape := ⟨2, ![200000, 2]⟩
abbrev S512x128 : Shape := ⟨2, ![512, 128]⟩
abbrev S128 : Shape := ⟨1, ![128]⟩
abbrev S_ : Shape := ⟨0, ![]⟩
abbrev S128x256 : Shape := ⟨2, ![128, 256]⟩
abbrev S256 : Shape := ⟨1, ![256]⟩
abbrev S256x128 : Shape := ⟨2, ![256, 128]⟩

class Facts : Prop where
  bcast_S_S400000x128 : S_.BroadcastsInDim S400000x128 (![] : Fin 0 → Fin S400000x128.rank)
  reducesTo_S400000x128_S_d0_1 : S400000x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  reducesTo_S_S_d : S_.ReducesTo [] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg9 : FVec F S128 .f32) (main_arg10 : FVec F S128 .f32) (main_v32 : IVec S_ 1) (main_v33 : FVec F S256x128 .f32) : IVec S_ 1 :=
  let main_cst_12 : FVec F S_ .f32 := constant S_ .f32 0x7F800000#32
  let main_v34 : FVec F S256x128 .f32 := broadcastInDim S256x128 ![] bcast_S_S256x128 main_cst_12
  let main_v35 : IVec S256x128 1 := cmpf .olt main_v33 main_v34
  let main_c_13 : IVec S_ 1 := constantI S_ 1 1#1
  let main_v36 : IVec S_ 1 := (fun x v => Host.reduce IntOp.andi x v reducesTo_S256x128_S_d0_1 h_S_) main_v35 main_c_13
  let main_v37 : IVec S_ 1 := andi main_v32 main_v36
  let main_v38 : FVec F S128 .f32 := Host.absf main_arg9
  let main_cst_14 : FVec F S_ .f32 := constant S_ .f32 0x7F800000#32
  let main_v39 : FVec F S128 .f32 := broadcastInDim S128 ![] bcast_S_S128 main_cst_14
  let main_v40 : IVec S128 1 := cmpf .olt main_v38 main_v39
  let main_c_15 : IVec S_ 1 := constantI S_ 1 1#1
  let main_v41 : IVec S_ 1 := (fun x v => Host.reduce IntOp.andi x v reducesTo_S128_S_d0 h_S_) main_v40 main_c_15
  let main_v42 : IVec S_ 1 := andi main_v37 main_v41
  let main_v43 : FVec F S128 .f32 := Host.absf main_arg10
  let main_cst_16 : FVec F S_ .f32 := constant S_ .f32 0x7F800000#32
  let main_v44 : FVec F S128 .f32 := broadcastInDim S128 ![] bcast_S_S128 main_cst_16
  let main_v45 : IVec S128 1 := cmpf .olt main_v43 main_v44
  let main_c_17 : IVec S_ 1 := constantI S_ 1 1#1
  let main_v46 : IVec S_ 1 := (fun x v => Host.reduce IntOp.andi x v reducesTo_S128_S_d0 h_S_) main_v45 main_c_17
  let main_v47 : IVec S_ 1 := andi main_v42 main_v46
  main_v47

def fn_part1 {F : FTy → Type} [FloatOps F] (main_arg5 : FVec F S128x256 .f32) (main_arg6 : FVec F S256 .f32) (main_arg7 : FVec F S256 .f32) (main_arg8 : FVec F S256x128 .f32) (main_arg9 : FVec F S128 .f32) (main_arg10 : FVec F S128 .f32) (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  let main_v18 : FVec F S128x256 .f32 := Host.absf main_arg5
  let main_cst_6 : FVec F S_ .f32 := constant S_ .f32 0x7F800000#32
  let main_v19 : FVec F S128x256 .f32 := broadcastInDim S128x256 ![] bcast_S_S128x256 main_cst_6
  let main_v20 : IVec S128x256 1 := cmpf .olt main_v18 main_v19
  let main_c_7 : IVec S_ 1 := constantI S_ 1 1#1
  let main_v21 : IVec S_ 1 := (fun x v => Host.reduce IntOp.andi x v reducesTo_S128x256_S_d0_1 h_S_) main_v20 main_c_7
  let main_v22 : IVec S_ 1 := andi main_v17 main_v21
  let main_v23 : FVec F S256 .f32 := Host.absf main_arg6
  let main_cst_8 : FVec F S_ .f32 := constant S_ .f32 0x7F800000#32
  let main_v24 : FVec F S256 .f32 := broadcastInDim S256 ![] bcast_S_S256 main_cst_8
  let main_v25 : IVec S256 1 := cmpf .olt main_v23 main_v24
  let main_c_9 : IVec S_ 1 := constantI S_ 1 1#1
  let main_v26 : IVec S_ 1 := (fun x v => Host.reduce IntOp.andi x v reducesTo_S256_S_d0 h_S_) main_v25 main_c_9
  let main_v27 : IVec S_ 1 := andi main_v22 main_v26
  let main_v28 : FVec F S256 .f32 := Host.absf main_arg7
  let main_cst_10 : FVec F S_ .f32 := constant S_ .f32 0x7F800000#32
  let main_v29 : FVec F S256 .f32 := broadcastInDim S256 ![] bcast_S_S256 main_cst_10
  let main_v30 : IVec S256 1 := cmpf .olt main_v28 main_v29
  let main_c_11 : IVec S_ 1 := constantI S_ 1 1#1
  let main_v31 : IVec S_ 1 := (fun x v => Host.reduce IntOp.andi x v reducesTo_S256_S_d0 h_S_) main_v30 main_c_11
  let main_v32 : IVec S_ 1 := andi main_v27 main_v31
  let main_v33 : FVec F S256x128 .f32 := Host.absf main_arg8
  fn_part2 (F := F) main_arg9 main_arg10 main_v32 main_v33

def fn {F : FTy → Type} [FloatOps F] (main_arg0 : FVec F S400000x128 .f32) (main_arg1 : IVec S200000x2 32) (main_arg2 : FVec F S512x128 .f32) (main_arg3 : FVec F S128 .f32) (main_arg4 : FVec F S_ .f32) (main_arg5 : FVec F S128x256 .f32) (main_arg6 : FVec F S256 .f32) (main_arg7 : FVec F S256 .f32) (main_arg8 : FVec F S256x128 .f32) (main_arg9 : FVec F S128 .f32) (main_arg10 : FVec F S128 .f32) : IVec S_ 1 :=
  let main_v0 : FVec F S400000x128 .f32 := Host.absf main_arg0
  let main_cst : FVec F S_ .f32 := constant S_ .f32 0x7F800000#32
  let main_v1 : FVec F S400000x128 .f32 := broadcastInDim S400000x128 ![] bcast_S_S400000x128 main_cst
  let main_v2 : IVec S400000x128 1 := cmpf .olt main_v0 main_v1
  let main_c : IVec S_ 1 := constantI S_ 1 1#1
  let main_v3 : IVec S_ 1 := (fun x v => Host.reduce IntOp.andi x v reducesTo_S400000x128_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S_ .f32 := Host.absf main_arg4
  let main_cst_4 : FVec F S_ .f32 := constant S_ .f32 0x7F800000#32
  let main_v15 : IVec S_ 1 := cmpf .olt main_v14 main_cst_4
  let main_c_5 : IVec S_ 1 := constantI S_ 1 1#1
  fn_part1 (F := F) main_arg5 main_arg6 main_arg7 main_arg8 main_arg9 main_arg10 main_v13 main_v15 main_c_5
-- ==== Kernel.lean ====
abbrev S400000x128 : Shape := ⟨2, ![400000, 128]⟩
abbrev S200000x2 : Shape := ⟨2, ![200000, 2]⟩
abbrev S512x128 : Shape := ⟨2, ![512, 128]⟩
abbrev S128 : Shape := ⟨1, ![128]⟩
abbrev S_ : Shape := ⟨0, ![]⟩
abbrev S128x256 : Shape := ⟨2, ![128, 256]⟩
abbrev S256 : Shape := ⟨1, ![256]⟩
abbrev S256x128 : Shape := ⟨2, ![256, 128]⟩
abbrev S400000 : Shape := ⟨1, ![400000]⟩
abbrev S50000x128 : Shape := ⟨2, ![50000, 128]⟩
abbrev S400000x1 : Shape := ⟨2, ![400000, 1]⟩
abbrev S200000x2x128 : Shape := ⟨3, ![200000, 2, 128]⟩
abbrev S400000x256 : Shape := ⟨2, ![400000, 256]⟩
abbrev S50000x256 : Shape := ⟨2, ![50000, 256]⟩
abbrev S200000x2x256 : Shape := ⟨3, ![200000, 2, 256]⟩
abbrev S400000x512 : Shape := ⟨2, ![400000, 512]⟩
abbrev S1x128 : Shape := ⟨2, ![1, 128]⟩
abbrev S1x1 : Shape := ⟨2, ![1, 1]⟩
abbrev S1x256 : Shape := ⟨2, ![1, 256]⟩
abbrev S2000x512 : Shape := ⟨2, ![2000, 512]⟩
abbrev S2000x128 : Shape := ⟨2, ![2000, 128]⟩
abbrev S2000x256 : Shape := ⟨2, ![2000, 256]⟩

abbrev nBuf : Space → Nat
  | .hbm => 94
  | .vmem => 27
  | .smem => 0
  | _ => 0

abbrev bufTy : (tb : Table) → Fin (tcTables nBuf tb) → BufTy
  | .hbm, ⟨0, _⟩ => ⟨S400000x128, .f32⟩
  | .hbm, ⟨1, _⟩ => ⟨S200000x2, .i32⟩
  | .hbm, ⟨2, _⟩ => ⟨S512x128, .f32⟩
  | .hbm, ⟨3, _⟩ => ⟨S128, .f32⟩
  | .hbm, ⟨4, _⟩ => ⟨S_, .f32⟩
  | .hbm, ⟨5, _⟩ => ⟨S128x256, .f32⟩
  | .hbm, ⟨6, _⟩ => ⟨S256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128, .f32⟩
  | .hbm, ⟨11, _⟩ => ⟨S400000, .i32⟩
  | .hbm, ⟨12, _⟩ => ⟨S_, .f32⟩
  | .hbm, ⟨13, _⟩ => ⟨S50000x128, .f32⟩
  | .hbm, ⟨14, _⟩ => ⟨S400000x1, .i32⟩
  | .hbm, ⟨15, _⟩ => ⟨S50000x128, .f32⟩
  | .hbm, ⟨16, _⟩ => ⟨S_, .i32⟩
  | .hbm, ⟨17, _⟩ => ⟨S400000, .i32⟩
  | .hbm, ⟨18, _⟩ => ⟨S400000, .i1⟩
  | .hbm, ⟨19, _⟩ => ⟨S_, .i32⟩
  | .hbm, ⟨20, _⟩ => ⟨S400000, .i32⟩
  | .hbm, ⟨21, _⟩ => ⟨S400000, .i32⟩
  | .hbm, ⟨22, _⟩ => ⟨S400000, .i32⟩
  | .hbm, ⟨23, _⟩ => ⟨S400000x1, .i32⟩
  | .hbm, ⟨24, _⟩ => ⟨S400000x128, .f32⟩
  | .hbm, ⟨25, _⟩ => ⟨S200000x2x128, .f32⟩
  | .hbm, ⟨26, _⟩ => ⟨S200000x2x128, .f32⟩
  | .hbm, ⟨27, _⟩ => ⟨S400000x128, .f32⟩
  | .hbm, ⟨28, _⟩ => ⟨S400000x128, .f32⟩
  | .hbm, ⟨29, _⟩ => ⟨S400000x256, .f32⟩
  | .hbm, ⟨30, _⟩ => ⟨S_, .f32⟩
  | .hbm, ⟨31, _⟩ => ⟨S50000x256, .f32⟩
  | .hbm, ⟨32, _⟩ => ⟨S400000x1, .i32⟩
  | .hbm, ⟨33, _⟩ => ⟨S50000x256, .f32⟩
  | .hbm, ⟨34, _⟩ => ⟨S_, .i32⟩
  | .hbm, ⟨35, _⟩ => ⟨S400000, .i32⟩
  | .hbm, ⟨36, _⟩ => ⟨S400000, .i1⟩
  | .hbm, ⟨37, _⟩ => ⟨S_, .i32⟩
  | .hbm, ⟨38, _⟩ => ⟨S400000, .i32⟩
  | .hbm, ⟨39, _⟩ => ⟨S400000, .i32⟩
  | .hbm, ⟨40, _⟩ => ⟨S400000, .i32⟩
  | .hbm, ⟨41, _⟩ => ⟨S400000x1, .i32⟩
  | .hbm, ⟨42, _⟩ => ⟨S400000x256, .f32⟩
  | .hbm, ⟨43, _⟩ => ⟨S200000x2x256, .f32⟩
  | .hbm, ⟨44, _⟩ => ⟨S200000x2x256, .f32⟩
  | .hbm, ⟨45, _⟩ => ⟨S400000x256, .f32⟩
  | .hbm, ⟨46, _⟩ => ⟨S400000x256, .f32⟩
  | .hbm, ⟨47, _⟩ => ⟨S400000x512, .f32⟩
  | .hbm, ⟨48, _⟩ => ⟨S1x128, .f32⟩
  | .hbm, ⟨49, _⟩ => ⟨S_, .f32⟩
  | .hbm, ⟨50, _⟩ => ⟨S_, .f32⟩
  | .hbm, ⟨51, _⟩ => ⟨S1x1, .f32⟩
  | .hbm, ⟨52, _⟩ => ⟨S1x128, .f32⟩
  | .hbm, ⟨53, _⟩ => ⟨S400000x256, .f32⟩
  | .hbm, ⟨54, _⟩ => ⟨S1x256, .f32⟩
  | .hbm, ⟨55, _⟩ => ⟨S1x256, .f32⟩
  | .hbm, ⟨56, _⟩ => ⟨S_, .f32⟩
  | .hbm, ⟨57, _⟩ => ⟨S1x256, .f32⟩
  | .hbm, ⟨58, _⟩ => ⟨S1x256, .f32⟩
  | .hbm, ⟨59, _⟩ => ⟨S_, .f32⟩
  | .hbm, ⟨60, _⟩ => ⟨S1x256, .f32⟩
  | .hbm, ⟨61, _⟩ => ⟨S1x256, .f32⟩
  | .hbm, ⟨62, _⟩ => ⟨S1x256, .f32⟩
  | .hbm, ⟨63, _⟩ => ⟨S1x256, .f32⟩
  | .hbm, ⟨64, _⟩ => ⟨S1x256, .f32⟩
  | .hbm, ⟨65, _⟩ => ⟨S_, .f32⟩
  | .hbm, ⟨66, _⟩ => ⟨S1x256, .f32⟩
  | .hbm, ⟨67, _⟩ => ⟨S1x256, .f32⟩
  | .hbm, ⟨68, _⟩ => ⟨S1x256, .f32⟩
  | .hbm, ⟨69, _⟩ => ⟨S1x256, .f32⟩
  | .hbm, ⟨70, _⟩ => ⟨S1x256, .f32⟩
  | .hbm, ⟨71, _⟩ => ⟨S1x256, .f32⟩
  | .hbm, ⟨72, _⟩ => ⟨S1x256, .f32⟩
  | .hbm, ⟨73, _⟩ => ⟨S400000x128, .f32⟩
  | .hbm, ⟨74, _⟩ => ⟨S1x128, .f32⟩
  | .hbm, ⟨75, _⟩ => ⟨S1x128, .f32⟩
  | .hbm, ⟨76, _⟩ => ⟨S_, .f32⟩
  | .hbm, ⟨77, _⟩ => ⟨S1x128, .f32⟩
  | .hbm, ⟨78, _⟩ => ⟨S1x128, .f32⟩
  | .hbm, ⟨79, _⟩ => ⟨S_, .f32⟩
  | .hbm, ⟨80, _⟩ => ⟨S1x128, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S_, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S1x128, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S400000x128, .f32⟩
  | .local _ .vmem, ⟨0, _⟩ => ⟨S2000x512, .f32⟩
  | .local _ .vmem, ⟨1, _⟩ => ⟨S2000x512, .f32⟩
  | .local _ .vmem, ⟨2, _⟩ => ⟨S2000x128, .f32⟩
  | .local _ .vmem, ⟨3, _⟩ => ⟨S2000x128, .f32⟩
  | .local _ .vmem, ⟨4, _⟩ => ⟨S512x128, .f32⟩
  | .local _ .vmem, ⟨5, _⟩ => ⟨S1x128, .f32⟩
  | .local _ .vmem, ⟨6, _⟩ => ⟨S1x128, .f32⟩
  | .local _ .vmem, ⟨7, _⟩ => ⟨S128x256, .f32⟩
  | .local _ .vmem, ⟨8, _⟩ => ⟨S2000x256, .f32⟩
  | .local _ .vmem, ⟨9, _⟩ => ⟨S2000x256, .f32⟩
  | .local _ .vmem, ⟨10, _⟩ => ⟨S1x256, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S1x256, .f32⟩
  | .local _ .vmem, ⟨15, _⟩ => ⟨S1x256, .f32⟩
  | .local _ .vmem, ⟨16, _⟩ => ⟨S256x128, .f32⟩
  | .local _ .vmem, ⟨17, _⟩ => ⟨S2000x128, .f32⟩
  | .local _ .vmem, ⟨18, _⟩ => ⟨S2000x128, .f32⟩
  | .local _ .vmem, ⟨19, _⟩ => ⟨S1x128, .f32⟩
  | .local _ .vmem, ⟨20, _⟩ => ⟨S1x128, .f32⟩
  | .local _ .vmem, ⟨21, _⟩ => ⟨S2000x128, .f32⟩
  | .local _ .vmem, ⟨22, _⟩ => ⟨S2000x128, .f32⟩
  | .local _ .vmem, ⟨23, _⟩ => ⟨S1x128, .f32⟩
  | .local _ .vmem, ⟨24, _⟩ => ⟨S1x128, .f32⟩
  | .local _ .vmem, ⟨25, _⟩ => ⟨S2000x128, .f32⟩
  | .local _ .vmem, ⟨26, _⟩ => ⟨S2000x128, .f32⟩
  | _, _ => ⟨S400000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35_0 : Ref sig .tc := ⟨.hbm, 53, rfl⟩
abbrev main_v35_1 : Ref sig .tc := ⟨.hbm, 54, rfl⟩
abbrev main_v35_2 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50_0 : Ref sig .tc := ⟨.hbm, 73, rfl⟩
abbrev main_v50_1 : Ref sig .tc := ⟨.hbm, 74, rfl⟩
abbrev main_v50_2 : Ref sig .tc := ⟨.hbm, 75, rfl⟩
abbrev main_cst_8 : Ref sig .tc := ⟨.hbm, 76, rfl⟩
abbrev main_v51 : Ref sig .tc := ⟨.hbm, 77, rfl⟩
abbrev main_v52 : Ref sig .tc := ⟨.hbm, 78, rfl⟩
abbrev main_cst_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_10 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg6_0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg3_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem4_1 : DmaSem sig := 18
abbrev cc1_sem5_0 : DmaSem sig := 19
abbrev cc1_sem6_0 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem3_1 : DmaSem sig := 26

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S200000x2_S400000 : S200000x2.ShapeCasts S400000
  bcast_S_S50000x128 : S_.BroadcastsInDim S50000x128 (![] : Fin 0 → Fin S50000x128.rank)
  bcast_S400000_S400000x1_0 : S400000.BroadcastsInDim S400000x1 (![0] : Fin 1 → Fin S400000x1.rank)
  bcast_S_S400000 : S_.BroadcastsInDim S400000 (![] : Fin 0 → Fin S400000.rank)
  shapeCasts_S400000x128_S200000x2x128 : S400000x128.ShapeCasts S200000x2x128
  shapeCasts_S200000x2x128_S400000x128 : S200000x2x128.ShapeCasts S400000x128
  concatenates_S400000x128_S400000x128_S400000x256_d1 : Shape.Concatenates [S400000x128, S400000x128] S400000x256 1
  bcast_S_S50000x256 : S_.BroadcastsInDim S50000x256 (![] : Fin 0 → Fin S50000x256.rank)
  shapeCasts_S400000x256_S200000x2x256 : S400000x256.ShapeCasts S200000x2x256
  shapeCasts_S200000x2x256_S400000x256 : S200000x2x256.ShapeCasts S400000x256
  concatenates_S400000x256_S400000x256_S400000x512_d1 : Shape.Concatenates [S400000x256, S400000x256] S400000x512 1
  shapeCasts_S128_S1x128 : S128.ShapeCasts S1x128
  shapeCasts_S_S1x1 : S_.ShapeCasts S1x1
  bcast_S1x1_S1x128_0_1 : S1x1.BroadcastsInDim S1x128 (![0, 1] : Fin 2 → Fin S1x128.rank)
  inb_S1x256_S1x256_0_0 : ∀ a, (![0, 0] : Fin 2 → Nat) a + S1x256.size a ≤ S1x256.size a
  h_S1x256 : 0 < S1x256.numel
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  shapeCasts_S1x256_S1x256 : S1x256.ShapeCasts S1x256
  reduces_S2000x256_S256 : S2000x256.Reduces [0] S256
  shapeCasts_S256_S1x256 : S256.ShapeCasts S1x256
  bcast_S_S1x256 : S_.BroadcastsInDim S1x256 (![] : Fin 0 → Fin S1x256.rank)
  shapeCasts_S2000x256_S2000x256 : S2000x256.ShapeCasts S2000x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  reduces_S2000x128_S128 : S2000x128.Reduces [0] S128
  bcast_S_S1x128 : S_.BroadcastsInDim S1x128 (![] : Fin 0 → Fin S1x128.rank)
  shapeCasts_S2000x128_S2000x128 : S2000x128.ShapeCasts S2000x128
  scatter_S50000x128_S400000x1_S400000x128_1_0_0_1_wf : ScatterDims.WF S50000x128 S400000x1 S400000x128 [1] [0] [0] 1
  gather_S50000x128_S400000x1_S400000x128_1_0_n_n_0_1_1128_wf : GatherDims.WF S50000x128 S400000x1 S400000x128 [1] [0] [] [0] [] 1 ![1, 128]
  scatter_S50000x256_S400000x1_S400000x256_1_0_0_1_wf : ScatterDims.WF S50000x256 S400000x1 S400000x256 [1] [0] [0] 1
  gather_S50000x256_S400000x1_S400000x256_1_0_n_n_0_1_1256_wf : GatherDims.WF S50000x256 S400000x1 S400000x256 [1] [0] [] [0] [] 1 ![1, 256]
  dot_S2000x512_S512x128_S2000x128_1_0_0_1_n_n_wf : DotDims.WF S2000x512 S512x128 S2000x128 [1] [0] [0] [1] [] []
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S400000x512.size a
  hwx0_0 : ∀ i : grid0.Coords, EltTy.bits .f32 = 32 ∨ (Rect.block (s := S400000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S400000x128.size a
  hwx0_1 : ∀ i : grid0.Coords, EltTy.bits .f32 = 32 ∨ (Rect.block (s := S400000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S400000x256.size a
  hwx0_6 : ∀ i : grid0.Coords, EltTy.bits .f32 = 32 ∨ (Rect.block (s := S400000x256) S2000x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S400000x256.size a
  hwx1_0 : ∀ i : grid1.Coords, EltTy.bits .f32 = 32 ∨ (Rect.block (s := S400000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S400000x128.size a
  hwx1_4 : ∀ i : grid1.Coords, EltTy.bits .f32 = 32 ∨ (Rect.block (s := S400000x128) S2000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S400000x128.size a
  hwx2_0 : ∀ i : grid2.Coords, EltTy.bits .f32 = 32 ∨ (Rect.block (s := S400000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S400000x128.size a
  hwx2_3 : ∀ i : grid2.Coords, EltTy.bits .f32 = 32 ∨ (Rect.block (s := S400000x128) S2000x128.size (cc2_transform_3 i) (hinb2_3 i)).WholeWords (EltTy.packing .f32)

variable [Facts₀]

def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v30) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v35_0) S2000x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v35_1) S1x256.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v35_2) S1x256.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v35_0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50_0) S2000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v50_1) S1x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v50_2) S1x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v50_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S400000x128 : Shape := ⟨2, ![400000, 128]⟩
abbrev S200000x2 : Shape := ⟨2, ![200000, 2]⟩
abbrev S512x128 : Shape := ⟨2, ![512, 128]⟩
abbrev S128 : Shape := ⟨1, ![128]⟩
abbrev S_ : Shape := ⟨0, ![]⟩
abbrev S128x256 : Shape := ⟨2, ![128, 256]⟩
abbrev S256 : Shape := ⟨1, ![256]⟩
abbrev S256x128 : Shape := ⟨2, ![256, 128]⟩
abbrev S400000 : Shape := ⟨1, ![400000]⟩
abbrev S50000x128 : Shape := ⟨2, ![50000, 128]⟩
abbrev S400000x1 : Shape := ⟨2, ![400000, 1]⟩
abbrev S200000x2x128 : Shape := ⟨3, ![200000, 2, 128]⟩
abbrev S400000x256 : Shape := ⟨2, ![400000, 256]⟩
abbrev S50000x256 : Shape := ⟨2, ![50000, 256]⟩
abbrev S200000x2x256 : Shape := ⟨3, ![200000, 2, 256]⟩
abbrev S400000x512 : Shape := ⟨2, ![400000, 512]⟩
abbrev S1x128 : Shape := ⟨2, ![1, 128]⟩
abbrev S1x256 : Shape := ⟨2, ![1, 256]⟩

abbrev nBuf : Space → Nat
  | .hbm => 153
  | .vmem => 0
  | .smem => 0
  | _ => 0

abbrev hbmTy0_0 (i : Nat) : BufTy := match i % 128 with
  | 0 => ⟨S400000x128, .f32⟩
  | 1 => ⟨S200000x2, .i32⟩
  | 2 => ⟨S512x128, .f32⟩
  | 3 => ⟨S128, .f32⟩
  | 4 => ⟨S_, .f32⟩
  | 5 => ⟨S128x256, .f32⟩
  | 6 => ⟨S256, .f32⟩
  | 7 => ⟨S256, .f32⟩
  | 8 => ⟨S256x128, .f32⟩
  | 9 => ⟨S128, .f32⟩
  | 10 => ⟨S128, .f32⟩
  | 11 => ⟨S400000, .i32⟩
  | 12 => ⟨S_, .f32⟩
  | 13 => ⟨S50000x128, .f32⟩
  | 14 => ⟨S400000x1, .i32⟩
  | 15 => ⟨S50000x128, .f32⟩
  | 16 => ⟨S_, .i32⟩
  | 17 => ⟨S400000, .i32⟩
  | 18 => ⟨S400000, .i1⟩
  | 19 => ⟨S_, .i32⟩
  | 20 => ⟨S400000, .i32⟩
  | 21 => ⟨S400000, .i32⟩
  | 22 => ⟨S400000, .i32⟩
  | 23 => ⟨S400000x1, .i32⟩
  | 24 => ⟨S400000x128, .f32⟩
  | 25 => ⟨S200000x2x128, .f32⟩
  | 26 => ⟨S200000x2x128, .f32⟩
  | 27 => ⟨S400000x128, .f32⟩
  | 28 => ⟨S400000x128, .f32⟩
  | 29 => ⟨S400000x256, .f32⟩
  | 30 => ⟨S_, .f32⟩
  | 31 => ⟨S50000x256, .f32⟩
  | 32 => ⟨S400000x1, .i32⟩
  | 33 => ⟨S50000x256, .f32⟩
  | 34 => ⟨S_, .i32⟩
  | 35 => ⟨S400000, .i32⟩
  | 36 => ⟨S400000, .i1⟩
  | 37 => ⟨S_, .i32⟩
  | 38 => ⟨S400000, .i32⟩
  | 39 => ⟨S400000, .i32⟩
  | 40 => ⟨S400000, .i32⟩
  | 41 => ⟨S400000x1, .i32⟩
  | 42 => ⟨S400000x256, .f32⟩
  | 43 => ⟨S200000x2x256, .f32⟩
  | 44 => ⟨S200000x2x256, .f32⟩
  | 45 => ⟨S400000x256, .f32⟩
  | 46 => ⟨S400000x256, .f32⟩
  | 47 => ⟨S400000x512, .f32⟩
  | 48 => ⟨S400000x128, .f32⟩
  | 49 => ⟨S1x128, .f32⟩
  | 50 => ⟨S400000x128, .f32⟩
  | 51 => ⟨S400000x128, .f32⟩
  | 52 => ⟨S_, .f32⟩
  | 53 => ⟨S_, .f32⟩
  | 54 => ⟨S400000x128, .f32⟩
  | 55 => ⟨S400000x128, .f32⟩
  | 56 => ⟨S400000x128, .f32⟩
  | 57 => ⟨S400000x256, .f32⟩
  | 58 => ⟨S_, .f32⟩
  | 59 => ⟨S256, .f32⟩
  | 60 => ⟨S_, .f32⟩
  | 61 => ⟨S256, .f32⟩
  | 62 => ⟨S256, .f32⟩
  | 63 => ⟨S_, .i32⟩
  | 64 => ⟨S_, .f32⟩
  | 65 => ⟨S256, .f32⟩
  | 66 => ⟨S1x256, .f32⟩
  | 67 => ⟨S_, .f32⟩
  | 68 => ⟨S1x256, .f32⟩
  | 69 => ⟨S1x256, .f32⟩
  | 70 => ⟨S400000x256, .f32⟩
  | 71 => ⟨S400000x256, .f32⟩
  | 72 => ⟨S400000x256, .f32⟩
  | 73 => ⟨S_, .f32⟩
  | 74 => ⟨S_, .f32⟩
  | 75 => ⟨S_, .f32⟩
  | 76 => ⟨S_, .f32⟩
  | 77 => ⟨S256, .f32⟩
  | 78 => ⟨S256, .f32⟩
  | 79 => ⟨S256, .f32⟩
  | 80 => ⟨S_, .f32⟩
  | 81 => ⟨S_, .i1⟩
  | 82 => ⟨S_, .f32⟩
  | 83 => ⟨S_, .f32⟩
  | 84 => ⟨S256, .f32⟩
  | 85 => ⟨S256, .f32⟩
  | 86 => ⟨S1x256, .f32⟩
  | 87 => ⟨S400000x256, .f32⟩
  | 88 => ⟨S400000x256, .f32⟩
  | 89 => ⟨S_, .f32⟩
  | 90 => ⟨S256, .f32⟩
  | 91 => ⟨S256, .f32⟩
  | 92 => ⟨S256, .f32⟩
  | 93 => ⟨S1x256, .f32⟩
  | 94 => ⟨S400000x256, .f32⟩
  | 95 => ⟨S400000x256, .f32⟩
  | 96 => ⟨S1x256, .f32⟩
  | 97 => ⟨S400000x256, .f32⟩
  | 98 => ⟨S400000x256, .f32⟩
  | 99 => ⟨S1x256, .f32⟩
  | 100 => ⟨S400000x256, .f32⟩
  | 101 => ⟨S400000x256, .f32⟩
  | 102 => ⟨S_, .f32⟩
  | 103 => ⟨S400000x256, .f32⟩
  | 104 => ⟨S400000x256, .f32⟩
  | 105 => ⟨S400000x128, .f32⟩
  | 106 => ⟨S_, .f32⟩
  | 107 => ⟨S128, .f32⟩
  | 108 => ⟨S_, .f32⟩
  | 109 => ⟨S128, .f32⟩
  | 110 => ⟨S128, .f32⟩
  | 111 => ⟨S_, .i32⟩
  | 112 => ⟨S_, .f32⟩
  | 113 => ⟨S128, .f32⟩
  | 114 => ⟨S1x128, .f32⟩
  | 115 => ⟨S_, .f32⟩
  | 116 => ⟨S1x128, .f32⟩
  | 117 => ⟨S1x128, .f32⟩
  | 118 => ⟨S400000x128, .f32⟩
  | 119 => ⟨S400000x128, .f32⟩
  | 120 => ⟨S400000x128, .f32⟩
  | 121 => ⟨S_, .f32⟩
  | 122 => ⟨S_, .f32⟩
  | 123 => ⟨S_, .f32⟩
  | 124 => ⟨S_, .f32⟩
  | 125 => ⟨S128, .f32⟩
  | 126 => ⟨S128, .f32⟩
  | 127 => ⟨S128, .f32⟩
  | _ => ⟨S400000x128, .f32⟩

abbrev hbmTy0_1 (i : Nat) : BufTy := match i % 128 with
  | 0 => ⟨S_, .f32⟩
  | 1 => ⟨S_, .i1⟩
  | 2 => ⟨S_, .f32⟩
  | 3 => ⟨S_, .f32⟩
  | 4 => ⟨S128, .f32⟩
  | 5 => ⟨S128, .f32⟩
  | 6 => ⟨S1x128, .f32⟩
  | 7 => ⟨S400000x128, .f32⟩
  | 8 => ⟨S400000x128, .f32⟩
  | 9 => ⟨S_, .f32⟩
  | 10 => ⟨S128, .f32⟩
  | 11 => ⟨S128, .f32⟩
  | 12 => ⟨S128, .f32⟩
  | 13 => ⟨S1x128, .f32⟩
  | 14 => ⟨S400000x128, .f32⟩
  | 15 => ⟨S400000x128, .f32⟩
  | 16 => ⟨S1x128, .f32⟩
  | 17 => ⟨S400000x128, .f32⟩
  | 18 => ⟨S400000x128, .f32⟩
  | 19 => ⟨S1x128, .f32⟩
  | 20 => ⟨S400000x128, .f32⟩
  | 21 => ⟨S400000x128, .f32⟩
  | 22 => ⟨S_, .f32⟩
  | 23 => ⟨S400000x128, .f32⟩
  | 24 => ⟨S400000x128, .f32⟩
  | _ => ⟨S400000x128, .f32⟩

abbrev hbmTy (i : Nat) : BufTy := match i / 128 with
  | 0 => hbmTy0_0 i
  | 1 => hbmTy0_1 i
  | _ => ⟨S400000x128, .f32⟩

abbrev bufTy : (tb : Table) → Fin (tcTables nBuf tb) → BufTy
  | .hbm, ⟨i, _⟩ => hbmTy i
  | _, _ => ⟨S400000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_c_7 : Ref sig .tc := ⟨.hbm, 63, rfl⟩
abbrev main_call0_cst : Ref sig .tc := ⟨.hbm, 64, rfl⟩
abbrev main_call0_v0 : Ref sig .tc := ⟨.hbm, 65, rfl⟩
abbrev main_call0_v1 : Ref sig .tc := ⟨.hbm, 66, rfl⟩
abbrev main_call0_cst_0 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_v5 : Ref sig .tc := ⟨.hbm, 71, rfl⟩
abbrev main_call0_v6 : Ref sig .tc := ⟨.hbm, 72, rfl⟩
abbrev main_call0_v7 : Ref sig .tc := ⟨.hbm, 73, rfl⟩
abbrev main_call0_cst_1 : Ref sig .tc := ⟨.hbm, 74, rfl⟩
abbrev main_call0_v8 : Ref sig .tc := ⟨.hbm, 75, rfl⟩
abbrev main_call0_cst_2 : Ref sig .tc := ⟨.hbm, 76, rfl⟩
abbrev main_call0_v9 : Ref sig .tc := ⟨.hbm, 77, rfl⟩
abbrev main_call0_v10 : Ref sig .tc := ⟨.hbm, 78, rfl⟩
abbrev main_call0_v11 : Ref sig .tc := ⟨.hbm, 79, rfl⟩
abbrev main_call0_cst_3 : Ref sig .tc := ⟨.hbm, 80, rfl⟩
abbrev main_call0_v12 : Ref sig .tc := ⟨.hbm, 81, rfl⟩
abbrev main_call0_cst_4 : Ref sig .tc := ⟨.hbm, 82, rfl⟩
abbrev main_call0_call0_v0 : Ref sig .tc := ⟨.hbm, 83, rfl⟩
abbrev main_call0_call0_v1 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_cst_8 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_call1_cst : Ref sig .tc := ⟨.hbm, 102, rfl⟩
abbrev main_call1_v0 : Ref sig .tc := ⟨.hbm, 103, rfl⟩
abbrev main_v59 : Ref sig .tc := ⟨.hbm, 104, rfl⟩
abbrev main_v60 : Ref sig .tc := ⟨.hbm, 105, rfl⟩
abbrev main_cst_9 : Ref sig .tc := ⟨.hbm, 106, rfl⟩
abbrev main_v61 : Ref sig .tc := ⟨.hbm, 107, rfl⟩
abbrev main_cst_10 : Ref sig .tc := ⟨.hbm, 108, rfl⟩
abbrev main_v62 : Ref sig .tc := ⟨.hbm, 109, rfl⟩
abbrev main_v63 : Ref sig .tc := ⟨.hbm, 110, rfl⟩
abbrev main_c_11 : Ref sig .tc := ⟨.hbm, 111, rfl⟩
abbrev main_call2_cst : Ref sig .tc := ⟨.hbm, 112, rfl⟩
abbrev main_call2_v0 : Ref sig .tc := ⟨.hbm, 113, rfl⟩
abbrev main_call2_v1 : Ref sig .tc := ⟨.hbm, 114, rfl⟩
abbrev main_call2_cst_0 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_call2_v5 : Ref sig .tc := ⟨.hbm, 119, rfl⟩
abbrev main_call2_v6 : Ref sig .tc := ⟨.hbm, 120, rfl⟩
abbrev main_call2_v7 : Ref sig .tc := ⟨.hbm, 121, rfl⟩
abbrev main_call2_cst_1 : Ref sig .tc := ⟨.hbm, 122, rfl⟩
abbrev main_call2_v8 : Ref sig .tc := ⟨.hbm, 123, rfl⟩
abbrev main_call2_cst_2 : Ref sig .tc := ⟨.hbm, 124, rfl⟩
abbrev main_call2_v9 : Ref sig .tc := ⟨.hbm, 125, rfl⟩
abbrev main_call2_v10 : Ref sig .tc := ⟨.hbm, 126, rfl⟩
abbrev main_call2_v11 : Ref sig .tc := ⟨.hbm, 127, rfl⟩
abbrev main_call2_cst_3 : Ref sig .tc := ⟨.hbm, 128, rfl⟩
abbrev main_call2_v12 : Ref sig .tc := ⟨.hbm, 129, rfl⟩
abbrev main_call2_cst_4 : Ref sig .tc := ⟨.hbm, 130, rfl⟩
abbrev main_call2_call0_v0 : Ref sig .tc := ⟨.hbm, 131, rfl⟩
abbrev main_call2_call0_v1 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_cst_12 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_call3_cst : Ref sig .tc := ⟨.hbm, 150, rfl⟩
abbrev main_call3_v0 : Ref sig .tc := ⟨.hbm, 151, rfl⟩
abbrev main_v80 : Ref sig .tc := ⟨.hbm, 152, rfl⟩

abbrev nD : Nat := 1
abbrev τ : Topo := Topo.v7x

variable {F : FTy → Type} [FloatOps F]

class Facts₀ : Prop where
  shapeCasts_S200000x2_S400000 : S200000x2.ShapeCasts S400000
  bcast_S_S50000x128 : S_.BroadcastsInDim S50000x128 (![] : Fin 0 → Fin S50000x128.rank)
  bcast_S400000_S400000x1_0 : S400000.BroadcastsInDim S400000x1 (![0] : Fin 1 → Fin S400000x1.rank)
  bcast_S_S400000 : S_.BroadcastsInDim S400000 (![] : Fin 0 → Fin S400000.rank)
  shapeCasts_S400000x128_S200000x2x128 : S400000x128.ShapeCasts S200000x2x128
  shapeCasts_S200000x2x128_S400000x128 : S200000x2x128.ShapeCasts S400000x128
  concatenates_S400000x128_S400000x128_S400000x256_d1 : Shape.Concatenates [S400000x128, S400000x128] S400000x256 1
  bcast_S_S50000x256 : S_.BroadcastsInDim S50000x256 (![] : Fin 0 → Fin S50000x256.rank)
  shapeCasts_S400000x256_S200000x2x256 : S400000x256.ShapeCasts S200000x2x256
  shapeCasts_S200000x2x256_S400000x256 : S200000x2x256.ShapeCasts S400000x256
  concatenates_S400000x256_S400000x256_S400000x512_d1 : Shape.Concatenates [S400000x256, S400000x256] S400000x512 1
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  reducesTo_S400000x256_S256_d0 : S400000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S400000x256_0_1 : S1x256.BroadcastsInDim S400000x256 (![0, 1] : Fin 2 → Fin S400000x256.rank)
  bcast_S_S400000x256 : S_.BroadcastsInDim S400000x256 (![] : Fin 0 → Fin S400000x256.rank)
  reducesTo_S400000x128_S128_d0 : S400000x128.ReducesTo [0] S128
  bcast_S_S128 : S_.BroadcastsInDim S128 (![] : Fin 0 → Fin S128.rank)
  bcast_S_S1x128 : S_.BroadcastsInDim S1x128 (![] : Fin 0 → Fin S1x128.rank)
  scatter_S50000x128_S400000x1_S400000x128_1_0_0_1_wf : ScatterDims.WF S50000x128 S400000x1 S400000x128 [1] [0] [0] 1
  gather_S50000x128_S400000x1_S400000x128_1_0_n_n_0_1_1128_wf : GatherDims.WF S50000x128 S400000x1 S400000x128 [1] [0] [] [0] [] 1 ![1, 128]
  scatter_S50000x256_S400000x1_S400000x256_1_0_0_1_wf : ScatterDims.WF S50000x256 S400000x1 S400000x256 [1] [0] [0] 1
  gather_S50000x256_S400000x1_S400000x256_1_0_n_n_0_1_1256_wf : GatherDims.WF S50000x256 S400000x1 S400000x256 [1] [0] [] [0] [] 1 ![1, 256]
  dot_S400000x512_S512x128_S400000x128_1_0_0_1_n_n_wf : DotDims.WF S400000x512 S512x128 S400000x128 [1] [0] [0] [1] [] []
  dot_S400000x128_S128x256_S400000x256_1_0_0_1_n_n_wf : DotDims.WF S400000x128 S128x256 S400000x256 [1] [0] [0] [1] [] []
  dot_S400000x256_S256x128_S400000x128_1_0_0_1_n_n_wf : DotDims.WF S400000x256 S256x128 S400000x128 [1] [0] [0] [1] [] []

variable [Facts₀]

def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def dot_S400000x512_S512x128_S400000x128_1_0_0_1_n_n : DotDims S400000x512 S512x128 S400000x128 where
  lhsContracting := [1]
  rhsContracting := [0]
  lhsNonContracting := [0]
  rhsNonContracting := [1]
  lhsBatch := []
  rhsBatch := []
  wf := dot_S400000x512_S512x128_S400000x128_1_0_0_1_n_n_wf
def dot_S400000x128_S128x256_S400000x256_1_0_0_1_n_n : DotDims S400000x128 S128x256 S400000x256 where
  lhsContracting := [1]
  rhsContracting := [0]
  lhsNonContracting := [0]
  rhsNonContracting := [1]
  lhsBatch := []
  rhsBatch := []
  wf := dot_S400000x128_S128x256_S400000x256_1_0_0_1_n_n_wf
def dot_S400000x256_S256x128_S400000x128_1_0_0_1_n_n : DotDims S400000x256 S256x128 S400000x128 where
  lhsContracting := [1]
  rhsContracting := [0]
  lhsNonContracting := [0]
  rhsNonContracting := [1]
  lhsBatch := []
  rhsBatch := []
  wf := dot_S400000x256_S256x128_S400000x128_1_0_0_1_n_n_wf

class Facts : Prop extends Facts₀ where

variable [Facts]
-- ==== Proof.Spec.lean ====
/-
  The mathematics both programs compute, written once over arrays of extended reals indexed by row and column.

  An edge-feature array `h` (400000 × 512) is mapped by a linear layer with bias, a residual `(1 + eps) · x` is added,
  and the result is multiplied by `W1`; the product's columns are normalised by their own mean and variance over all
  rows (a batch normalisation, with the variance taken as the mean of the squares minus the square of the mean), scaled
  by `γ`, shifted by `β` and clipped below at zero; the same is done once more after a product with `W2`.

  The normalisation is written here in its AFFINE form: each column has one scale `γ · (var + ε)^(-1/2)` and one shift
  `β - mean · scale`, and an entry `a` becomes `max (a · scale + shift) 0`.
-/
import Idealize.ShloMosaic.PureOps.Ideal
import Idealize.ShloMosaic.Lib.ValueIdx

noncomputable section

open scoped BigOperators

namespace Cert.Spec

open Idealize.ShloMosaic

/-- The number of rows, 400000, as the float literal both programs divide by. -/
abbrev nLit : EReal := Ideal.ofBits .f32 0x48C35000#32
/-- The variance offset, the float nearest to 1e-5. -/
abbrev epsLit : EReal := Ideal.ofBits .f32 0x3727C5AC#32
/-- The float zero. -/
abbrev zeroLit : EReal := Ideal.ofBits .f32 0x00000000#32
/-- The float one. -/
abbrev oneLit : EReal := Ideal.ofBits .f32 0x3F800000#32

/-- An array of `n` rows and `C` columns of extended reals. -/
abbrev Mat (n C : Nat) : Type := Fin n → Fin C → EReal

/-- The matrix product: entry (r, j) is the sum over k of `z r k · W k j`. -/
def mm {n K C : Nat} (z : Mat n K) (W : Mat K C) : Mat n C := fun r j => ∑ k, z r k * W k j

/-- The first layer before its second product: `(h · Wl + b) + s · x`, the bias a row vector and `s` one scalar per column. -/
def lin {n K C : Nat} (h : Mat n K) (Wl : Mat K C) (b s : Fin C → EReal) (x : Mat n C) : Mat n C :=
  fun r k => (∑ l, h r l * Wl l k + b k) + s k * x r k

/-- A column's sum over all rows. -/
def colSum {n C : Nat} (a : Mat n C) (j : Fin C) : EReal := ∑ r, a r j

/-- A column's sum of squares over all rows. -/
def colSumSq {n C : Nat} (a : Mat n C) (j : Fin C) : EReal := ∑ r, a r j * a r j

/-- The column mean from the column sum `s`. -/
def meanOf (s : EReal) : EReal := Ideal.div s nLit

/-- The column variance from the column sum `s` and the column sum of squares `q`: mean of squares minus squared mean. -/
def varOf (s q : EReal) : EReal := Ideal.div q nLit - meanOf s * meanOf s

/-- The column scale `γ · (var + ε)^(-1/2)`. -/
def scaleOf (γ s q : EReal) : EReal := γ * Ideal.rsqrt (varOf s q + epsLit)

/-- The column shift `β - mean · scale`. -/
def shiftOf (γ β s q : EReal) : EReal := β - meanOf s * scaleOf γ s q

/-- One entry normalised in the affine form and clipped below at zero. -/
def affRelu (a sc sh : EReal) : EReal := max (a * sc + sh) zeroLit

/-- A whole array normalised column by column by its own statistics, in the affine form, and clipped. -/
def bnRelu {n C : Nat} (a : Mat n C) (γ β : Fin C → EReal) : Mat n C :=
  fun r j => affRelu (a r j) (scaleOf (γ j) (colSum a j) (colSumSq a j)) (shiftOf (γ j) (β j) (colSum a j) (colSumSq a j))

/-- The first pre-activation: `((h · Wl + b) + (1 + eps) · x) · W1`. -/
def pre1 {n : Nat} (h : Mat n 512) (x : Mat n 128) (Wl : Mat 512 128) (b : Fin 128 → EReal) (eps : EReal) (W1 : Mat 128 256) :
    Mat n 256 :=
  mm (lin h Wl b (fun _ => oneLit + eps) x) W1

/-- The whole computation from the edge features on: two normalised, clipped layers. -/
def out {n : Nat} (h : Mat n 512) (x : Mat n 128) (Wl : Mat 512 128) (b : Fin 128 → EReal) (eps : EReal) (W1 : Mat 128 256)
    (g1 be1 : Fin 256 → EReal) (W2 : Mat 256 128) (g2 be2 : Fin 128 → EReal) : Mat n 128 :=
  bnRelu (mm (bnRelu (pre1 h x Wl b eps W1) g1 be1) W2) g2 be2

/-! ## Arrays indexed by a shape's index, read as matrices and back -/

open Idealize.ShloMosaic.ValueIdx

/-- A rank-2 array read as a matrix: entry (r, j) is the array at the index with those two coordinates. -/
def toMat {n C : Nat} (v : (⟨2, ![n, C]⟩ : Shape).Idx → EReal) : Mat n C := fun r j => v (ix2 r j)

/-- A matrix laid out as a rank-2 array. -/
def ofMat {n C : Nat} (M : Mat n C) : (⟨2, ![n, C]⟩ : Shape).Idx → EReal := fun i => M (i 0) (i 1)

/-- A rank-1 array read as a vector. -/
def toVec {C : Nat} (v : (⟨1, ![C]⟩ : Shape).Idx → EReal) : Fin C → EReal := fun j => v (ix1 j)

/-- A one-row rank-2 array read as a vector. -/
def rowVec {C : Nat} (v : (⟨2, ![1, C]⟩ : Shape).Idx → EReal) : Fin C → EReal := fun j => v (ix2 0 j)

/-- A vector laid out as a one-row rank-2 array. -/
def ofRow {C : Nat} (f : Fin C → EReal) : (⟨2, ![1, C]⟩ : Shape).Idx → EReal := fun i => f (i 1)

theorem ofMat_ix2 {n C : Nat} (M : Mat n C) (r : Fin n) (j : Fin C) : ofMat M (ix2 r j) = M r j := rfl

theorem toMat_ofMat {n C : Nat} (M : Mat n C) : toMat (ofMat M) = M := rfl

theorem ofMat_toMat {n C : Nat} (v : (⟨2, ![n, C]⟩ : Shape).Idx → EReal) : ofMat (toMat v) = v :=
  funext fun i => congrArg v (eq_ix2 i).symm

theorem rowVec_ofRow {C : Nat} (f : Fin C → EReal) : rowVec (ofRow f) = f := rfl

end Cert.Spec

end
-- ==== Proof.Algebra.lean ====
/-
  The real analysis under the certificate, over the extended reals with every quantity a real number.

  * The float literals: the row count 400000, a positive variance offset, zero and one.
  * Sums, products and the two layer formulas of real entries are real.
  * One column of a batch normalisation, entry by entry: the reference's form
      max ((a - μ) · (v + ε)^(-1/2) · γ + β) 0,   μ = (0 + Σ a)/n,   v = (0 + Σ (a - μ)²)/(n - 0),
    equals the affine form  max (a · s + (β - μ · s)) 0  with  s = γ · (q/n - μ² + ε)^(-1/2),  q = Σ a²,
    because Σ (a - μ)² = Σ a² - n μ² when n is the number of rows, the variance is not negative so its offset sum is
    positive and the inverse square root is a real number, and real multiplication distributes.
  * A sum over T · R rows is the sum over T blocks of the sums over the R rows of a block.
-/
import proofs.«139709_j50869592655480_1_alg».proof.Proof.Spec
import Idealize.ShloMosaic.PureOps.Ideal.Laws

noncomputable section

open scoped BigOperators

namespace Cert.Algebra

open Idealize.ShloMosaic Cert.Spec

/-- An extended real that is a real number. -/
def IsReal (x : EReal) : Prop := ∃ r : ℝ, x = (r : EReal)

/-! ## The literals -/

theorem nLit_eq : nLit = ((400000 : ℝ) : EReal) := by
  simp [Ideal.ofBits, Ideal.ieee]
  rw [← EReal.coe_mul]
  norm_num
theorem zeroLit_eq : zeroLit = 0 := Ideal.ofBits_zero_f32
theorem oneLit_eq : oneLit = ((1 : ℝ) : EReal) := by
  simp [Ideal.ofBits, Ideal.ieee]
  rw [← EReal.coe_mul, ← EReal.coe_one]
  norm_num
theorem epsLit_pos : ∃ e : ℝ, 0 < e ∧ epsLit = (e : EReal) := by
  refine ⟨10995116 * (2 ^ 40)⁻¹, by positivity, ?_⟩
  simp [Ideal.ofBits, Ideal.ieee]

/-! ## Real entries stay real -/

theorem isReal_coe (r : ℝ) : IsReal (r : EReal) := ⟨r, rfl⟩
theorem isReal_zero : IsReal 0 := ⟨0, rfl⟩
theorem isReal_add {x y : EReal} (hx : IsReal x) (hy : IsReal y) : IsReal (x + y) := by
  obtain ⟨a, rfl⟩ := hx
  obtain ⟨b, rfl⟩ := hy
  exact ⟨a + b, (EReal.coe_add a b).symm⟩
theorem isReal_mul {x y : EReal} (hx : IsReal x) (hy : IsReal y) : IsReal (x * y) := by
  obtain ⟨a, rfl⟩ := hx
  obtain ⟨b, rfl⟩ := hy
  exact ⟨a * b, (EReal.coe_mul a b).symm⟩
theorem isReal_sum {ι : Type} (s : Finset ι) (f : ι → EReal) (hf : ∀ i ∈ s, IsReal (f i)) : IsReal (∑ i ∈ s, f i) :=
  Finset.sum_induction f IsReal (fun _ _ => isReal_add) isReal_zero hf

theorem isReal_mm {n K C : Nat} (z : Mat n K) (W : Mat K C) (hz : ∀ r k, IsReal (z r k)) (hW : ∀ k j, IsReal (W k j)) (r : Fin n) (j : Fin C) :
    IsReal (mm z W r j) :=
  isReal_sum _ _ fun k _ => isReal_mul (hz r k) (hW k j)

theorem isReal_lin {n K C : Nat} (h : Mat n K) (Wl : Mat K C) (b s : Fin C → EReal) (x : Mat n C) (hh : ∀ r l, IsReal (h r l))
    (hWl : ∀ l k, IsReal (Wl l k)) (hb : ∀ k, IsReal (b k)) (hs : ∀ k, IsReal (s k)) (hx : ∀ r k, IsReal (x r k)) (r : Fin n) (k : Fin C) :
    IsReal (lin h Wl b s x r k) :=
  isReal_add (isReal_add (isReal_sum _ _ fun l _ => isReal_mul (hh r l) (hWl l k)) (hb k)) (isReal_mul (hs k) (hx r k))

/-! ## Auxiliary real analysis -/

/-- A finite sum of real numbers taken in the extended reals is the real sum. -/
theorem coe_sum {ι : Type} (s : Finset ι) (f : ι → ℝ) : ∑ i ∈ s, ((f i : ℝ) : EReal) = ((∑ i ∈ s, f i : ℝ) : EReal) := by
  classical
  refine Finset.induction_on s (by simp) ?_
  intro i s hi ih
  rw [Finset.sum_insert hi, Finset.sum_insert hi, ih, EReal.coe_add]

/-- The inverse square root of a positive real is the real inverse of its square root. -/
theorem rsqrt_pos {x : ℝ} (hx : 0 < x) : Ideal.rsqrt (x : EReal) = (((Real.sqrt x)⁻¹ : ℝ) : EReal) := by
  rw [Ideal.rsqrt_coe, if_neg (not_lt.mpr hx.le), if_neg hx.ne']

theorem isReal_sub {x y : EReal} (hx : IsReal x) (hy : IsReal y) : IsReal (x - y) := by
  obtain ⟨a, rfl⟩ := hx
  obtain ⟨b, rfl⟩ := hy
  exact ⟨a - b, (EReal.coe_sub a b).symm⟩

theorem isReal_max {x y : EReal} (hx : IsReal x) (hy : IsReal y) : IsReal (max x y) := by
  rcases max_choice x y with h | h <;> rw [h] <;> assumption

/-- With μ the mean of 400000 numbers, the mean of the squared deviations from μ is the mean of the squares less μ². -/
theorem var_identity (a : Fin 400000 → ℝ) (μ : ℝ) (hμ : μ = (∑ r, a r) * (1 / 400000)) :
    (∑ r, (a r - μ) * (a r - μ)) * (1 / 400000) = (∑ r, a r * a r) * (1 / 400000) - μ * μ := by
  have hS : ∑ r, a r = 400000 * μ := by rw [hμ]; ring
  have h1 : ∀ r, (a r - μ) * (a r - μ) = a r * a r - 2 * μ * a r + μ * μ := fun r => by ring
  simp only [h1]
  rw [Finset.sum_add_distrib, Finset.sum_sub_distrib, ← Finset.mul_sum, Finset.sum_const, Finset.card_univ,
    Fintype.card_fin, hS, nsmul_eq_mul]
  push_cast
  ring

/-! ## One column of the normalisation -/

/-- The reference's form at one entry `a` of a column `col`: mean and variance by the library's two-pass formula (the sums
    started from the float zero, the variance divided by the row count less the converted integer zero). -/
def refRelu {n : Nat} (col : Fin n → EReal) (γ β a : EReal) : EReal :=
  let μ := Ideal.div (zeroLit + ∑ r, col r) nLit
  let v := Ideal.div (zeroLit + ∑ r, (col r - μ) * (col r - μ)) (nLit - (((0#32 : BitVec 32).toInt : ℝ) : EReal))
  max ((a - μ) * Ideal.rsqrt (v + epsLit) * γ + β) zeroLit

/-- The corrected row count is positive: the float comparison the reference guards its variance with says yes. -/
theorem dof_gt : Ideal.cmp .ogt (nLit - (((0#32 : BitVec 32).toInt : ℝ) : EReal)) zeroLit = 1#1 := by
  have h0 : (((0#32 : BitVec 32).toInt : ℝ) : EReal) = 0 := by simp
  have hpos : (0 : EReal) < ((400000 : ℝ) : EReal) := EReal.coe_pos.mpr (by norm_num)
  rw [h0, nLit_eq, zeroLit_eq, sub_zero]
  simp [Ideal.cmp, hpos]

/-- The reference's form equals the affine form on a column of 400000 real entries, and the value is real. -/
theorem refRelu_eq (col : Fin 400000 → EReal) (hcol : ∀ r, IsReal (col r)) (γ β : EReal) (hγ : IsReal γ) (hβ : IsReal β) (r₀ : Fin 400000) :
    refRelu col γ β (col r₀)
        = affRelu (col r₀) (scaleOf γ (∑ r, col r) (∑ r, col r * col r)) (shiftOf γ β (∑ r, col r) (∑ r, col r * col r))
      ∧ IsReal (affRelu (col r₀) (scaleOf γ (∑ r, col r) (∑ r, col r * col r)) (shiftOf γ β (∑ r, col r) (∑ r, col r * col r))) := by
  choose a ha using hcol
  obtain ⟨g, rfl⟩ := hγ
  obtain ⟨b, rfl⟩ := hβ
  obtain ⟨e, he, hee⟩ := epsLit_pos
  have h0 : (((0#32 : BitVec 32).toInt : ℝ) : EReal) = 0 := by simp
  have hn : (400000 : ℝ) ≠ 0 := by norm_num
  -- the mean μ, the variance V in its two forms, the scale sc and the shift sh, all real
  obtain ⟨μ, hμdef⟩ : ∃ μ : ℝ, μ = (∑ r, a r) * (1 / 400000) := ⟨_, rfl⟩
  obtain ⟨V, hVdef⟩ : ∃ V : ℝ, V = (∑ r, (a r - μ) * (a r - μ)) * (1 / 400000) := ⟨_, rfl⟩
  have hV2 : V = (∑ r, a r * a r) * (1 / 400000) - μ * μ := hVdef.trans (var_identity a μ hμdef)
  have hVnn : 0 ≤ V := by
    rw [hVdef]
    exact mul_nonneg (Finset.sum_nonneg fun r _ => mul_self_nonneg _) (by norm_num)
  have hμ : Ideal.div (zeroLit + ∑ r, ((a r : ℝ) : EReal)) nLit = (μ : EReal) := by
    rw [zeroLit_eq, zero_add, nLit_eq, Ideal.div_coe hn, coe_sum, ← EReal.coe_mul, hμdef]
  have hμ' : meanOf (∑ r, ((a r : ℝ) : EReal)) = (μ : EReal) := by
    rw [meanOf, nLit_eq, Ideal.div_coe hn, coe_sum, ← EReal.coe_mul, hμdef]
  have hv : Ideal.div (zeroLit + ∑ r, (((a r : ℝ) : EReal) - (μ : EReal)) * (((a r : ℝ) : EReal) - (μ : EReal)))
      (nLit - (((0#32 : BitVec 32).toInt : ℝ) : EReal)) = (V : EReal) := by
    rw [h0, sub_zero, zeroLit_eq, zero_add, nLit_eq, Ideal.div_coe hn]
    simp only [← EReal.coe_sub, ← EReal.coe_mul, coe_sum]
    rw [hVdef]
  have hv' : varOf (∑ r, ((a r : ℝ) : EReal)) (∑ r, ((a r : ℝ) : EReal) * ((a r : ℝ) : EReal)) = (V : EReal) := by
    rw [varOf, hμ', nLit_eq, Ideal.div_coe hn]
    simp only [← EReal.coe_mul, coe_sum, ← EReal.coe_sub]
    rw [hV2]
  have hrs : Ideal.rsqrt ((V : EReal) + epsLit) = (((Real.sqrt (V + e))⁻¹ : ℝ) : EReal) := by
    rw [hee, ← EReal.coe_add, rsqrt_pos (by linarith)]
  have hsc : scaleOf (g : EReal) (∑ r, ((a r : ℝ) : EReal)) (∑ r, ((a r : ℝ) : EReal) * ((a r : ℝ) : EReal))
      = ((g * (Real.sqrt (V + e))⁻¹ : ℝ) : EReal) := by
    rw [scaleOf, hv', hrs, ← EReal.coe_mul]
  have hsh : shiftOf (g : EReal) (b : EReal) (∑ r, ((a r : ℝ) : EReal)) (∑ r, ((a r : ℝ) : EReal) * ((a r : ℝ) : EReal))
      = ((b - μ * (g * (Real.sqrt (V + e))⁻¹) : ℝ) : EReal) := by
    rw [shiftOf, hsc, hμ', ← EReal.coe_mul, ← EReal.coe_sub]
  simp only [ha]
  rw [hsc, hsh]
  constructor
  · simp only [refRelu, affRelu, ha]
    rw [hμ, hv, hrs]
    simp only [← EReal.coe_sub, ← EReal.coe_mul, ← EReal.coe_add]
    congr 2
    ring
  · rw [affRelu, zeroLit_eq]
    exact isReal_max (isReal_add (isReal_mul (isReal_coe _) (isReal_coe _)) (isReal_coe _)) isReal_zero

/-! ## Sums by blocks -/

/-- A sum over T · R rows is the sum over the T blocks of the sums over the R rows of each. -/
theorem sum_blocks (T R : Nat) (f : Fin (T * R) → EReal) :
    ∑ r, f r = ∑ t : Fin T, ∑ q : Fin R, f ⟨t.val * R + q.val, by
      have := t.isLt; have := q.isLt; nlinarith⟩ := by
  rw [← Fintype.sum_prod_type']
  refine (Fintype.sum_equiv finProdFinEquiv _ _ fun x => ?_).symm
  congr 1
  apply Fin.ext
  simp [finProdFinEquiv]
  ring

end Cert.Algebra

end
-- ==== Proof.KerRegion0.lean ====
/-
  The first launch read as values. Its grid walks the 400000 rows in 200 blocks of 2000. At each block it forms
  `((h · Wl + b) + s · x) · W1` for the block's rows and writes the 2000 × 256 result to the block's rows of the first
  output; the second and third outputs are one row of 256 column sums and one of column sums of squares, set to zero at
  the first block and increased by every block's own sums, written back once after the last block. So after the launch the
  first output is the whole product, and the other two are the product's column sums and column sums of squares over all
  400000 rows — a sum over blocks of sums within a block is the sum over all rows, in the extended reals as anywhere.
  Everything is stated at ANY contents `V` of the TensorCore's buffers at the launch's entry.
-/
import proofs.«139709_j50869592655480_1_alg».proof.Proof.Gen.KernelIdeal.Frame
import proofs.«139709_j50869592655480_1_alg».proof.Proof.Spec
import proofs.«139709_j50869592655480_1_alg».proof.Proof.Algebra
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen

variable (V : (c : Dev nD) → (b : Ref sig .tc) → Buf (Elt Ideal) ((c : Thread nD τ).loc b))

/-- The product the launch computes, from the six arrays it reads at entry. -/
def pre (c : Dev nD) : Spec.Mat 400000 256 :=
  Spec.mm (Spec.lin (Spec.toMat (V c main_v30)) (Spec.toMat (V c main_arg2)) (Spec.rowVec (V c main_v31)) (Spec.rowVec (V c main_v34))
    (Spec.toMat (V c main_arg0))) (Spec.toMat (V c main_arg5))

section Pieces

variable {F : FTy → Type} [FloatOps F]

theorem hz : (![0, 0] : Fin 2 → Nat) = fun _ => 0 := funext fun a => by fin_cases a <;> rfl

variable (c : Dev nD) (i : grid0.Coords) (a1 : Memref sig .tc .vmem S2000x512 .f32) (h1 : a1.IsWhole)
  (a2 : Memref sig .tc .vmem S2000x128 .f32) (h2 : a2.IsWhole) (a3 : Memref sig .tc .vmem S512x128 .f32) (h3 : a3.IsWhole)
  (a4 : Memref sig .tc .vmem S1x128 .f32) (h4 : a4.IsWhole) (a5 : Memref sig .tc .vmem S1x128 .f32) (h5 : a5.IsWhole)
  (a6 : Memref sig .tc .vmem S128x256 .f32) (h6 : a6.IsWhole) (a7 : Memref sig .tc .vmem S2000x256 .f32) (h7 : a7.IsWhole)
  (a8 : Memref sig .tc .vmem S1x256 .f32) (h8 : a8.IsWhole) (a9 : Memref sig .tc .vmem S1x256 .f32) (h9 : a9.IsWhole)
  (x0 : Vec F S2000x512 .f32) (x1 : Vec F S2000x128 .f32) (x2 : Vec F S512x128 .f32) (x3 : Vec F S1x128 .f32)
  (x4 : Vec F S1x128 .f32) (x5 : Vec F S128x256 .f32)

/-- Any point's block of the first output is the product payload of the six input blocks (points after the first). -/
theorem out_B_6 (hc : ¬cond0_0 i) (xo7 xo8 : Vec F S1x256 .f32) :
    out0_B_6 c i a1 h1 a2 h2 a3 h3 a4 h4 a5 h5 a6 h6 a7 h7 a8 h8 a9 h9 hc x0 x1 x2 x3 x4 x5 xo7 xo8 = k0_pay4 x0 x2 x3 x4 x1 x5 := by
  unfold out0_B_6
  rw [View.read_writes_eq_canon _ _ _ (cover0_B_6 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, View.ld_unit_zero (S := S2000x512) hz, View.ld_unit_zero (S := S2000x128) hz, View.ld_unit_zero (S := S512x128) hz, View.ld_unit_zero (S := S1x128) hz, View.ld_unit_zero (S := S128x256) hz, View.ld_unit_zero (S := S1x256) hz]

/-- The same at the first point. -/
theorem out_A_6 (hc : cond0_0 i) :
    out0_A_6 c i a1 h1 a2 h2 a3 h3 a4 h4 a5 h5 a6 h6 a7 h7 a8 h8 a9 h9 hc x0 x1 x2 x3 x4 x5 = k0_pay4 x0 x2 x3 x4 x1 x5 := by
  unfold out0_A_6
  rw [View.read_writes_eq_canon _ _ _ (cover0_A_6 c i a1 h1 a2 h2 a3 h3 a4 h4 a5 h5 a6 h6 a7 h7 a8 h8 a9 h9 hc x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, View.ld_unit_zero (S := S2000x512) hz, View.ld_unit_zero (S := S2000x128) hz, View.ld_unit_zero (S := S512x128) hz, View.ld_unit_zero (S := S1x128) hz, View.ld_unit_zero (S := S128x256) hz, View.ld_unit_zero (S := S1x256) hz]

/-- After the first point the sum accumulator is the running payload over what the point before left. -/
theorem out_B_7 (hc : ¬cond0_0 i) (xo7 xo8 : Vec F S1x256 .f32) :
    out0_B_7 c i a1 h1 a2 h2 a3 h3 a4 h4 a5 h5 a6 h6 a7 h7 a8 h8 a9 h9 hc x0 x1 x2 x3 x4 x5 xo7 xo8 = k0_pay5 x0 x2 x3 x4 x1 x5 xo7 := by
  unfold out0_B_7
  rw [View.read_writes_eq_canon _ _ _ (cover0_B_7 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h8.read_unread, View.ld_unit_zero (S := S2000x512) hz, View.ld_unit_zero (S := S2000x128) hz, View.ld_unit_zero (S := S512x128) hz, View.ld_unit_zero (S := S1x128) hz, View.ld_unit_zero (S := S128x256) hz, View.ld_unit_zero (S := S1x256) hz]

/-- At the first point it is the running payload over the zero row the reset stored. -/
theorem out_A_7 (hc : cond0_0 i) :
    out0_A_7 c i a1 h1 a2 h2 a3 h3 a4 h4 a5 h5 a6 h6 a7 h7 a8 h8 a9 h9 hc x0 x1 x2 x3 x4 x5 = k0_pay5 x0 x2 x3 x4 x1 x5 (k0_pay2 (F := F)) := by
  unfold out0_A_7
  rw [View.read_writes_eq_canon _ _ _ (cover0_A_7 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, h6.read_unread, View.ld_unit_zero (S := S2000x512) hz, View.ld_unit_zero (S := S2000x128) hz, View.ld_unit_zero (S := S512x128) hz, View.ld_unit_zero (S := S1x128) hz, View.ld_unit_zero (S := S128x256) hz, View.ld_unit_zero (S := S1x256) hz]

/-- After the first point the sum-of-squares accumulator is its running payload over what the point before left. -/
theorem out_B_8 (hc : ¬cond0_0 i) (xo7 xo8 : Vec F S1x256 .f32) :
    out0_B_8 c i a1 h1 a2 h2 a3 h3 a4 h4 a5 h5 a6 h6 a7 h7 a8 h8 a9 h9 hc x0 x1 x2 x3 x4 x5 xo7 xo8 = k0_pay1 (k0_pay4 x0 x2 x3 x4 x1 x5) xo8 := by
  unfold out0_B_8
  rw [View.read_writes_eq_canon _ _ _ (cover0_B_8 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h9.read_unread, View.ld_unit_zero (S := S2000x512) hz, View.ld_unit_zero (S := S2000x128) hz, View.ld_unit_zero (S := S512x128) hz, View.ld_unit_zero (S := S1x128) hz, View.ld_unit_zero (S := S128x256) hz, View.ld_unit_zero (S := S1x256) hz]

/-- At the first point it is its running payload over the zero row the reset stored. -/
theorem out_A_8 (hc : cond0_0 i) :
    out0_A_8 c i a1 h1 a2 h2 a3 h3 a4 h4 a5 h5 a6 h6 a7 h7 a8 h8 a9 h9 hc x0 x1 x2 x3 x4 x5 = k0_pay1 (k0_pay4 x0 x2 x3 x4 x1 x5) (k0_pay3 (F := F)) := by
  unfold out0_A_8
  rw [View.read_writes_eq_canon _ _ _ (cover0_A_8 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, h6.read_unread, View.ld_unit_zero (S := S2000x512) hz, View.ld_unit_zero (S := S2000x128) hz, View.ld_unit_zero (S := S512x128) hz, View.ld_unit_zero (S := S1x128) hz, View.ld_unit_zero (S := S128x256) hz, View.ld_unit_zero (S := S1x256) hz]

end Pieces

section Arithmetic

/-! ## The two block products read at an entry

Each product contracts one axis: the left operand's columns against the right operand's rows. At a result entry
(p, k) the left operand is read along row p and the right operand down column k. -/

theorem lhs_first_0 (i : S2000x128.Idx) (q : dot_S2000x512_S512x128_S2000x128_1_0_0_1_n_n.contr.Idx) :
    (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem lhs_first_1 (i : S2000x128.Idx) (q : dot_S2000x512_S512x128_S2000x128_1_0_0_1_n_n.contr.Idx) :
    (dot_S2000x512_S512x128_S2000x128_1_0_0_1_n_n.lhsIdx i q 1).val = (q ⟨0, by decide⟩).val :=
  dot_S2000x512_S512x128_S2000x128_1_0_0_1_n_n.lhsIdx_val_of_single rfl i q
theorem rhs_first_0 (i : S2000x128.Idx) (q : dot_S2000x512_S512x128_S2000x128_1_0_0_1_n_n.contr.Idx) :
    (dot_S2000x512_S512x128_S2000x128_1_0_0_1_n_n.rhsIdx i q 0).val = (q ⟨0, by decide⟩).val :=
  dot_S2000x512_S512x128_S2000x128_1_0_0_1_n_n.rhsIdx_val_of_single rfl i q
theorem rhs_first_1 (i : S2000x128.Idx) (q : dot_S2000x512_S512x128_S2000x128_1_0_0_1_n_n.contr.Idx) :
    (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- The first product into the zero block, at entry (p, k): the sum over l of a p l · b l k. -/
theorem first_product_apply {φ₁ φ₂ : FTy} (a : FVec Ideal S2000x512 φ₁) (b : FVec Ideal S512x128 φ₂) (p : Fin 2000) (k : Fin 128) :
    matmul (F := Ideal) dot_S2000x512_S512x128_S2000x128_1_0_0_1_n_n none a b (constant S2000x128 .f32 0x00000000#32) (ix2 p k)
      = ∑ l : Fin 512, a (ix2 p l) * b (ix2 l k) := by
  simp only [matmul]
  rw [Ideal.matmul_constant_zero_apply, ← Equiv.sum_comp (contrEquiv1 dot_S2000x512_S512x128_S2000x128_1_0_0_1_n_n 512 rfl rfl).symm]
  refine Finset.sum_congr rfl fun l _ => ?_
  have hl := contrEquiv1_symm_val dot_S2000x512_S512x128_S2000x128_1_0_0_1_n_n 512 rfl rfl l
  have el : dot_S2000x512_S512x128_S2000x128_1_0_0_1_n_n.lhsIdx (ix2 p k) ((contrEquiv1 dot_S2000x512_S512x128_S2000x128_1_0_0_1_n_n 512 rfl rfl).symm l) = ix2 p l := funext fun a => Fin.ext (by
    match a with
    | ⟨0, _⟩ => exact lhs_first_0 _ _
    | ⟨1, _⟩ => exact (lhs_first_1 _ _).trans hl)
  have er : dot_S2000x512_S512x128_S2000x128_1_0_0_1_n_n.rhsIdx (ix2 p k) ((contrEquiv1 dot_S2000x512_S512x128_S2000x128_1_0_0_1_n_n 512 rfl rfl).symm l) = ix2 l k := funext fun a => Fin.ext (by
    match a with
    | ⟨0, _⟩ => exact (rhs_first_0 _ _).trans hl
    | ⟨1, _⟩ => exact rhs_first_1 _ _)
  rw [el, er]

theorem lhs_second_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_second_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_second_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_second_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The second product into the zero block, at entry (p, q): the sum over k of a p k · b k q. -/
theorem second_product_apply {φ₁ φ₂ : FTy} (a : FVec Ideal S2000x128 φ₁) (b : FVec Ideal S128x256 φ₂) (p : Fin 2000) (q : Fin 256) :
    matmul (F := Ideal) dot_S2000x128_S128x256_S2000x256_1_0_0_1_n_n none a b (constant S2000x256 .f32 0x00000000#32) (ix2 p q)
      = ∑ k : Fin 128, a (ix2 p k) * b (ix2 k q) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhs_second_0 _ _
    | ⟨1, _⟩ => exact (lhs_second_1 _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rhs_second_0 _ _).trans hk
    | ⟨1, _⟩ => exact rhs_second_1 _ _)
  rw [el, er]

end Arithmetic

section Payloads

/-! ## The payloads at an entry, over the extended reals

A change of float format is the identity, a cast to the same shape is the identity, a one-row block broadcast over
2000 rows reads its one row, and a reduction over the rows is the sum over the rows. -/

/-- The row index the column reduction inserts: entry j of the reduced row comes from entries (p, j) of the block. -/
theorem lift_rows (h : S2000x256.Reduces [0] S256) (j : Fin 256) (p : Fin 2000) :
    h.lift (ix1 j) p = ix2 p j :=
  funext fun a => Fin.ext (by
    match a with
    | ⟨0, _⟩ => rfl
    | ⟨1, _⟩ => rfl)

/-- The column sums of a 2000 × 256 block, laid out as one row, at entry (u, j): the sum over the rows p of the block at (p, j). -/
theorem colsum_apply (src : FVec Ideal S2000x256 .f32) (h : S2000x256.Reduces [0] S256) (hφ : FKind.Formats .f32)
    (hacc : (0x00000000#32 : BitVec 32) = 0x00000000#32) (hc : S256.ShapeCasts S1x256) (u : Fin 1) (j : Fin 256) :
    shapeCast S1x256 (multiReduction (F := Ideal) .add [0] S256 src 0x00000000#32 h hφ hacc) hc (ix2 u j)
      = ∑ p : Fin 2000, src (ix2 p j) := by
  refine (shapeCast_a_1a_apply _ hc u j).trans ?_
  refine (Ideal.multiReduction_add_single src 0x00000000#32 h hφ hacc (ix1 j)).trans ?_
  exact Finset.sum_congr rfl fun p _ => congrArg src (lift_rows h j p)

variable (x0 : Vec Ideal S2000x512 .f32) (x1 : Vec Ideal S2000x128 .f32) (x2 : Vec Ideal S512x128 .f32)
  (x3 x4 : Vec Ideal S1x128 .f32) (x5 : Vec Ideal S128x256 .f32)

/-- The product of one block of rows, as a matrix: the specification's product of the block's six inputs. -/
def blockPre : Spec.Mat 2000 256 :=
  Spec.mm (Spec.lin (Spec.toMat x0) (Spec.toMat x2) (Spec.rowVec x3) (Spec.rowVec x4) (Spec.toMat x1)) (Spec.toMat x5)

/-- The product payload at entry (p, q) is the specification's product of the block at (p, q). -/
theorem pay4_apply (p : Fin 2000) (q : Fin 256) :
    k0_pay4 (F := Ideal) x0 x2 x3 x4 x1 x5 (ix2 p q) = blockPre x0 x1 x2 x3 x4 x5 p q := by
  unfold k0_pay4
  refine (second_product_apply _ _ p q).trans ?_
  show _ = ∑ k : Fin 128, Spec.lin (Spec.toMat x0) (Spec.toMat x2) (Spec.rowVec x3) (Spec.rowVec x4) (Spec.toMat x1) p k * Spec.toMat x5 k q
  refine Finset.sum_congr rfl fun k _ => ?_
  refine congrArg₂ (· * ·) ?_ rfl
  show (matmul (F := Ideal) dot_S2000x512_S512x128_S2000x128_1_0_0_1_n_n none _ _ (constant S2000x128 .f32 0x00000000#32) (ix2 p k)
        + broadcastTo S2000x128 (shapeCast S1x128 x3 shapeCasts_S1x128_S1x128) broadcasts_S1x128_S2000x128 (ix2 p k))
      + broadcastTo S2000x128 (shapeCast S1x128 x4 shapeCasts_S1x128_S1x128) broadcasts_S1x128_S2000x128 (ix2 p k) * x1 (ix2 p k)
    = (∑ l, x0 (ix2 p l) * x2 (ix2 l k) + x3 (ix2 0 k)) + x4 (ix2 0 k) * x1 (ix2 p k)
  rw [first_product_apply, broadcastTo_1b_ab_apply, broadcastTo_1b_ab_apply, shapeCast_self, shapeCast_self, shapeCast_self]
  rfl

end Payloads

section Accumulators

variable (x0 : Vec Ideal S2000x512 .f32) (x1 : Vec Ideal S2000x128 .f32) (x2 : Vec Ideal S512x128 .f32)
  (x3 x4 : Vec Ideal S1x128 .f32) (x5 : Vec Ideal S128x256 .f32)

/-- The sum payload at entry (u, j): what the accumulator held there plus the block's column sum. -/
theorem pay5_apply (acc : Vec Ideal S1x256 .f32) (u : Fin 1) (j : Fin 256) :
    k0_pay5 (F := Ideal) x0 x2 x3 x4 x1 x5 acc (ix2 u j)
      = acc (ix2 u j) + ∑ p : Fin 2000, blockPre x0 x1 x2 x3 x4 x5 p j := by
  unfold k0_pay5
  show shapeCast S1x256 acc shapeCasts_S1x256_S1x256 (ix2 u j)
      + shapeCast S1x256 (multiReduction (F := Ideal) .add [0] S256 (k0_pay4 x0 x2 x3 x4 x1 x5) 0x00000000#32
          reduces_S2000x256_S256 (.inl rfl) rfl) shapeCasts_S256_S1x256 (ix2 u j) = _
  rw [shapeCast_self, colsum_apply]
  exact congrArg (acc (ix2 u j) + ·) (Finset.sum_congr rfl fun p _ => pay4_apply x0 x1 x2 x3 x4 x5 p j)

/-- The sum-of-squares payload at entry (u, j): what the accumulator held there plus the block's column sum of squares. -/
theorem pay1_apply (v : FVec Ideal S2000x256 .f32) (acc : Vec Ideal S1x256 .f32) (u : Fin 1) (j : Fin 256) :
    k0_pay1 (F := Ideal) v acc (ix2 u j) = acc (ix2 u j) + ∑ p : Fin 2000, v (ix2 p j) * v (ix2 p j) := by
  unfold k0_pay1
  show shapeCast S1x256 acc shapeCasts_S1x256_S1x256 (ix2 u j)
      + shapeCast S1x256 (multiReduction (F := Ideal) .add [0] S256 (mulf v v) 0x00000000#32
          reduces_S2000x256_S256 (.inl rfl) rfl) shapeCasts_S256_S1x256 (ix2 u j) = _
  rw [shapeCast_self, colsum_apply]
  rfl

/-- The row the reset stores in the sum accumulator is zero. -/
theorem pay2_apply (i : S1x256.Idx) : k0_pay2 (F := Ideal) i = 0 := Ideal.ofBits_zero_f32

/-- The row the reset stores in the sum-of-squares accumulator is zero. -/
theorem pay3_apply (i : S1x256.Idx) : k0_pay3 (F := Ideal) i = 0 := Ideal.ofBits_zero_f32

end Accumulators

section Blocks

/-! ## The input blocks read off their arrays

At point t the two row-blocked inputs are read at block row t and column block 0, so row p of the block is row
2000 t + p of the array; the four small inputs are one block, the whole array, at every point. -/

/-- Row p of the block of point t, as a row of the whole 400000-row array. -/
def row (t : Fin cfg0.N) (p : Fin 2000) : Fin 400000 :=
  ⟨t.val * 2000 + p.val, by have hN : cfg0.N = 200 := N_0; have := t.isLt; have := p.isLt; omega⟩

abbrev hblk (c : Dev nD) (t : Fin cfg0.N) : Vec Ideal S2000x512 .f32 := iblk0 V c 0 t
abbrev xblk (c : Dev nD) (t : Fin cfg0.N) : Vec Ideal S2000x128 .f32 := iblk0 V c 1 t
abbrev wlblk (c : Dev nD) (t : Fin cfg0.N) : Vec Ideal S512x128 .f32 := iblk0 V c 2 t
abbrev bblk (c : Dev nD) (t : Fin cfg0.N) : Vec Ideal S1x128 .f32 := iblk0 V c 3 t
abbrev sblk (c : Dev nD) (t : Fin cfg0.N) : Vec Ideal S1x128 .f32 := iblk0 V c 4 t
abbrev w1blk (c : Dev nD) (t : Fin cfg0.N) : Vec Ideal S128x256 .f32 := iblk0 V c 5 t

/-- The printed index maps over the grid: block row t for the two row-blocked inputs and the first output, block 0 elsewhere. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem toMat_hblk (c : Dev nD) (t : Fin cfg0.N) (p : Fin 2000) (l : Fin 512) :
    Spec.toMat (hblk V c t) p l = Spec.toMat (V c main_v30) (row t p) l := by
  show ((cfg0.win 0).blk t).view.read (Elt Ideal) (V c (Pipeline.arrRef spec0 0)) (ix2 p l) = _
  rw [View.read_apply]
  show V c main_v30 (((cfg0.win 0).blk t).view.emb (ix2 p l)) = V c main_v30 (ix2 (row t p) l)
  refine congrArg (V c main_v30) (funext fun a => Fin.ext ?_)
  obtain ⟨e0, e1, -⟩ := index_facts t
  match a with
  | ⟨0, _⟩ => show win0_0.index t (0 : Fin 2) * 2000 + 1 * p.val = t.val * 2000 + p.val; rw [e0]; omega
  | ⟨1, _⟩ => show win0_0.index t (1 : Fin 2) * 512 + 1 * l.val = l.val; rw [e1]; omega

theorem toMat_xblk (c : Dev nD) (t : Fin cfg0.N) (p : Fin 2000) (k : Fin 128) :
    Spec.toMat (xblk V c t) p k = Spec.toMat (V c main_arg0) (row t p) k := by
  show ((cfg0.win 1).blk t).view.read (Elt Ideal) (V c (Pipeline.arrRef spec0 1)) (ix2 p k) = _
  rw [View.read_apply]
  show V c main_arg0 (((cfg0.win 1).blk t).view.emb (ix2 p k)) = V c main_arg0 (ix2 (row t p) k)
  refine congrArg (V c main_arg0) (funext fun a => Fin.ext ?_)
  obtain ⟨-, -, e0, e1, -⟩ := index_facts t
  match a with
  | ⟨0, _⟩ => show win0_1.index t (0 : Fin 2) * 2000 + 1 * p.val = t.val * 2000 + p.val; rw [e0]; omega
  | ⟨1, _⟩ => show win0_1.index t (1 : Fin 2) * 128 + 1 * k.val = k.val; rw [e1]; omega

theorem toMat_wlblk (c : Dev nD) (t : Fin cfg0.N) (l : Fin 512) (k : Fin 128) :
    Spec.toMat (wlblk V c t) l k = Spec.toMat (V c main_arg2) l k := by
  show ((cfg0.win 2).blk t).view.read (Elt Ideal) (V c (Pipeline.arrRef spec0 2)) (ix2 l k) = _
  rw [View.read_apply]
  show V c main_arg2 (((cfg0.win 2).blk t).view.emb (ix2 l k)) = V c main_arg2 (ix2 l k)
  refine congrArg (V c main_arg2) (funext fun a => Fin.ext ?_)
  obtain ⟨-, -, -, -, e0, e1, -⟩ := index_facts t
  match a with
  | ⟨0, _⟩ => show win0_2.index t (0 : Fin 2) * 512 + 1 * l.val = l.val; rw [e0]; omega
  | ⟨1, _⟩ => show win0_2.index t (1 : Fin 2) * 128 + 1 * k.val = k.val; rw [e1]; omega

theorem rowVec_bblk (c : Dev nD) (t : Fin cfg0.N) (k : Fin 128) :
    Spec.rowVec (bblk V c t) k = Spec.rowVec (V c main_v31) k := by
  show ((cfg0.win 3).blk t).view.read (Elt Ideal) (V c (Pipeline.arrRef spec0 3)) (ix2 0 k) = _
  rw [View.read_apply]
  show V c main_v31 (((cfg0.win 3).blk t).view.emb (ix2 0 k)) = V c main_v31 (ix2 0 k)
  refine congrArg (V c main_v31) (funext fun a => Fin.ext ?_)
  obtain ⟨-, -, -, -, -, -, e0, e1, -⟩ := index_facts t
  match a with
  | ⟨0, _⟩ => show win0_3.index t (0 : Fin 2) * 1 + 1 * 0 = 0; rw [e0]
  | ⟨1, _⟩ => show win0_3.index t (1 : Fin 2) * 128 + 1 * k.val = k.val; rw [e1]; omega

theorem rowVec_sblk (c : Dev nD) (t : Fin cfg0.N) (k : Fin 128) :
    Spec.rowVec (sblk V c t) k = Spec.rowVec (V c main_v34) k := by
  show ((cfg0.win 4).blk t).view.read (Elt Ideal) (V c (Pipeline.arrRef spec0 4)) (ix2 0 k) = _
  rw [View.read_apply]
  show V c main_v34 (((cfg0.win 4).blk t).view.emb (ix2 0 k)) = V c main_v34 (ix2 0 k)
  refine congrArg (V c main_v34) (funext fun a => Fin.ext ?_)
  obtain ⟨-, -, -, -, -, -, -, -, e0, e1, -⟩ := index_facts t
  match a with
  | ⟨0, _⟩ => show win0_4.index t (0 : Fin 2) * 1 + 1 * 0 = 0; rw [e0]
  | ⟨1, _⟩ => show win0_4.index t (1 : Fin 2) * 128 + 1 * k.val = k.val; rw [e1]; omega

theorem toMat_w1blk (c : Dev nD) (t : Fin cfg0.N) (k : Fin 128) (q : Fin 256) :
    Spec.toMat (w1blk V c t) k q = Spec.toMat (V c main_arg5) k q := by
  show ((cfg0.win 5).blk t).view.read (Elt Ideal) (V c (Pipeline.arrRef spec0 5)) (ix2 k q) = _
  rw [View.read_apply]
  show V c main_arg5 (((cfg0.win 5).blk t).view.emb (ix2 k q)) = V c main_arg5 (ix2 k q)
  refine congrArg (V c main_arg5) (funext fun a => Fin.ext ?_)
  obtain ⟨-, -, -, -, -, -, -, -, -, -, e0, e1, -⟩ := index_facts t
  match a with
  | ⟨0, _⟩ => show win0_5.index t (0 : Fin 2) * 128 + 1 * k.val = k.val; rw [e0]; omega
  | ⟨1, _⟩ => show win0_5.index t (1 : Fin 2) * 256 + 1 * q.val = q.val; rw [e1]; omega

end Blocks

section Points

/-! ## What the three output buffers hold after each point

The first output's buffer holds the product of the point's own block of rows. The two accumulators hold, at the first
point, zero plus the block's column sums (of the entries, of their squares); at every later point, what the point before
left plus the block's column sums. -/

/-- The product of the block of point t is the whole product's rows 2000 t … 2000 t + 1999. -/
theorem blockPre_blk (c : Dev nD) (t : Fin cfg0.N) (p : Fin 2000) (q : Fin 256) :
    blockPre (hblk V c t) (xblk V c t) (wlblk V c t) (bblk V c t) (sblk V c t) (w1blk V c t) p q = pre V c (row t p) q := by
  unfold blockPre pre Spec.mm Spec.lin
  simp only [toMat_hblk, toMat_xblk, toMat_wlblk, rowVec_bblk, rowVec_sblk, toMat_w1blk]

/-- At the first point: each output buffer is its payload, the accumulators' over the zero rows the reset stored. -/
theorem step_A (c : Dev nD) (t : Fin cfg0.N) (h0 : t.val % 200 = 0) :
    (outsAt0 V c t.val t.isLt).1 = k0_pay4 (hblk V c t) (wlblk V c t) (bblk V c t) (sblk V c t) (xblk V c t) (w1blk V c t)
    ∧ (outsAt0 V c t.val t.isLt).2.1 = k0_pay5 (hblk V c t) (wlblk V c t) (bblk V c t) (sblk V c t) (xblk V c t) (w1blk V c t) (k0_pay2 (F := Ideal))
    ∧ (outsAt0 V c t.val t.isLt).2.2 = k0_pay1 (k0_pay4 (hblk V c t) (wlblk V c t) (bblk V c t) (sblk V c t) (xblk V c t) (w1blk V c t)) (k0_pay3 (F := Ideal)) := by
  rw [outsAt0_A V c t h0]
  dsimp only
  exact ⟨out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (hblk V c t) (xblk V c t) (wlblk V c t) (bblk V c t) (sblk V c t) (w1blk V c t) _, out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (hblk V c t) (xblk V c t) (wlblk V c t) (bblk V c t) (sblk V c t) (w1blk V c t) _, out_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (hblk V c t) (xblk V c t) (wlblk V c t) (bblk V c t) (sblk V c t) (w1blk V c t) _⟩

/-- At a later point: each output buffer is its payload, the accumulators' over what the point before left. -/
theorem step_B (c : Dev nD) (t : Fin cfg0.N) (h0 : ¬t.val % 200 = 0) :
    (outsAt0 V c t.val t.isLt).1 = k0_pay4 (hblk V c t) (wlblk V c t) (bblk V c t) (sblk V c t) (xblk V c t) (w1blk V c t)
    ∧ (outsAt0 V c t.val t.isLt).2.1
        = k0_pay5 (hblk V c t) (wlblk V c t) (bblk V c t) (sblk V c t) (xblk V c t) (w1blk V c t) (outsAt0 V c (t.val - 1) (Nat.lt_of_le_of_lt (Nat.sub_le _ _) t.isLt)).2.1
    ∧ (outsAt0 V c t.val t.isLt).2.2
        = k0_pay1 (k0_pay4 (hblk V c t) (wlblk V c t) (bblk V c t) (sblk V c t) (xblk V c t) (w1blk V c t)) (outsAt0 V c (t.val - 1) (Nat.lt_of_le_of_lt (Nat.sub_le _ _) t.isLt)).2.2 := by
  rw [outsAt0_B V c t h0]
  dsimp only
  exact ⟨out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (hblk V c t) (xblk V c t) (wlblk V c t) (bblk V c t) (sblk V c t) (w1blk V c t) _ _ _, out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (hblk V c t) (xblk V c t) (wlblk V c t) (bblk V c t) (sblk V c t) (w1blk V c t) _ _ _, out_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (hblk V c t) (xblk V c t) (wlblk V c t) (bblk V c t) (sblk V c t) (w1blk V c t) _ _ _⟩

end Points

section Sums

/-! ## Sums over the first n blocks of rows -/

/-- The sum of f over the rows of the first n blocks of 2000 rows (a block past the 200th counts nothing). -/
def firstBlocks (f : Fin 400000 → EReal) (n : ℕ) : EReal :=
  ∑ s ∈ Finset.range n, if h : s < 200 then ∑ p : Fin 2000, f ⟨s * 2000 + p.val, by have := p.isLt; omega⟩ else 0

theorem firstBlocks_zero (f : Fin 400000 → EReal) : firstBlocks f 0 = 0 := Finset.sum_range_zero _

/-- One more block adds the sum over its rows. -/
theorem firstBlocks_succ (f : Fin 400000 → EReal) (t : Fin cfg0.N) :
    firstBlocks f (t.val + 1) = firstBlocks f t.val + ∑ p : Fin 2000, f (row t p) := by
  have hN : cfg0.N = 200 := N_0
  have ht : t.val < 200 := by have := t.isLt; omega
  unfold firstBlocks
  rw [Finset.sum_range_succ, dif_pos ht]
  rfl

/-- All 200 blocks are all 400000 rows. -/
theorem firstBlocks_all (f : Fin 400000 → EReal) : firstBlocks f 200 = ∑ r, f r := by
  unfold firstBlocks
  rw [Finset.sum_range, Cert.Algebra.sum_blocks 200 2000 f]
  exact Finset.sum_congr rfl fun s _ => dif_pos s.isLt

end Sums

section Invariant

/-- THE INVARIANT. After point n the sum accumulator holds the product's column sums over the rows of the first n + 1
    blocks, and the sum-of-squares accumulator the column sums of the squares over the same rows. -/
theorem acc_eq (c : Dev nD) : ∀ (n : ℕ) (h : n < cfg0.N),
    (outsAt0 V c n h).2.1 = Spec.ofRow (fun j => firstBlocks (fun r => pre V c r j) (n + 1))
    ∧ (outsAt0 V c n h).2.2 = Spec.ofRow (fun j => firstBlocks (fun r => pre V c r j * pre V c r j) (n + 1))
  | 0, h => by
    obtain ⟨-, e7, e8⟩ := step_A V c ⟨0, h⟩ rfl
    constructor
    · refine e7.trans (funext fun i => ?_)
      obtain ⟨u, j, rfl⟩ : ∃ (u : Fin 1) (j : Fin 256), i = ix2 u j := ⟨i 0, i 1, eq_ix2 i⟩
      refine (pay5_apply (hblk V c ⟨0, h⟩) (xblk V c ⟨0, h⟩) (wlblk V c ⟨0, h⟩) (bblk V c ⟨0, h⟩) (sblk V c ⟨0, h⟩) (w1blk V c ⟨0, h⟩) (k0_pay2 (F := Ideal)) u j).trans ?_
      show _ = firstBlocks (fun r => pre V c r j) ((⟨0, h⟩ : Fin cfg0.N).val + 1)
      rw [firstBlocks_succ, pay2_apply]
      show _ = firstBlocks (fun r => pre V c r j) 0 + _
      rw [firstBlocks_zero]
      exact congrArg (0 + ·) (Finset.sum_congr rfl fun p _ => blockPre_blk V c ⟨0, h⟩ p j)
    · refine e8.trans (funext fun i => ?_)
      obtain ⟨u, j, rfl⟩ : ∃ (u : Fin 1) (j : Fin 256), i = ix2 u j := ⟨i 0, i 1, eq_ix2 i⟩
      refine (pay1_apply (k0_pay4 (hblk V c ⟨0, h⟩) (wlblk V c ⟨0, h⟩) (bblk V c ⟨0, h⟩) (sblk V c ⟨0, h⟩) (xblk V c ⟨0, h⟩) (w1blk V c ⟨0, h⟩)) (k0_pay3 (F := Ideal)) u j).trans ?_
      show _ = firstBlocks (fun r => pre V c r j * pre V c r j) ((⟨0, h⟩ : Fin cfg0.N).val + 1)
      rw [firstBlocks_succ, pay3_apply]
      show _ = firstBlocks (fun r => pre V c r j * pre V c r j) 0 + _
      rw [firstBlocks_zero]
      refine congrArg (0 + ·) (Finset.sum_congr rfl fun p _ => ?_)
      rw [pay4_apply, blockPre_blk]
  | n + 1, h => by
    have hN : cfg0.N = 200 := N_0
    have hB : ¬(⟨n + 1, h⟩ : Fin cfg0.N).val % 200 = 0 := by dsimp only; omega
    obtain ⟨-, e7, e8⟩ := step_B V c ⟨n + 1, h⟩ hB
    obtain ⟨ih7, ih8⟩ := acc_eq c n (Nat.lt_of_succ_lt h)
    constructor
    · refine e7.trans (funext fun i => ?_)
      obtain ⟨u, j, rfl⟩ : ∃ (u : Fin 1) (j : Fin 256), i = ix2 u j := ⟨i 0, i 1, eq_ix2 i⟩
      refine (pay5_apply (hblk V c ⟨n + 1, h⟩) (xblk V c ⟨n + 1, h⟩) (wlblk V c ⟨n + 1, h⟩) (bblk V c ⟨n + 1, h⟩) (sblk V c ⟨n + 1, h⟩) (w1blk V c ⟨n + 1, h⟩) _ u j).trans ?_
      show (outsAt0 V c n (Nat.lt_of_succ_lt h)).2.1 (ix2 u j) + _
        = firstBlocks (fun r => pre V c r j) ((⟨n + 1, h⟩ : Fin cfg0.N).val + 1)
      rw [firstBlocks_succ, ih7]
      exact congrArg (firstBlocks (fun r => pre V c r j) (n + 1) + ·)
        (Finset.sum_congr rfl fun p _ => blockPre_blk V c ⟨n + 1, h⟩ p j)
    · refine e8.trans (funext fun i => ?_)
      obtain ⟨u, j, rfl⟩ : ∃ (u : Fin 1) (j : Fin 256), i = ix2 u j := ⟨i 0, i 1, eq_ix2 i⟩
      refine (pay1_apply (k0_pay4 (hblk V c ⟨n + 1, h⟩) (wlblk V c ⟨n + 1, h⟩) (bblk V c ⟨n + 1, h⟩) (sblk V c ⟨n + 1, h⟩) (xblk V c ⟨n + 1, h⟩) (w1blk V c ⟨n + 1, h⟩)) _ u j).trans ?_
      show (outsAt0 V c n (Nat.lt_of_succ_lt h)).2.2 (ix2 u j) + _
        = firstBlocks (fun r => pre V c r j * pre V c r j) ((⟨n + 1, h⟩ : Fin cfg0.N).val + 1)
      rw [firstBlocks_succ, ih8]
      refine congrArg (firstBlocks (fun r => pre V c r j * pre V c r j) (n + 1) + ·)
        (Finset.sum_congr rfl fun p _ => ?_)
      rw [pay4_apply, blockPre_blk]

end Invariant

section Arrays

/-! ## From the blocks to the three output arrays -/

/-- The product payload at any index of a block. -/
theorem pay4_at (x0 : Vec Ideal S2000x512 .f32) (x1 : Vec Ideal S2000x128 .f32) (x2 : Vec Ideal S512x128 .f32)
    (x3 x4 : Vec Ideal S1x128 .f32) (x5 : Vec Ideal S128x256 .f32) (y : S2000x256.Idx) :
    k0_pay4 (F := Ideal) x0 x2 x3 x4 x1 x5 y = blockPre x0 x1 x2 x3 x4 x5 (y 0) (y 1) := by
  obtain ⟨p, q, rfl⟩ : ∃ (p : Fin 2000) (q : Fin 256), y = ix2 p q := ⟨y 0, y 1, eq_ix2 y⟩
  exact pay4_apply x0 x1 x2 x3 x4 x5 p q

/-- After every point the first output's buffer holds the product payload of the point's blocks. -/
theorem first_out (c : Dev nD) (t : Fin cfg0.N) :
    (outsAt0 V c t.val t.isLt).1 = k0_pay4 (hblk V c t) (wlblk V c t) (bblk V c t) (sblk V c t) (xblk V c t) (w1blk V c t) := by
  by_cases h0 : t.val % 200 = 0
  · exact (step_A V c t h0).1
  · exact (step_B V c t h0).1

/-- What point t writes back to the first output is block t of the whole product. -/
theorem flushed_pre (c : Dev nD) (t : Fin cfg0.N) :
    (dat0 V c).flushed 6 t
      = ((cfg0.win 6).blk t).view.read (Elt Ideal) (Spec.ofMat (pre V c) : Buf (Elt Ideal) ((c : Thread nD τ).loc main_v35_0)) := by
  show (cfg0.win 6).cut (grid0.coords t) ((dat0 V c).after 6 t) = _
  rw [after0_6, first_out]
  obtain ⟨-, -, -, -, -, -, -, -, -, -, -, -, e0, e1, -⟩ := index_facts t
  funext j
  show k0_pay4 (hblk V c t) (wlblk V c t) (bblk V c t) (sblk V c t) (xblk V c t) (w1blk V c t) j = Spec.ofMat (pre V c) (((cfg0.win 6).blk t).view.emb j)
  refine (pay4_at (hblk V c t) (xblk V c t) (wlblk V c t) (bblk V c t) (sblk V c t) (w1blk V c t) j).trans ?_
  refine (blockPre_blk V c t (j 0) (j 1)).trans ?_
  show pre V c (row t (j 0)) (j 1)
    = pre V c ((((cfg0.win 6).blk t).view.emb j) 0) ((((cfg0.win 6).blk t).view.emb j) 1)
  have hj0 : (j 0).val < 2000 := (j 0).isLt
  have hj1 : (j 1).val < 256 := (j 1).isLt
  have r0 : row t (j 0) = (((cfg0.win 6).blk t).view.emb j) 0 := Fin.ext (by
    show t.val * 2000 + (j 0).val = win0_6.index t (0 : Fin 2) * 2000 + 1 * (j 0).val
    rw [e0]; omega)
  have r1 : j 1 = (((cfg0.win 6).blk t).view.emb j) 1 := Fin.ext (by
    show (j 1).val = win0_6.index t (1 : Fin 2) * 256 + 1 * (j 1).val
    rw [e1]; omega)
  exact congrArg₂ (pre V c) r0 r1

/-- An index of the first output array lies in point t's block exactly when each coordinate lies in the block's range. -/
theorem mem_blk_pre (t : Fin cfg0.N) (i : S400000x256.Idx) :
    i ∈ ((cfg0.win 6).blk t).view.set ↔ ∀ a : Fin 2, win0_6.index t a * S2000x256.size a ≤ (i a).val
      ∧ (i a).val < win0_6.index t a * S2000x256.size a + S2000x256.size a := by
  show i ∈ ((View.whole main_v35_0).slice (win0_6.rect t)).set ↔ _
  rw [View.set_slice_whole, Rect.mem_set_unit]
  exact Iff.rfl

/-- Every index of the first output array is in some point's block: row r is in block r / 2000, and a block has all 256 columns. -/
theorem covered_pre (i : S400000x256.Idx) :
    ∃ t : Fin cfg0.N, (cfg0.win 6).flush t = true ∧ i ∈ ((cfg0.win 6).blk t).view.set := by
  have hi0 : (i 0).val < 400000 := (i 0).isLt
  have hi1 : (i 1).val < 256 := (i 1).isLt
  have hN : cfg0.N = 200 := N_0
  obtain ⟨t, ht⟩ : ∃ t : Fin cfg0.N, t.val = (i 0).val / 2000 := ⟨⟨(i 0).val / 2000, by rw [hN]; omega⟩, rfl⟩
  obtain ⟨-, -, -, -, -, -, -, -, -, -, -, -, e0, e1, -⟩ := index_facts t
  refine ⟨t, flush0_6 t, ?_⟩
  rw [mem_blk_pre]
  intro a
  match a with
  | ⟨0, _⟩ =>
    show win0_6.index t (0 : Fin 2) * 2000 ≤ (i 0).val ∧ (i 0).val < win0_6.index t (0 : Fin 2) * 2000 + 2000
    omega
  | ⟨1, _⟩ =>
    show win0_6.index t (1 : Fin 2) * 256 ≤ (i 1).val ∧ (i 1).val < win0_6.index t (1 : Fin 2) * 256 + 256
    omega

end Arrays

/-- After the launch the first output array holds the product. -/
theorem arr_pre (c : Dev nD) :
    (dat0 V c).arrAt 6 cfg0.N = (Spec.ofMat (pre V c) : Buf (Elt Ideal) ((c : Thread nD τ).loc main_v35_0)) :=
  (dat0 V c).arrAt_eq_of_cover 6 (Spec.ofMat (pre V c)) (fun t _ => flushed_pre V c t) covered_pre

section Rows

/-! ## The two one-row outputs: one write-back, after the last point -/

/-- A one-row array of 256 entries read through the sum output's block (its one block, the whole array) is itself. -/
theorem read_sum_row (c : Dev nD) (t : Fin cfg0.N) (f : Fin 256 → EReal) :
    ((cfg0.win 7).blk t).view.read (Elt Ideal) (Spec.ofRow f : Buf (Elt Ideal) ((c : Thread nD τ).loc main_v35_1))
      = Spec.ofRow f := by
  obtain ⟨-, -, -, -, -, -, -, -, -, -, -, -, -, -, e0, e1, -⟩ := index_facts t
  funext j
  rw [View.read_apply]
  show f ((((cfg0.win 7).blk t).view.emb j) 1) = f (j 1)
  have hj1 : (j 1).val < 256 := (j 1).isLt
  refine congrArg f (Fin.ext ?_)
  show win0_7.index t (1 : Fin 2) * 256 + 1 * (j 1).val = (j 1).val
  rw [e1]; omega

/-- The same through the sum-of-squares output's block. -/
theorem read_sumsq_row (c : Dev nD) (t : Fin cfg0.N) (f : Fin 256 → EReal) :
    ((cfg0.win 8).blk t).view.read (Elt Ideal) (Spec.ofRow f : Buf (Elt Ideal) ((c : Thread nD τ).loc main_v35_2))
      = Spec.ofRow f := by
  obtain ⟨-, -, -, -, -, -, -, -, -, -, -, -, -, -, -, -, e0, e1⟩ := index_facts t
  funext j
  rw [View.read_apply]
  show f ((((cfg0.win 8).blk t).view.emb j) 1) = f (j 1)
  have hj1 : (j 1).val < 256 := (j 1).isLt
  refine congrArg f (Fin.ext ?_)
  show win0_8.index t (1 : Fin 2) * 256 + 1 * (j 1).val = (j 1).val
  rw [e1]; omega

/-- The one write-back of the sum accumulator, at the last point, writes the product's column sums over all rows. -/
theorem flushed_sum (c : Dev nD) (t : Fin cfg0.N) (hf : (cfg0.win 7).flush t = true) :
    (dat0 V c).flushed 7 t
      = ((cfg0.win 7).blk t).view.read (Elt Ideal)
          (Spec.ofRow (Spec.colSum (pre V c)) : Buf (Elt Ideal) ((c : Thread nD τ).loc main_v35_1)) := by
  have hN : cfg0.N = 200 := N_0
  have hlast : t.val + 1 = 200 := by have := (flush0_7 t).mp hf; have := t.isLt; omega
  rw [read_sum_row c t]
  show (cfg0.win 7).cut (grid0.coords t) ((dat0 V c).after 7 t) = _
  rw [after0_7]
  refine (acc_eq V c t.val t.isLt).1.trans (congrArg Spec.ofRow (funext fun j => ?_))
  rw [hlast]
  exact firstBlocks_all _

/-- The one write-back of the sum-of-squares accumulator, at the last point, writes the column sums of the squares. -/
theorem flushed_sumsq (c : Dev nD) (t : Fin cfg0.N) (hf : (cfg0.win 8).flush t = true) :
    (dat0 V c).flushed 8 t
      = ((cfg0.win 8).blk t).view.read (Elt Ideal)
          (Spec.ofRow (Spec.colSumSq (pre V c)) : Buf (Elt Ideal) ((c : Thread nD τ).loc main_v35_2)) := by
  have hN : cfg0.N = 200 := N_0
  have hlast : t.val + 1 = 200 := by have := (flush0_8 t).mp hf; have := t.isLt; omega
  rw [read_sumsq_row c t]
  show (cfg0.win 8).cut (grid0.coords t) ((dat0 V c).after 8 t) = _
  rw [after0_8]
  refine (acc_eq V c t.val t.isLt).2.trans (congrArg Spec.ofRow (funext fun j => ?_))
  rw [hlast]
  exact firstBlocks_all _

/-- The last point. -/
def lastPoint : Fin cfg0.N := ⟨199, by rw [show cfg0.N = 200 from N_0]; decide⟩

theorem mem_blk_sum (t : Fin cfg0.N) (i : S1x256.Idx) :
    i ∈ ((cfg0.win 7).blk t).view.set ↔ ∀ a : Fin 2, win0_7.index t a * S1x256.size a ≤ (i a).val
      ∧ (i a).val < win0_7.index t a * S1x256.size a + S1x256.size a := by
  show i ∈ ((View.whole main_v35_1).slice (win0_7.rect t)).set ↔ _
  rw [View.set_slice_whole, Rect.mem_set_unit]
  exact Iff.rfl

theorem mem_blk_sumsq (t : Fin cfg0.N) (i : S1x256.Idx) :
    i ∈ ((cfg0.win 8).blk t).view.set ↔ ∀ a : Fin 2, win0_8.index t a * S1x256.size a ≤ (i a).val
      ∧ (i a).val < win0_8.index t a * S1x256.size a + S1x256.size a := by
  show i ∈ ((View.whole main_v35_2).slice (win0_8.rect t)).set ↔ _
  rw [View.set_slice_whole, Rect.mem_set_unit]
  exact Iff.rfl

/-- The last point's block of the sum output is the whole one-row array. -/
theorem covered_sum (i : S1x256.Idx) :
    ∃ t : Fin cfg0.N, (cfg0.win 7).flush t = true ∧ i ∈ ((cfg0.win 7).blk t).view.set := by
  have hi0 : (i 0).val < 1 := (i 0).isLt
  have hi1 : (i 1).val < 256 := (i 1).isLt
  obtain ⟨-, -, -, -, -, -, -, -, -, -, -, -, -, -, e0, e1, -⟩ := index_facts lastPoint
  refine ⟨lastPoint, (flush0_7 lastPoint).mpr rfl, ?_⟩
  rw [mem_blk_sum]
  intro a
  match a with
  | ⟨0, _⟩ =>
    show win0_7.index lastPoint (0 : Fin 2) * 1 ≤ (i 0).val ∧ (i 0).val < win0_7.index lastPoint (0 : Fin 2) * 1 + 1
    omega
  | ⟨1, _⟩ =>
    show win0_7.index lastPoint (1 : Fin 2) * 256 ≤ (i 1).val ∧ (i 1).val < win0_7.index lastPoint (1 : Fin 2) * 256 + 256
    omega

/-- The last point's block of the sum-of-squares output is the whole one-row array. -/
theorem covered_sumsq (i : S1x256.Idx) :
    ∃ t : Fin cfg0.N, (cfg0.win 8).flush t = true ∧ i ∈ ((cfg0.win 8).blk t).view.set := by
  have hi0 : (i 0).val < 1 := (i 0).isLt
  have hi1 : (i 1).val < 256 := (i 1).isLt
  obtain ⟨-, -, -, -, -, -, -, -, -, -, -, -, -, -, -, -, e0, e1⟩ := index_facts lastPoint
  refine ⟨lastPoint, (flush0_8 lastPoint).mpr rfl, ?_⟩
  rw [mem_blk_sumsq]
  intro a
  match a with
  | ⟨0, _⟩ =>
    show win0_8.index lastPoint (0 : Fin 2) * 1 ≤ (i 0).val ∧ (i 0).val < win0_8.index lastPoint (0 : Fin 2) * 1 + 1
    omega
  | ⟨1, _⟩ =>
    show win0_8.index lastPoint (1 : Fin 2) * 256 ≤ (i 1).val ∧ (i 1).val < win0_8.index lastPoint (1 : Fin 2) * 256 + 256
    omega

end Rows

/-- After the launch the second output array holds the product's column sums. -/
theorem arr_sum (c : Dev nD) :
    (dat0 V c).arrAt 7 cfg0.N = (Spec.ofRow (Spec.colSum (pre V c)) : Buf (Elt Ideal) ((c : Thread nD τ).loc main_v35_1)) :=
  (dat0 V c).arrAt_eq_of_cover 7 (Spec.ofRow (Spec.colSum (pre V c))) (flushed_sum V c) covered_sum

/-- After the launch the third output array holds the product's column sums of squares. -/
theorem arr_sumsq (c : Dev nD) :
    (dat0 V c).arrAt 8 cfg0.N = (Spec.ofRow (Spec.colSumSq (pre V c)) : Buf (Elt Ideal) ((c : Thread nD τ).loc main_v35_2)) :=
  (dat0 V c).arrAt_eq_of_cover 8 (Spec.ofRow (Spec.colSumSq (pre V c))) (flushed_sumsq V c) covered_sumsq

end Cert.KernelIdeal.Region0

end
-- ==== Proof.KerRegion1.lean ====
/-
  The second launch read as values. Its grid walks the 400000 rows in 200 blocks of 2000. At each block it maps every
  entry `a` of the block's rows to `max (a · scale + shift) 0`, the scale and the shift one number per column, multiplies
  the result by `W2` and writes the 2000 × 128 product to the block's rows of the first output; the second and third
  outputs are one row of 128 column sums and one of column sums of squares of that product, set to zero at the first block
  and increased by every block's own sums, written back once after the last block.
  Everything is stated at ANY contents `V` of the TensorCore's buffers at the launch's entry.

  The argument. In either case of the body (the first grid point, which first sets the two running rows to zero, and every
  later point) the store that covers an output's buffer last decides what the buffer holds: the block's product for the
  first output, and for the other two what the row held before plus the block's column sums (of squares). At the ideal
  values the product at (p, q) is the sum over the 256 contracted coordinates of the clipped affine image of the input
  block's entry times the weight's entry, narrowing to the short float format being the identity there. By induction on
  the grid point the running rows after point `n` are the sums over blocks `0 … n`. Block `t` of the first output is rows
  `2000 t … 2000 t + 1999` of the array, and row `r` lies in block `r / 2000`, so the array ends holding the whole product;
  the two rows are written back after point 199 only, and a sum over 200 blocks of sums over 2000 rows is the sum over
  all 400000 rows.
-/
import proofs.«139709_j50869592655480_1_alg».proof.Proof.Gen.KernelIdeal.Frame
import proofs.«139709_j50869592655480_1_alg».proof.Proof.Spec
import proofs.«139709_j50869592655480_1_alg».proof.Proof.Algebra
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen

/-! ## What each case of the body leaves in each output's buffer: the payload of the store that covers it last -/

section Pieces
variable {F : FTy → Type} [FloatOps F]

/-- Every store and load of the body is at offsets (0, 0), however the zeros are spelt. -/
theorem hz : (![0, 0] : Fin 2 → Nat) = fun _ => 0 := funext fun a => by fin_cases a <;> rfl

/-- Past the first point the first output's buffer ends holding the block's product, -/
theorem out_B_4 (c : Dev nD) (i : grid1.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (a4 : Memref sig .tc .vmem S256x128 .f32) (h4 : a4.IsWhole) (a5 : Memref sig .tc .vmem S2000x128 .f32) (h5 : a5.IsWhole)
    (a6 : Memref sig .tc .vmem S1x128 .f32) (h6 : a6.IsWhole) (a7 : Memref sig .tc .vmem S1x128 .f32) (h7 : a7.IsWhole)
    (hc : ¬cond1_0 i) (x0 : Vec F S2000x256 .f32) (x1 x2 : Vec F S1x256 .f32) (x3 : Vec F S256x128 .f32) (xo5 xo6 : Vec F S1x128 .f32) :
    out1_B_4 c i a1 h1 a2 h2 a3 h3 a4 h4 a5 h5 a6 h6 a7 h7 hc x0 x1 x2 x3 xo5 xo6 = k1_pay3 x0 x1 x2 x3 := by
  unfold out1_B_4
  rw [View.read_writes_eq_canon _ _ _ (cover1_B_4 c i a1 h1 a2 h2 a3 h3 a4 h4 a5 h5 a6 h6 a7 h7 hc x0 x1 x2 x3 xo5 xo6)]
  unfold kernelRun1_B
  dsimp only
  sl_unfold_words
  rw [View.canon_unit_zero hz]
  simp only [View.readAt_eq_ld, h1.read_unread, h2.read_unread, h3.read_unread, h4.read_unread, View.ld_unit_zero (S := S2000x256) hz, View.ld_unit_zero (S := S1x256) hz, View.ld_unit_zero (S := S256x128) hz, View.ld_unit_zero (S := S1x128) hz, View.ld_unit_zero (S := S2000x128) hz]

/-- the second what it held before plus the block's column sums, -/
theorem out_B_5 (c : Dev nD) (i : grid1.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (a4 : Memref sig .tc .vmem S256x128 .f32) (h4 : a4.IsWhole) (a5 : Memref sig .tc .vmem S2000x128 .f32) (h5 : a5.IsWhole)
    (a6 : Memref sig .tc .vmem S1x128 .f32) (h6 : a6.IsWhole) (a7 : Memref sig .tc .vmem S1x128 .f32) (h7 : a7.IsWhole)
    (hc : ¬cond1_0 i) (x0 : Vec F S2000x256 .f32) (x1 x2 : Vec F S1x256 .f32) (x3 : Vec F S256x128 .f32) (xo5 xo6 : Vec F S1x128 .f32) :
    out1_B_5 c i a1 h1 a2 h2 a3 h3 a4 h4 a5 h5 a6 h6 a7 h7 hc x0 x1 x2 x3 xo5 xo6 = k1_pay4 x0 x1 x2 x3 xo5 := by
  unfold out1_B_5
  rw [View.read_writes_eq_canon _ _ _ (cover1_B_5 c i a1 h1 a2 h2 a3 h3 a4 h4 a5 h5 a6 h6 a7 h7 hc x0 x1 x2 x3 xo5 xo6)]
  unfold kernelRun1_B
  dsimp only
  sl_unfold_words
  rw [View.canon_unit_zero hz]
  simp only [View.readAt_eq_ld, h1.read_unread, h2.read_unread, h3.read_unread, h4.read_unread, h6.read_unread, h7.read_unread, View.ld_unit_zero (S := S2000x256) hz, View.ld_unit_zero (S := S1x256) hz, View.ld_unit_zero (S := S256x128) hz, View.ld_unit_zero (S := S1x128) hz, View.ld_unit_zero (S := S2000x128) hz]

/-- and the third what it held before plus the block's column sums of squares. -/
theorem out_B_6 (c : Dev nD) (i : grid1.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (a4 : Memref sig .tc .vmem S256x128 .f32) (h4 : a4.IsWhole) (a5 : Memref sig .tc .vmem S2000x128 .f32) (h5 : a5.IsWhole)
    (a6 : Memref sig .tc .vmem S1x128 .f32) (h6 : a6.IsWhole) (a7 : Memref sig .tc .vmem S1x128 .f32) (h7 : a7.IsWhole)
    (hc : ¬cond1_0 i) (x0 : Vec F S2000x256 .f32) (x1 x2 : Vec F S1x256 .f32) (x3 : Vec F S256x128 .f32) (xo5 xo6 : Vec F S1x128 .f32) :
    out1_B_6 c i a1 h1 a2 h2 a3 h3 a4 h4 a5 h5 a6 h6 a7 h7 hc x0 x1 x2 x3 xo5 xo6 = k1_pay5 x0 x1 x2 x3 xo6 := by
  unfold out1_B_6
  rw [View.read_writes_eq_canon _ _ _ (cover1_B_6 c i a1 h1 a2 h2 a3 h3 a4 h4 a5 h5 a6 h6 a7 h7 hc x0 x1 x2 x3 xo5 xo6)]
  unfold kernelRun1_B
  dsimp only
  sl_unfold_words
  rw [View.canon_unit_zero hz]
  simp only [View.readAt_eq_ld, h1.read_unread, h2.read_unread, h3.read_unread, h4.read_unread, h6.read_unread, h7.read_unread, View.ld_unit_zero (S := S2000x256) hz, View.ld_unit_zero (S := S1x256) hz, View.ld_unit_zero (S := S256x128) hz, View.ld_unit_zero (S := S1x128) hz, View.ld_unit_zero (S := S2000x128) hz]

/-- At the first point the first output's buffer ends holding the block's product as well, -/
theorem out_A_4 (c : Dev nD) (i : grid1.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (a4 : Memref sig .tc .vmem S256x128 .f32) (h4 : a4.IsWhole) (a5 : Memref sig .tc .vmem S2000x128 .f32) (h5 : a5.IsWhole)
    (a6 : Memref sig .tc .vmem S1x128 .f32) (h6 : a6.IsWhole) (a7 : Memref sig .tc .vmem S1x128 .f32) (h7 : a7.IsWhole)
    (hc : cond1_0 i) (x0 : Vec F S2000x256 .f32) (x1 x2 : Vec F S1x256 .f32) (x3 : Vec F S256x128 .f32) :
    out1_A_4 c i a1 h1 a2 h2 a3 h3 a4 h4 a5 h5 a6 h6 a7 h7 hc x0 x1 x2 x3 = k1_pay3 x0 x1 x2 x3 := by
  unfold out1_A_4
  rw [View.read_writes_eq_canon _ _ _ (cover1_A_4 c i a1 h1 a2 h2 a3 h3 a4 h4 a5 h5 a6 h6 a7 h7 hc x0 x1 x2 x3)]
  unfold kernelRun1_A
  dsimp only
  sl_unfold_words
  rw [View.canon_unit_zero hz]
  simp only [View.readAt_eq_ld, h1.read_unread, h2.read_unread, h3.read_unread, h4.read_unread, View.ld_unit_zero (S := S2000x256) hz, View.ld_unit_zero (S := S1x256) hz, View.ld_unit_zero (S := S256x128) hz, View.ld_unit_zero (S := S1x128) hz, View.ld_unit_zero (S := S2000x128) hz]

/-- and the two running rows are first set to zero and then read back and increased: the later store covers. -/
theorem out_A_5 (c : Dev nD) (i : grid1.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (a4 : Memref sig .tc .vmem S256x128 .f32) (h4 : a4.IsWhole) (a5 : Memref sig .tc .vmem S2000x128 .f32) (h5 : a5.IsWhole)
    (a6 : Memref sig .tc .vmem S1x128 .f32) (h6 : a6.IsWhole) (a7 : Memref sig .tc .vmem S1x128 .f32) (h7 : a7.IsWhole)
    (hc : cond1_0 i) (x0 : Vec F S2000x256 .f32) (x1 x2 : Vec F S1x256 .f32) (x3 : Vec F S256x128 .f32) :
    out1_A_5 c i a1 h1 a2 h2 a3 h3 a4 h4 a5 h5 a6 h6 a7 h7 hc x0 x1 x2 x3 = k1_pay4 x0 x1 x2 x3 k1_pay1 := by
  unfold out1_A_5
  rw [View.read_writes_eq_canon _ _ _ (cover1_A_5 c i a1 h1 a2 h2 a3 h3 a4 h4 a5 h5 a6 h6 a7 h7 hc x0 x1 x2 x3)]
  unfold kernelRun1_A
  dsimp only
  sl_unfold_words

  rw [View.canon_cons_unit_zero (S := S1x128) hz]
  simp only [View.readAt_eq_ld, h1.read_unread, h2.read_unread, h3.read_unread, h4.read_unread, View.readCov_unit_zero (S := S1x128) _ hz, View.ld_unit_zero (S := S2000x256) hz, View.ld_unit_zero (S := S1x256) hz, View.ld_unit_zero (S := S256x128) hz, View.ld_unit_zero (S := S1x128) hz, View.ld_unit_zero (S := S2000x128) hz]

theorem out_A_6 (c : Dev nD) (i : grid1.Coords) (a1 : Memref sig .tc .vmem S2000x256 .f32) (h1 : a1.IsWhole)
    (a2 : Memref sig .tc .vmem S1x256 .f32) (h2 : a2.IsWhole) (a3 : Memref sig .tc .vmem S1x256 .f32) (h3 : a3.IsWhole)
    (a4 : Memref sig .tc .vmem S256x128 .f32) (h4 : a4.IsWhole) (a5 : Memref sig .tc .vmem S2000x128 .f32) (h5 : a5.IsWhole)
    (a6 : Memref sig .tc .vmem S1x128 .f32) (h6 : a6.IsWhole) (a7 : Memref sig .tc .vmem S1x128 .f32) (h7 : a7.IsWhole)
    (hc : cond1_0 i) (x0 : Vec F S2000x256 .f32) (x1 x2 : Vec F S1x256 .f32) (x3 : Vec F S256x128 .f32) :
    out1_A_6 c i a1 h1 a2 h2 a3 h3 a4 h4 a5 h5 a6 h6 a7 h7 hc x0 x1 x2 x3 = k1_pay5 x0 x1 x2 x3 k1_pay2 := by
  unfold out1_A_6
  rw [View.read_writes_eq_canon _ _ _ (cover1_A_6 c i a1 h1 a2 h2 a3 h3 a4 h4 a5 h5 a6 h6 a7 h7 hc x0 x1 x2 x3)]
  unfold kernelRun1_A
  dsimp only
  sl_unfold_words
  rw [View.canon_cons_unit_zero (S := S1x128) hz]
  simp only [View.readAt_eq_ld, h1.read_unread, h2.read_unread, h3.read_unread, h4.read_unread, View.readCov_unit_zero (S := S1x128) _ hz, View.ld_unit_zero (S := S2000x256) hz, View.ld_unit_zero (S := S1x256) hz, View.ld_unit_zero (S := S256x128) hz, View.ld_unit_zero (S := S1x128) hz, View.ld_unit_zero (S := S2000x128) hz]

end Pieces

/-! ## The body's arithmetic at an index, at the ideal values -/

section Payloads

/-- A row vector of 256 broadcast over 2000 rows, read at (p, k), is the vector at k. -/
theorem bcastRow_apply {α : Type} (v : S1x256.Idx → α) (p : Fin 2000) (k : Fin 256) :
    broadcastTo S2000x256 v broadcasts_S1x256_S2000x256 (ix2 p k) = v (ix2 0 k) :=
  broadcastTo_apply v broadcasts_S1x256_S2000x256 (ix2 p k) (ix2 0 k) fun a => by
    match a with
    | ⟨0, _⟩ => rfl
    | ⟨1, _⟩ => rfl

/-- The product's left operand index on its row axis is the output's row. -/
theorem lhs_dot_0 (j : S2000x128.Idx) (k : dot_S2000x256_S256x128_S2000x128_1_0_0_1_n_n.contr.Idx) :
    (dot_S2000x256_S256x128_S2000x128_1_0_0_1_n_n.lhsIdx j k 0).val = (j 0).val := by
  simp [DotDims.lhsIdx, dot_S2000x256_S256x128_S2000x128_1_0_0_1_n_n]; rfl
/-- The product's left operand index on its column axis is the contracted coordinate. -/
theorem lhs_dot_1 (j : S2000x128.Idx) (k : dot_S2000x256_S256x128_S2000x128_1_0_0_1_n_n.contr.Idx) :
    (dot_S2000x256_S256x128_S2000x128_1_0_0_1_n_n.lhsIdx j k 1).val = (k ⟨0, by decide⟩).val :=
  dot_S2000x256_S256x128_S2000x128_1_0_0_1_n_n.lhsIdx_val_of_single rfl j k
/-- The product's right operand index on its row axis is the contracted coordinate. -/
theorem rhs_dot_0 (j : S2000x128.Idx) (k : dot_S2000x256_S256x128_S2000x128_1_0_0_1_n_n.contr.Idx) :
    (dot_S2000x256_S256x128_S2000x128_1_0_0_1_n_n.rhsIdx j k 0).val = (k ⟨0, by decide⟩).val :=
  dot_S2000x256_S256x128_S2000x128_1_0_0_1_n_n.rhsIdx_val_of_single rfl j k
/-- The product's right operand index on its column axis is the output's column. -/
theorem rhs_dot_1 (j : S2000x128.Idx) (k : dot_S2000x256_S256x128_S2000x128_1_0_0_1_n_n.contr.Idx) :
    (dot_S2000x256_S256x128_S2000x128_1_0_0_1_n_n.rhsIdx j k 1).val = (j 1).val := by
  simp [DotDims.rhsIdx, dot_S2000x256_S256x128_S2000x128_1_0_0_1_n_n]; rfl

/-- The block's product at (p, q): the sum over k of the clipped affine image of the input block's entry (p, k) times
    the weight's entry (k, q). Narrowing to the short format is the identity on the ideal values, and the product
    accumulates into the zero block. -/
theorem pay3_apply (x0 : Vec Ideal S2000x256 .f32) (x1 x2 : Vec Ideal S1x256 .f32) (x3 : Vec Ideal S256x128 .f32)
    (p : Fin 2000) (q : Fin 128) :
    k1_pay3 x0 x1 x2 x3 (ix2 p q)
      = ∑ k : Fin 256, Spec.affRelu (x0 (ix2 p k)) (x1 (ix2 0 k)) (x2 (ix2 0 k)) * x3 (ix2 k q) := by
  unfold k1_pay3
  refine (Ideal.matmul_constant_zero_apply dot_S2000x256_S256x128_S2000x128_1_0_0_1_n_n none _ _ (ix2 p q)).trans ?_
  refine (Equiv.sum_comp (contrEquiv1 dot_S2000x256_S256x128_S2000x128_1_0_0_1_n_n 256 rfl rfl).symm _).symm.trans ?_
  refine Finset.sum_congr rfl fun k _ => ?_
  have hk := contrEquiv1_symm_val dot_S2000x256_S256x128_S2000x128_1_0_0_1_n_n 256 rfl rfl k
  have l : dot_S2000x256_S256x128_S2000x128_1_0_0_1_n_n.lhsIdx (ix2 p q)
      ((contrEquiv1 dot_S2000x256_S256x128_S2000x128_1_0_0_1_n_n 256 rfl rfl).symm k) = ix2 p k := by
    funext a; apply Fin.ext
    match a with
    | ⟨0, _⟩ => exact lhs_dot_0 _ _
    | ⟨1, _⟩ => exact (lhs_dot_1 _ _).trans hk
  have r : dot_S2000x256_S256x128_S2000x128_1_0_0_1_n_n.rhsIdx (ix2 p q)
      ((contrEquiv1 dot_S2000x256_S256x128_S2000x128_1_0_0_1_n_n 256 rfl rfl).symm k) = ix2 k q := by
    funext a; apply Fin.ext
    match a with
    | ⟨0, _⟩ => exact (rhs_dot_0 _ _).trans hk
    | ⟨1, _⟩ => exact rhs_dot_1 _ _
  rw [l, r]
  simp only [shapeCast_self]
  rw [truncf_apply, truncf_apply, maximumf_apply, addf_apply, mulf_apply, broadcast_apply, bcastRow_apply, bcastRow_apply]
  rfl

/-- A sum over the rows of a 2000 × 128 block, column by column. -/
theorem colSum_apply (src : FVec Ideal S2000x128 .f32) (hacc : (0x00000000#32 : BitVec 32) = 0x00000000#32) (q : Fin 128) :
    multiReduction (F := Ideal) .add [0] S128 src 0x00000000#32 reduces_S2000x128_S128 (.inl rfl) hacc (ix1 q)
      = ∑ p : Fin 2000, src (ix2 p q) := by
  refine (Ideal.multiReduction_add_single src 0x00000000#32 reduces_S2000x128_S128 (.inl rfl) hacc (ix1 q)).trans ?_
  refine Finset.sum_congr rfl fun p _ => congrArg src ?_
  funext a
  match a with
  | ⟨0, _⟩ => rfl
  | ⟨1, _⟩ => rfl

/-- A vector of 128 read as one row of 128. -/
theorem rowCast_apply {α : Type} (v : S128.Idx → α) (q : Fin 128) :
    shapeCast S1x128 v shapeCasts_S128_S1x128 (ix2 0 q) = v (ix1 q) :=
  shapeCast_apply v shapeCasts_S128_S1x128 (ix2 0 q) (ix1 q) (by
    rw [Shape.rowMajor_val_one, Shape.rowMajor_val_two]
    show q.val = 0 * 128 + q.val
    omega)

/-- The running column sums after a block: what they were plus the block's product summed over its rows. -/
theorem pay4_apply (x0 : Vec Ideal S2000x256 .f32) (x1 x2 : Vec Ideal S1x256 .f32) (x3 : Vec Ideal S256x128 .f32)
    (v20 : Vec Ideal S1x128 .f32) (q : Fin 128) :
    k1_pay4 x0 x1 x2 x3 v20 (ix2 0 q) = v20 (ix2 0 q) + ∑ p : Fin 2000, k1_pay3 x0 x1 x2 x3 (ix2 p q) := by
  unfold k1_pay4
  show shapeCast S1x128 v20 shapeCasts_S1x128_S1x128 (ix2 0 q)
      + shapeCast S1x128 (multiReduction (F := Ideal) .add [0] S128 (k1_pay3 x0 x1 x2 x3) 0x00000000#32 reduces_S2000x128_S128 (.inl rfl) rfl)
          shapeCasts_S128_S1x128 (ix2 0 q) = _
  rw [shapeCast_self, rowCast_apply, colSum_apply]

/-- The running column sums of squares after a block: what they were plus the squares of the block's product summed
    over its rows. -/
theorem pay5_apply (x0 : Vec Ideal S2000x256 .f32) (x1 x2 : Vec Ideal S1x256 .f32) (x3 : Vec Ideal S256x128 .f32)
    (v26 : Vec Ideal S1x128 .f32) (q : Fin 128) :
    k1_pay5 x0 x1 x2 x3 v26 (ix2 0 q)
      = v26 (ix2 0 q) + ∑ p : Fin 2000, k1_pay3 x0 x1 x2 x3 (ix2 p q) * k1_pay3 x0 x1 x2 x3 (ix2 p q) := by
  unfold k1_pay5
  show shapeCast S1x128 v26 shapeCasts_S1x128_S1x128 (ix2 0 q)
      + shapeCast S1x128 (multiReduction (F := Ideal) .add [0] S128 (mulf (k1_pay3 x0 x1 x2 x3) (k1_pay3 x0 x1 x2 x3)) 0x00000000#32 reduces_S2000x128_S128 (.inl rfl) rfl)
          shapeCasts_S128_S1x128 (ix2 0 q) = _
  rw [shapeCast_self, rowCast_apply, colSum_apply]
  rfl

/-- The reset value of both running rows is zero. -/
theorem pay1_apply (i : S1x128.Idx) : k1_pay1 (F := Ideal) i = 0 := Ideal.ofBits_zero_f32
theorem pay2_apply (i : S1x128.Idx) : k1_pay2 (F := Ideal) i = 0 := Ideal.ofBits_zero_f32

end Payloads

/-! ## The launch's blocks, read off the arrays it finds at entry -/

section Blocks

variable (V : (c : Dev nD) → (b : Ref sig .tc) → Buf (Elt Ideal) ((c : Thread nD τ).loc b))

/-- The launch's four input blocks at a grid point: 2000 rows of the first input, and the whole of the other three. -/
abbrev xblk (c : Dev nD) (t : Fin cfg1.N) : Vec Ideal S2000x256 .f32 := iblk1 V c 0 t
abbrev sblk (c : Dev nD) (t : Fin cfg1.N) : Vec Ideal S1x256 .f32 := iblk1 V c 1 t
abbrev hblk (c : Dev nD) (t : Fin cfg1.N) : Vec Ideal S1x256 .f32 := iblk1 V c 2 t
abbrev wblk (c : Dev nD) (t : Fin cfg1.N) : Vec Ideal S256x128 .f32 := iblk1 V c 3 t

/-- The grid has 200 points. -/
theorem lt200 (t : Fin cfg1.N) : t.val < 200 := lt_of_lt_of_eq t.isLt N_1

/-- Row `p` of block `n` is row `n · 2000 + p` of the array. -/
def row (n : ℕ) (hn : n < 200) (p : Fin 2000) : Fin 400000 := ⟨n * 2000 + p.val, by have := p.isLt; omega⟩

/-- The block index of every window at every grid point: the first input and the first output move with the point
    along the rows, everything else stays at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

theorem xblk_apply (c : Dev nD) (t : Fin cfg1.N) (p : Fin 2000) (k : Fin 256) :
    xblk V c t (ix2 p k) = V c main_v35_0 (ix2 (row t.val (lt200 t) p) k) := by
  obtain ⟨e0, e1, -⟩ := idx_facts t
  show iblk1 V c 0 t (ix2 p k) = _
  unfold iblk1
  rw [View.read_apply]
  show V c main_v35_0 _ = V c main_v35_0 _
  refine congrArg (V c main_v35_0) (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 256 + 1 * k.val = k.val; rw [e1]; omega

theorem sblk_apply (c : Dev nD) (t : Fin cfg1.N) (k : Fin 256) :
    sblk V c t (ix2 0 k) = V c main_v46 (ix2 0 k) := by
  obtain ⟨-, -, e0, e1, -⟩ := idx_facts t
  show iblk1 V c 1 t (ix2 0 k) = _
  unfold iblk1
  rw [View.read_apply]
  show V c main_v46 _ = V c main_v46 _
  refine congrArg (V c main_v46) (funext fun a => Fin.ext ?_)
  match a with
  | ⟨0, _⟩ => show win1_1.index t (0 : Fin 2) * 1 + 1 * 0 = 0; rw [e0]
  | ⟨1, _⟩ => show win1_1.index t (1 : Fin 2) * 256 + 1 * k.val = k.val; rw [e1]; omega

theorem hblk_apply (c : Dev nD) (t : Fin cfg1.N) (k : Fin 256) :
    hblk V c t (ix2 0 k) = V c main_v49 (ix2 0 k) := by
  obtain ⟨-, -, -, -, e0, e1, -⟩ := idx_facts t
  show iblk1 V c 2 t (ix2 0 k) = _
  unfold iblk1
  rw [View.read_apply]
  show V c main_v49 _ = V c main_v49 _
  refine congrArg (V c main_v49) (funext fun a => Fin.ext ?_)
  match a with
  | ⟨0, _⟩ => show win1_2.index t (0 : Fin 2) * 1 + 1 * 0 = 0; rw [e0]
  | ⟨1, _⟩ => show win1_2.index t (1 : Fin 2) * 256 + 1 * k.val = k.val; rw [e1]; omega

theorem wblk_apply (c : Dev nD) (t : Fin cfg1.N) (k : Fin 256) (q : Fin 128) :
    wblk V c t (ix2 k q) = V c main_arg8 (ix2 k q) := by
  obtain ⟨-, -, -, -, -, -, e0, e1, -⟩ := idx_facts t
  show iblk1 V c 3 t (ix2 k q) = _
  unfold iblk1
  rw [View.read_apply]
  show V c main_arg8 _ = V c main_arg8 _
  refine congrArg (V c main_arg8) (funext fun a => Fin.ext ?_)
  match a with
  | ⟨0, _⟩ => show win1_3.index t (0 : Fin 2) * 256 + 1 * k.val = k.val; rw [e0]; omega
  | ⟨1, _⟩ => show win1_3.index t (1 : Fin 2) * 128 + 1 * q.val = q.val; rw [e1]; omega

end Blocks

variable (V : (c : Dev nD) → (b : Ref sig .tc) → Buf (Elt Ideal) ((c : Thread nD τ).loc b))

/-- The clipped affine image of the launch's first input, entry by entry. -/
def hid (c : Dev nD) : Spec.Mat 400000 256 :=
  fun r k => Spec.affRelu (V c main_v35_0 (ix2 r k)) (V c main_v46 (ix2 0 k)) (V c main_v49 (ix2 0 k))

/-- The product the launch computes. -/
def pre (c : Dev nD) : Spec.Mat 400000 128 := Spec.mm (hid V c) (Spec.toMat (V c main_arg8))

/-! ## What the three outputs' buffers hold after each grid point -/

/-- The block's product is the block's rows of the whole product. -/
theorem prod_apply (c : Dev nD) (t : Fin cfg1.N) (p : Fin 2000) (q : Fin 128) :
    k1_pay3 (xblk V c t) (sblk V c t) (hblk V c t) (wblk V c t) (ix2 p q) = pre V c (row t.val (lt200 t) p) q := by
  refine (pay3_apply (xblk V c t) (sblk V c t) (hblk V c t) (wblk V c t) p q).trans ?_
  show _ = ∑ k : Fin 256, hid V c (row t.val (lt200 t) p) k * Spec.toMat (V c main_arg8) k q
  refine Finset.sum_congr rfl fun k _ => ?_
  rw [xblk_apply, sblk_apply, hblk_apply, wblk_apply]
  rfl

theorem prod_eq (c : Dev nD) (t : Fin cfg1.N) (y : S2000x128.Idx) :
    k1_pay3 (xblk V c t) (sblk V c t) (hblk V c t) (wblk V c t) y = pre V c (row t.val (lt200 t) (y 0)) (y 1) := by
  obtain ⟨p, q, rfl⟩ : ∃ (p : Fin 2000) (q : Fin 128), y = ix2 p q := ⟨y 0, y 1, eq_ix2 y⟩
  exact prod_apply V c t p q

/-- Column `q` of the product summed over the rows of block `s` (zero past the last block), -/
def blkSum (c : Dev nD) (s : ℕ) (q : Fin 128) : EReal :=
  if h : s < 200 then ∑ p : Fin 2000, pre V c (row s h p) q else 0
/-- and its squares summed over them. -/
def blkSumSq (c : Dev nD) (s : ℕ) (q : Fin 128) : EReal :=
  if h : s < 200 then ∑ p : Fin 2000, pre V c (row s h p) q * pre V c (row s h p) q else 0

theorem blkSum_eq (c : Dev nD) (t : Fin cfg1.N) (q : Fin 128) :
    ∑ p : Fin 2000, k1_pay3 (xblk V c t) (sblk V c t) (hblk V c t) (wblk V c t) (ix2 p q) = blkSum V c t.val q := by
  unfold blkSum
  rw [dif_pos (lt200 t)]
  exact Finset.sum_congr rfl fun p _ => prod_apply V c t p q

theorem blkSumSq_eq (c : Dev nD) (t : Fin cfg1.N) (q : Fin 128) :
    ∑ p : Fin 2000, k1_pay3 (xblk V c t) (sblk V c t) (hblk V c t) (wblk V c t) (ix2 p q) * k1_pay3 (xblk V c t) (sblk V c t) (hblk V c t) (wblk V c t) (ix2 p q) = blkSumSq V c t.val q := by
  unfold blkSumSq
  rw [dif_pos (lt200 t)]
  exact Finset.sum_congr rfl fun p _ => by rw [prod_apply V c t p q]

/-- After the body at point `n`: the first output's buffer holds block `n` of the product, the second and the third
    the column sums and the column sums of squares over blocks `0 … n` — by induction on the point: point 0 starts both
    rows from zero, every later point adds its own block's sums to what the point before left. -/
theorem outsAt_eq (c : Dev nD) : ∀ (n : ℕ) (h : n < cfg1.N),
    (outsAt1 V c n h).1 = k1_pay3 (xblk V c ⟨n, h⟩) (sblk V c ⟨n, h⟩) (hblk V c ⟨n, h⟩) (wblk V c ⟨n, h⟩)
    ∧ (∀ q : Fin 128, (outsAt1 V c n h).2.1 (ix2 0 q) = ∑ s ∈ Finset.range (n + 1), blkSum V c s q)
    ∧ (∀ q : Fin 128, (outsAt1 V c n h).2.2 (ix2 0 q) = ∑ s ∈ Finset.range (n + 1), blkSumSq V c s q)
  | 0, h => by
    rw [outsAt1_A V c ⟨0, h⟩ rfl]
    dsimp only
    rw [out_A_4, out_A_5, out_A_6]
    refine ⟨rfl, fun q => ?_, fun q => ?_⟩
    · refine (pay4_apply (xblk V c ⟨0, h⟩) (sblk V c ⟨0, h⟩) (hblk V c ⟨0, h⟩) (wblk V c ⟨0, h⟩) (k1_pay1 (F := Ideal)) q).trans ?_
      rw [pay1_apply, zero_add, Finset.sum_range_one]
      exact blkSum_eq V c ⟨0, h⟩ q
    · refine (pay5_apply (xblk V c ⟨0, h⟩) (sblk V c ⟨0, h⟩) (hblk V c ⟨0, h⟩) (wblk V c ⟨0, h⟩) (k1_pay2 (F := Ideal)) q).trans ?_
      rw [pay2_apply, zero_add, Finset.sum_range_one]
      exact blkSumSq_eq V c ⟨0, h⟩ q
  | n + 1, h => by
    have hN : cfg1.N = 200 := N_1
    have hB : ¬(⟨n + 1, h⟩ : Fin cfg1.N).val % 200 = 0 := by dsimp only; omega
    obtain ⟨-, ih5, ih6⟩ := outsAt_eq c n (Nat.lt_of_succ_lt h)
    rw [outsAt1_B V c ⟨n + 1, h⟩ hB]
    dsimp only
    rw [out_B_4, out_B_5, out_B_6]
    refine ⟨rfl, fun q => ?_, fun q => ?_⟩
    · refine (pay4_apply (xblk V c ⟨n + 1, h⟩) (sblk V c ⟨n + 1, h⟩) (hblk V c ⟨n + 1, h⟩) (wblk V c ⟨n + 1, h⟩) (outsAt1 V c n (Nat.lt_of_succ_lt h)).2.1 q).trans ?_
      rw [ih5 q, Finset.sum_range_succ _ (n + 1)]
      exact congrArg (_ + ·) (blkSum_eq V c ⟨n + 1, h⟩ q)
    · refine (pay5_apply (xblk V c ⟨n + 1, h⟩) (sblk V c ⟨n + 1, h⟩) (hblk V c ⟨n + 1, h⟩) (wblk V c ⟨n + 1, h⟩) (outsAt1 V c n (Nat.lt_of_succ_lt h)).2.2 q).trans ?_
      rw [ih6 q, Finset.sum_range_succ _ (n + 1)]
      exact congrArg (_ + ·) (blkSumSq_eq V c ⟨n + 1, h⟩ q)

/-! ## From blocks to the arrays -/

/-- An index of the first output's array lies in point `t`'s block iff each coordinate is in the block's range. -/
theorem mem_blk4 (t : Fin cfg1.N) (i : S400000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v50_0).slice (win1_4.rect t)).set ↔ _
  rw [View.set_slice_whole, Rect.mem_set_unit]
  exact Iff.rfl

/-- What point `t` writes back to the first output is block `t` of the product. -/
theorem flushed4_eq (c : Dev nD) (t : Fin cfg1.N) :
    (dat1 V c).flushed 4 t = ((cfg1.win 4).blk t).view.read (Elt Ideal) (Spec.ofMat (pre V c)) := by
  show (cfg1.win 4).cut (grid1.coords t) ((dat1 V c).after 4 t) = _
  rw [after1_4, (outsAt_eq V c t.val t.isLt).1]
  obtain ⟨-, -, -, -, -, -, -, -, e0, e1, -⟩ := idx_facts t
  funext j
  refine (prod_eq V c t j).trans ?_
  show pre V c (row t.val (lt200 t) (j 0)) (j 1) = pre V c ((((cfg1.win 4).blk t).view.emb j) 0) ((((cfg1.win 4).blk t).view.emb j) 1)
  refine congr (congrArg (pre V c) (Fin.ext ?_)) (Fin.ext ?_)
  · show t.val * 2000 + (j 0).val = win1_4.index t (0 : Fin 2) * 2000 + 1 * (j 0).val
    rw [e0]; omega
  · show (j 1).val = win1_4.index t (1 : Fin 2) * 128 + 1 * (j 1).val
    rw [e1]; omega

/-- After the launch the first output array holds the product. -/
theorem arr_pre (c : Dev nD) :
    (dat1 V c).arrAt 4 cfg1.N = (Spec.ofMat (pre V c) : Buf (Elt Ideal) ((c : Thread nD τ).loc main_v50_0)) :=
  (dat1 V c).arrAt_eq_of_cover 4 (Spec.ofMat (pre V c)) (fun t _ => flushed4_eq V c t) fun i => by
    have hi0 : (i 0).val < 400000 := (i 0).isLt
    have hi1 : (i 1).val < 128 := (i 1).isLt
    have hN : cfg1.N = 200 := N_1
    refine ⟨⟨(i 0).val / 2000, by rw [hN]; omega⟩, flush1_4 _, ?_⟩
    rw [mem_blk4]
    obtain ⟨-, -, -, -, -, -, -, -, e0, e1, -⟩ := idx_facts ⟨(i 0).val / 2000, by rw [hN]; omega⟩
    intro a
    match a with
    | ⟨0, _⟩ =>
      show win1_4.index _ (0 : Fin 2) * 2000 ≤ (i 0).val ∧ (i 0).val < win1_4.index _ (0 : Fin 2) * 2000 + 2000
      rw [e0]; dsimp only; omega
    | ⟨1, _⟩ =>
      show win1_4.index _ (1 : Fin 2) * 128 ≤ (i 1).val ∧ (i 1).val < win1_4.index _ (1 : Fin 2) * 128 + 128
      rw [e1]; omega

/-- The sums over the 200 blocks are the sums over all 400000 rows. -/
theorem total_sum (c : Dev nD) (q : Fin 128) :
    ∑ s ∈ Finset.range 200, blkSum V c s q = Spec.colSum (pre V c) q := by
  rw [Finset.sum_range]
  show _ = ∑ r : Fin 400000, pre V c r q
  refine Eq.trans ?_ (Cert.Algebra.sum_blocks 200 2000 (fun r => pre V c r q)).symm
  refine Finset.sum_congr rfl fun t _ => ?_
  unfold blkSum
  rw [dif_pos t.isLt]
  rfl

theorem total_sumSq (c : Dev nD) (q : Fin 128) :
    ∑ s ∈ Finset.range 200, blkSumSq V c s q = Spec.colSumSq (pre V c) q := by
  rw [Finset.sum_range]
  show _ = ∑ r : Fin 400000, pre V c r q * pre V c r q
  refine Eq.trans ?_ (Cert.Algebra.sum_blocks 200 2000 (fun r => pre V c r q * pre V c r q)).symm
  refine Finset.sum_congr rfl fun t _ => ?_
  unfold blkSumSq
  rw [dif_pos t.isLt]
  rfl

/-- After the last point the second output's buffer holds the product's column sums, -/
theorem acc5_eq (c : Dev nD) (t : Fin cfg1.N) (ht : t.val = 199) (y : S1x128.Idx) :
    (outsAt1 V c t.val t.isLt).2.1 y = Spec.colSum (pre V c) (y 1) := by
  obtain ⟨a, q, rfl⟩ : ∃ (a : Fin 1) (q : Fin 128), y = ix2 a q := ⟨y 0, y 1, eq_ix2 y⟩
  obtain rfl : a = 0 := Subsingleton.elim _ _
  rw [(outsAt_eq V c t.val t.isLt).2.1 q, ht]
  exact total_sum V c q

/-- and the third's its column sums of squares. -/
theorem acc6_eq (c : Dev nD) (t : Fin cfg1.N) (ht : t.val = 199) (y : S1x128.Idx) :
    (outsAt1 V c t.val t.isLt).2.2 y = Spec.colSumSq (pre V c) (y 1) := by
  obtain ⟨a, q, rfl⟩ : ∃ (a : Fin 1) (q : Fin 128), y = ix2 a q := ⟨y 0, y 1, eq_ix2 y⟩
  obtain rfl : a = 0 := Subsingleton.elim _ _
  rw [(outsAt_eq V c t.val t.isLt).2.2 q, ht]
  exact total_sumSq V c q

theorem mem_blk5 (t : Fin cfg1.N) (i : S1x128.Idx) :
    i ∈ ((cfg1.win 5).blk t).view.set ↔ ∀ a : Fin 2, win1_5.index t a * S1x128.size a ≤ (i a).val ∧ (i a).val < win1_5.index t a * S1x128.size a + S1x128.size a := by
  show i ∈ ((View.whole main_v50_1).slice (win1_5.rect t)).set ↔ _
  rw [View.set_slice_whole, Rect.mem_set_unit]
  exact Iff.rfl

theorem mem_blk6 (t : Fin cfg1.N) (i : S1x128.Idx) :
    i ∈ ((cfg1.win 6).blk t).view.set ↔ ∀ a : Fin 2, win1_6.index t a * S1x128.size a ≤ (i a).val ∧ (i a).val < win1_6.index t a * S1x128.size a + S1x128.size a := by
  show i ∈ ((View.whole main_v50_2).slice (win1_6.rect t)).set ↔ _
  rw [View.set_slice_whole, Rect.mem_set_unit]
  exact Iff.rfl

/-- A one-row array read through the second output's block is the row itself. -/
theorem read_row5 (t : Fin cfg1.N) (f : Fin 128 → EReal) (j : S1x128.Idx) :
    ((cfg1.win 5).blk t).view.read (Elt Ideal) (Spec.ofRow f) j = f (j 1) := by
  obtain ⟨-, -, -, -, -, -, -, -, -, -, e0, e1, -⟩ := idx_facts t
  rw [View.read_apply]
  show f ((((cfg1.win 5).blk t).view.emb j) 1) = f (j 1)
  refine congrArg f (Fin.ext ?_)
  show win1_5.index t (1 : Fin 2) * 128 + 1 * (j 1).val = (j 1).val
  rw [e1]; omega

/-- A one-row array read through the third output's block is the row itself. -/
theorem read_row6 (t : Fin cfg1.N) (f : Fin 128 → EReal) (j : S1x128.Idx) :
    ((cfg1.win 6).blk t).view.read (Elt Ideal) (Spec.ofRow f) j = f (j 1) := by
  obtain ⟨-, -, -, -, -, -, -, -, -, -, -, -, e0, e1⟩ := idx_facts t
  rw [View.read_apply]
  show f ((((cfg1.win 6).blk t).view.emb j) 1) = f (j 1)
  refine congrArg f (Fin.ext ?_)
  show win1_6.index t (1 : Fin 2) * 128 + 1 * (j 1).val = (j 1).val
  rw [e1]; omega

/-- The one write-back of the second output, after the last point, writes the product's column sums. -/
theorem flushed5_eq (c : Dev nD) (t : Fin cfg1.N) (hf : (cfg1.win 5).flush t = true) :
    (dat1 V c).flushed 5 t = ((cfg1.win 5).blk t).view.read (Elt Ideal) (Spec.ofRow (Spec.colSum (pre V c))) := by
  have ht : t.val = 199 := by have := (flush1_5 t).mp hf; have := lt200 t; omega
  show (cfg1.win 5).cut (grid1.coords t) ((dat1 V c).after 5 t) = _
  rw [after1_5]
  funext j
  exact (acc5_eq V c t ht j).trans (read_row5 t (Spec.colSum (pre V c)) j).symm

/-- The one write-back of the third output, after the last point, writes the product's column sums of squares. -/
theorem flushed6_eq (c : Dev nD) (t : Fin cfg1.N) (hf : (cfg1.win 6).flush t = true) :
    (dat1 V c).flushed 6 t = ((cfg1.win 6).blk t).view.read (Elt Ideal) (Spec.ofRow (Spec.colSumSq (pre V c))) := by
  have ht : t.val = 199 := by have := (flush1_6 t).mp hf; have := lt200 t; omega
  show (cfg1.win 6).cut (grid1.coords t) ((dat1 V c).after 6 t) = _
  rw [after1_6]
  funext j
  exact (acc6_eq V c t ht j).trans (read_row6 t (Spec.colSumSq (pre V c)) j).symm

/-- After the launch the second output array holds the product's column sums. -/
theorem arr_sum (c : Dev nD) :
    (dat1 V c).arrAt 5 cfg1.N = (Spec.ofRow (Spec.colSum (pre V c)) : Buf (Elt Ideal) ((c : Thread nD τ).loc main_v50_1)) :=
  (dat1 V c).arrAt_eq_of_cover 5 (Spec.ofRow (Spec.colSum (pre V c))) (flushed5_eq V c) fun i => by
    have hi0 : (i 0).val < 1 := (i 0).isLt
    have hi1 : (i 1).val < 128 := (i 1).isLt
    have hN : cfg1.N = 200 := N_1
    refine ⟨⟨199, by rw [hN]; omega⟩, (flush1_5 _).mpr rfl, ?_⟩
    rw [mem_blk5]
    obtain ⟨-, -, -, -, -, -, -, -, -, -, e0, e1, -⟩ := idx_facts ⟨199, by rw [hN]; omega⟩
    intro a
    match a with
    | ⟨0, _⟩ =>
      show win1_5.index _ (0 : Fin 2) * 1 ≤ (i 0).val ∧ (i 0).val < win1_5.index _ (0 : Fin 2) * 1 + 1
      rw [e0]; omega
    | ⟨1, _⟩ =>
      show win1_5.index _ (1 : Fin 2) * 128 ≤ (i 1).val ∧ (i 1).val < win1_5.index _ (1 : Fin 2) * 128 + 128
      rw [e1]; omega

/-- After the launch the third output array holds the product's column sums of squares. -/
theorem arr_sumsq (c : Dev nD) :
    (dat1 V c).arrAt 6 cfg1.N = (Spec.ofRow (Spec.colSumSq (pre V c)) : Buf (Elt Ideal) ((c : Thread nD τ).loc main_v50_2)) :=
  (dat1 V c).arrAt_eq_of_cover 6 (Spec.ofRow (Spec.colSumSq (pre V c))) (flushed6_eq V c) fun i => by
    have hi0 : (i 0).val < 1 := (i 0).isLt
    have hi1 : (i 1).val < 128 := (i 1).isLt
    have hN : cfg1.N = 200 := N_1
    refine ⟨⟨199, by rw [hN]; omega⟩, (flush1_6 _).mpr rfl, ?_⟩
    rw [mem_blk6]
    obtain ⟨-, -, -, -, -, -, -, -, -, -, -, -, e0, e1⟩ := idx_facts ⟨199, by rw [hN]; omega⟩
    intro a
    match a with
    | ⟨0, _⟩ =>
      show win1_6.index _ (0 : Fin 2) * 1 ≤ (i 0).val ∧ (i 0).val < win1_6.index _ (0 : Fin 2) * 1 + 1
      rw [e0]; omega
    | ⟨1, _⟩ =>
      show win1_6.index _ (1 : Fin 2) * 128 ≤ (i 1).val ∧ (i 1).val < win1_6.index _ (1 : Fin 2) * 128 + 128
      rw [e1]; omega

end Cert.KernelIdeal.Region1

end
-- ==== Proof.KerRegion2.lean ====
/-
  The third launch read as values: every entry `a` of its first input becomes `max (a · scale + shift) 0`, the scale and
  the shift one number per column, block of 2000 rows by block, each block written to its own rows of the output.
  Stated at ANY contents `V` of the TensorCore's buffers at the launch's entry.
-/
import proofs.«139709_j50869592655480_1_alg».proof.Proof.Gen.KernelIdeal.Frame
import proofs.«139709_j50869592655480_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b))

/-- The clipped affine image of the launch's first input, entry by entry. -/
def res (c : Dev nD) : Spec.Mat 400000 128 :=
  fun r j => Spec.affRelu (V c main_v50_0 (ix2 r j)) (V c main_v61 (ix2 0 j)) (V c main_v64 (ix2 0 j))

/-- The one block offset this launch's accesses use: both coordinates zero. -/
theorem zero_off : (![0, 0] : Fin 2 → Nat) = fun _ => 0 := funext fun a => by fin_cases a <;> rfl

/-- The body's arithmetic at one entry of a block: the entry times its column's scale plus its column's shift, clipped
    below at zero; the scale and the shift are one-row blocks read at the entry's column. -/
theorem pay_apply (x0 : Vec Ideal S2000x128 .f32) (x1 x2 : Vec Ideal S1x128 .f32) (p : Fin 2000) (q : Fin 128) :
    k2_pay1 x0 x1 x2 (ix2 p q) = Spec.affRelu (x0 (ix2 p q)) (x1 (ix2 0 q)) (x2 (ix2 0 q)) := by
  unfold k2_pay1
  simp only [shapeCast_self]
  rw [maximumf_apply, addf_apply, mulf_apply, broadcast_apply]
  rw [broadcastTo_1b_ab_apply, broadcastTo_1b_ab_apply]
  rfl

/-- The same at any index of the block, the column read off the index. -/
theorem pay_at (x0 : Vec Ideal S2000x128 .f32) (x1 x2 : Vec Ideal S1x128 .f32) (y : S2000x128.Idx) :
    k2_pay1 x0 x1 x2 y = Spec.affRelu (x0 y) (x1 (ix2 0 (y 1))) (x2 (ix2 0 (y 1))) := by
  obtain ⟨p, q, rfl⟩ : ∃ (p : Fin 2000) (q : Fin 128), y = ix2 p q := ⟨y 0, y 1, eq_ix2 y⟩
  exact pay_apply x0 x1 x2 p q

/-- The printed index maps over the 200 grid points: point `t` takes block `t` of the rows of the first input and of
    the output, all columns; the scale and the shift are always their one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of the clipped affine image. -/
theorem flushed_eq (c : Dev nD) (t : Fin cfg2.N) :
    (dat2 V c).flushed 3 t
      = ((cfg2.win 3).blk t).view.read (Elt Ideal) (Spec.ofMat (res V c) : Buf (Elt Ideal) ((c : Thread nD τ).loc main_v65)) := by
  show (cfg2.win 3).cut (grid2.coords t) ((dat2 V c).after 3 t) = _
  rw [after2_3]
  unfold out2_3
  rw [View.canon_unit_zero zero_off]
  simp only [View.ld_unit_zero (S := S2000x128) zero_off, View.ld_unit_zero (S := S1x128) zero_off]
  obtain ⟨e0, e1, e2, e3, e4, e5, e6, e7⟩ := idx_facts t
  funext j
  show k2_pay1 (iblk2 V c 0 t) (iblk2 V c 1 t) (iblk2 V c 2 t) j = Spec.ofMat (res V c) (((cfg2.win 3).blk t).view.emb j)
  refine (pay_at (iblk2 V c 0 t) (iblk2 V c 1 t) (iblk2 V c 2 t) j).trans ?_
  show Spec.affRelu (V c main_v50_0 (((cfg2.win 0).blk t).view.emb j))
        (V c main_v61 (((cfg2.win 1).blk t).view.emb (ix2 0 (j 1))))
        (V c main_v64 (((cfg2.win 2).blk t).view.emb (ix2 0 (j 1))))
      = Spec.affRelu (V c main_v50_0 (ix2 ((((cfg2.win 3).blk t).view.emb j) 0) ((((cfg2.win 3).blk t).view.emb j) 1)))
        (V c main_v61 (ix2 0 ((((cfg2.win 3).blk t).view.emb j) 1)))
        (V c main_v64 (ix2 0 ((((cfg2.win 3).blk t).view.emb j) 1)))
  have hj0 : (j 0).val < 2000 := (j 0).isLt
  have hj1 : (j 1).val < 128 := (j 1).isLt
  have h0 : ((cfg2.win 0).blk t).view.emb j
      = ix2 ((((cfg2.win 3).blk t).view.emb j) 0) ((((cfg2.win 3).blk t).view.emb j) 1) := by
    funext a; apply Fin.ext
    match a with
    | ⟨0, _⟩ => show win2_0.index t (0 : Fin 2) * 2000 + 1 * (j 0).val = win2_3.index t (0 : Fin 2) * 2000 + 1 * (j 0).val; omega
    | ⟨1, _⟩ => show win2_0.index t (1 : Fin 2) * 128 + 1 * (j 1).val = win2_3.index t (1 : Fin 2) * 128 + 1 * (j 1).val; omega
  have h1 : ((cfg2.win 1).blk t).view.emb (ix2 0 (j 1)) = ix2 0 ((((cfg2.win 3).blk t).view.emb j) 1) := by
    funext a; apply Fin.ext
    match a with
    | ⟨0, _⟩ => show win2_1.index t (0 : Fin 2) * 1 + 1 * 0 = 0; omega
    | ⟨1, _⟩ => show win2_1.index t (1 : Fin 2) * 128 + 1 * (j 1).val = win2_3.index t (1 : Fin 2) * 128 + 1 * (j 1).val; omega
  have h2 : ((cfg2.win 2).blk t).view.emb (ix2 0 (j 1)) = ix2 0 ((((cfg2.win 3).blk t).view.emb j) 1) := by
    funext a; apply Fin.ext
    match a with
    | ⟨0, _⟩ => show win2_2.index t (0 : Fin 2) * 1 + 1 * 0 = 0; omega
    | ⟨1, _⟩ => show win2_2.index t (1 : Fin 2) * 128 + 1 * (j 1).val = win2_3.index t (1 : Fin 2) * 128 + 1 * (j 1).val; omega
  rw [h0, h1, h2]
  rfl

/-- An index of the output array lies in point `t`'s block exactly when each coordinate lies in the block's range. -/
theorem mem_blk (t : Fin cfg2.N) (i : S400000x128.Idx) :
    i ∈ ((cfg2.win 3).blk t).view.set ↔ ∀ a : Fin 2, win2_3.index t a * S2000x128.size a ≤ (i a).val
      ∧ (i a).val < win2_3.index t a * S2000x128.size a + S2000x128.size a := by
  show i ∈ ((View.whole main_v65).slice (win2_3.rect t)).set ↔ _
  rw [View.set_slice_whole, Rect.mem_set_unit]
  exact Iff.rfl

/-- Every index of the output array is in some point's block: row `r` is in block `r / 2000`, and a block has all 128 columns. -/
theorem covered (i : S400000x128.Idx) :
    ∃ t : Fin cfg2.N, (cfg2.win 3).flush t = true ∧ i ∈ ((cfg2.win 3).blk t).view.set := by
  have hi0 : (i 0).val < 400000 := (i 0).isLt
  have hi1 : (i 1).val < 128 := (i 1).isLt
  have hN : cfg2.N = 200 := N_2
  obtain ⟨t, ht⟩ : ∃ t : Fin cfg2.N, t.val = (i 0).val / 2000 := ⟨⟨(i 0).val / 2000, by rw [hN]; omega⟩, rfl⟩
  obtain ⟨-, -, -, -, -, -, e6, e7⟩ := idx_facts t
  refine ⟨t, flush2_3 t, ?_⟩
  rw [mem_blk]
  intro a
  match a with
  | ⟨0, _⟩ =>
    show win2_3.index t (0 : Fin 2) * 2000 ≤ (i 0).val ∧ (i 0).val < win2_3.index t (0 : Fin 2) * 2000 + 2000
    omega
  | ⟨1, _⟩ =>
    show win2_3.index t (1 : Fin 2) * 128 ≤ (i 1).val ∧ (i 1).val < win2_3.index t (1 : Fin 2) * 128 + 128
    omega

/-- After the launch the output array holds it. -/
theorem arr_res (c : Dev nD) :
    (dat2 V c).arrAt 3 cfg2.N = (Spec.ofMat (res V c) : Buf (Elt Ideal) ((c : Thread nD τ).loc main_v65)) :=
  (dat2 V c).arrAt_eq_of_cover 3 (Spec.ofMat (res V c)) (fun t _ => flushed_eq V c t) covered

end Cert.KernelIdeal.Region2

end
-- ==== Proof.Shared.lean ====
/-
  The edge features: the part of the computation the two programs share word for word. Each of the two gather steps sums
  the rows that name one node (a scatter-add into a zero table over the endpoint words), reads the sum back at every
  row's own node (a gather, a negative word wrapped once), and lays beside it that sum plus the row's partner — row 2t's
  partner is row 2t+1 and conversely (the reshape to pairs, the reversal of the pair, the reshape back).
  It is stated once for each program over that program's own shape names and dimension records, and the two are one
  function.
-/
import proofs.«139709_j50869592655480_1_alg».proof.Proof.Gen.KernelIdeal
import proofs.«139709_j50869592655480_1_alg».proof.Proof.Gen.ReferenceIdeal
import Idealize.ShloMosaic.PureOps.Ideal
import proofs.«139709_j50869592655480_1_alg».proof.Proof.Spec

noncomputable section

namespace Cert.KernelIdeal

open Idealize.ShloMosaic Facts₀

/-- The flattened endpoint words: the 200000 × 2 table read row-major as 400000 words. -/
def endpoints (e : IVec S200000x2 32) : IVec S400000 32 := shapeCast S400000 e shapeCasts_S200000x2_S400000

/-- The endpoint words with a negative word wrapped once by the node count. -/
def wrapped (e : IVec S200000x2 32) : IVec S400000 32 :=
  select (cmpi .slt (endpoints e) (broadcastInDim S400000 ![] bcast_S_S400000 (constantI S_ 32 0#32)))
    (addi (endpoints e) (broadcastInDim S400000 ![] bcast_S_S400000 (constantI S_ 32 50000#32))) (endpoints e)

/-- The first gather step on 128 columns: each row's node sum, and beside it the node sum plus the partner row. -/
def edgeStep128 (x : FVec Ideal S400000x128 .f32) (e : IVec S200000x2 32) : FVec Ideal S400000x256 .f32 :=
  let g : FVec Ideal S400000x128 .f32 :=
    Host.gather gather_S50000x128_S400000x1_S400000x128_1_0_n_n_0_1_1128
      (Host.scatterAdd scatter_S50000x128_S400000x1_S400000x128_1_0_0_1
        (broadcastInDim S50000x128 ![] bcast_S_S50000x128 (constant S_ .f32 0x00000000#32))
        (broadcastInDim S400000x1 ![0] bcast_S400000_S400000x1_0 (endpoints e)) x)
      (broadcastInDim S400000x1 ![0] bcast_S400000_S400000x1_0 (wrapped e))
  concatenate S400000x256 1 [⟨S400000x128, g⟩, ⟨S400000x128,
    addf g (shapeCast S400000x128 (Host.reverse [1] (shapeCast S200000x2x128 x shapeCasts_S400000x128_S200000x2x128))
      shapeCasts_S200000x2x128_S400000x128)⟩] concatenates_S400000x128_S400000x128_S400000x256_d1

/-- The second gather step, the same on 256 columns. -/
def edgeStep256 (y : FVec Ideal S400000x256 .f32) (e : IVec S200000x2 32) : FVec Ideal S400000x512 .f32 :=
  let g : FVec Ideal S400000x256 .f32 :=
    Host.gather gather_S50000x256_S400000x1_S400000x256_1_0_n_n_0_1_1256
      (Host.scatterAdd scatter_S50000x256_S400000x1_S400000x256_1_0_0_1
        (broadcastInDim S50000x256 ![] bcast_S_S50000x256 (constant S_ .f32 0x00000000#32))
        (broadcastInDim S400000x1 ![0] bcast_S400000_S400000x1_0 (endpoints e)) y)
      (broadcastInDim S400000x1 ![0] bcast_S400000_S400000x1_0 (wrapped e))
  concatenate S400000x512 1 [⟨S400000x256, g⟩, ⟨S400000x256,
    addf g (shapeCast S400000x256 (Host.reverse [1] (shapeCast S200000x2x256 y shapeCasts_S400000x256_S200000x2x256))
      shapeCasts_S200000x2x256_S400000x256)⟩] concatenates_S400000x256_S400000x256_S400000x512_d1

/-- The edge features both programs feed their first layer: two gather steps from the edge representation. -/
def edgeFeatures (x : FVec Ideal S400000x128 .f32) (e : IVec S200000x2 32) : FVec Ideal S400000x512 .f32 :=
  edgeStep256 (edgeStep128 x e) e

end Cert.KernelIdeal

namespace Cert.ReferenceIdeal

open Idealize.ShloMosaic Facts₀

/-- The flattened endpoint words: the 200000 × 2 table read row-major as 400000 words. -/
def endpoints (e : IVec S200000x2 32) : IVec S400000 32 := shapeCast S400000 e shapeCasts_S200000x2_S400000

/-- The endpoint words with a negative word wrapped once by the node count. -/
def wrapped (e : IVec S200000x2 32) : IVec S400000 32 :=
  select (cmpi .slt (endpoints e) (broadcastInDim S400000 ![] bcast_S_S400000 (constantI S_ 32 0#32)))
    (addi (endpoints e) (broadcastInDim S400000 ![] bcast_S_S400000 (constantI S_ 32 50000#32))) (endpoints e)

/-- The first gather step on 128 columns: each row's node sum, and beside it the node sum plus the partner row. -/
def edgeStep128 (x : FVec Ideal S400000x128 .f32) (e : IVec S200000x2 32) : FVec Ideal S400000x256 .f32 :=
  let g : FVec Ideal S400000x128 .f32 :=
    Host.gather gather_S50000x128_S400000x1_S400000x128_1_0_n_n_0_1_1128
      (Host.scatterAdd scatter_S50000x128_S400000x1_S400000x128_1_0_0_1
        (broadcastInDim S50000x128 ![] bcast_S_S50000x128 (constant S_ .f32 0x00000000#32))
        (broadcastInDim S400000x1 ![0] bcast_S400000_S400000x1_0 (endpoints e)) x)
      (broadcastInDim S400000x1 ![0] bcast_S400000_S400000x1_0 (wrapped e))
  concatenate S400000x256 1 [⟨S400000x128, g⟩, ⟨S400000x128,
    addf g (shapeCast S400000x128 (Host.reverse [1] (shapeCast S200000x2x128 x shapeCasts_S400000x128_S200000x2x128))
      shapeCasts_S200000x2x128_S400000x128)⟩] concatenates_S400000x128_S400000x128_S400000x256_d1

/-- The second gather step, the same on 256 columns. -/
def edgeStep256 (y : FVec Ideal S400000x256 .f32) (e : IVec S200000x2 32) : FVec Ideal S400000x512 .f32 :=
  let g : FVec Ideal S400000x256 .f32 :=
    Host.gather gather_S50000x256_S400000x1_S400000x256_1_0_n_n_0_1_1256
      (Host.scatterAdd scatter_S50000x256_S400000x1_S400000x256_1_0_0_1
        (broadcastInDim S50000x256 ![] bcast_S_S50000x256 (constant S_ .f32 0x00000000#32))
        (broadcastInDim S400000x1 ![0] bcast_S400000_S400000x1_0 (endpoints e)) y)
      (broadcastInDim S400000x1 ![0] bcast_S400000_S400000x1_0 (wrapped e))
  concatenate S400000x512 1 [⟨S400000x256, g⟩, ⟨S400000x256,
    addf g (shapeCast S400000x256 (Host.reverse [1] (shapeCast S200000x2x256 y shapeCasts_S400000x256_S200000x2x256))
      shapeCasts_S200000x2x256_S400000x256)⟩] concatenates_S400000x256_S400000x256_S400000x512_d1

/-- The edge features both programs feed their first layer: two gather steps from the edge representation. -/
def edgeFeatures (x : FVec Ideal S400000x128 .f32) (e : IVec S200000x2 32) : FVec Ideal S400000x512 .f32 :=
  edgeStep256 (edgeStep128 x e) e

end Cert.ReferenceIdeal

namespace Cert.Shared

open Idealize.ShloMosaic

/-- The reference's edge features are the kernel's: the same operations over the same dimension records. -/
theorem edgeFeatures_eq (x : FVec Ideal Cert.KernelIdeal.S400000x128 .f32) (e : IVec Cert.KernelIdeal.S200000x2 32) :
    Cert.ReferenceIdeal.edgeFeatures x e = Cert.KernelIdeal.edgeFeatures x e := rfl

open Cert.KernelIdeal in
/-- The result both programs end with, as a function of the eleven arguments: the two normalised layers over the edge features. -/
def result (x : FVec Ideal S400000x128 .f32) (e : IVec S200000x2 32) (Wl : FVec Ideal S512x128 .f32) (b : FVec Ideal S128 .f32)
    (eps : FVec Ideal S_ .f32) (W1 : FVec Ideal S128x256 .f32) (g1 be1 : FVec Ideal S256 .f32) (W2 : FVec Ideal S256x128 .f32)
    (g2 be2 : FVec Ideal S128 .f32) : FVec Ideal S400000x128 .f32 :=
  Cert.Spec.ofMat (Cert.Spec.out (Cert.Spec.toMat (Cert.KernelIdeal.edgeFeatures x e)) (Cert.Spec.toMat x) (Cert.Spec.toMat Wl)
    (Cert.Spec.toVec b) (eps ValueIdx.ix0) (Cert.Spec.toMat W1) (Cert.Spec.toVec g1) (Cert.Spec.toVec be1) (Cert.Spec.toMat W2)
    (Cert.Spec.toVec g2) (Cert.Spec.toVec be2))

end Cert.Shared

end
-- ==== Proof.KerHost0.lean ====
/-
  What the first launch finds in its six input arrays: the host operations before it, evaluated on the launch memory.
  The first input is the edge features of the edge representation and the endpoint table; the second, third and sixth
  are arguments as launched; the fourth is the bias as one row; the fifth is `1 + eps` repeated along one row.
-/
import proofs.«139709_j50869592655480_1_alg».proof.Proof.Gen.KernelIdeal.Frame
import proofs.«139709_j50869592655480_1_alg».proof.Proof.Shared
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Host0

open Idealize.ShloMosaic Idealize.ShloMosaic.TcCoe Idealize.ShloMosaic.StableHlo Idealize.SL.Sem Idealize.ShloMosaic.ValueIdx
open Cert.KernelIdeal Cert.KernelIdeal.Gen

variable (m : (ℓ : Loc nD τ sig) → Buf (Elt Ideal) ℓ) (ρ : Dev nD → PrngReg)

/-- Two 128-column arrays side by side. -/
def cat256 (a b : FVec Ideal S400000x128 .f32) : FVec Ideal S400000x256 .f32 :=
  concatenate S400000x256 1 [⟨S400000x128, a⟩, ⟨S400000x128, b⟩] concatenates_S400000x128_S400000x128_S400000x256_d1
theorem cat256_eq (a b : FVec Ideal S400000x128 .f32) :
    concatenate S400000x256 1 [⟨S400000x128, a⟩, ⟨S400000x128, b⟩] concatenates_S400000x128_S400000x128_S400000x256_d1 = cat256 a b := rfl
/-- Two 256-column arrays side by side. -/
def cat512 (a b : FVec Ideal S400000x256 .f32) : FVec Ideal S400000x512 .f32 :=
  concatenate S400000x512 1 [⟨S400000x256, a⟩, ⟨S400000x256, b⟩] concatenates_S400000x256_S400000x256_S400000x512_d1
theorem cat512_eq (a b : FVec Ideal S400000x256 .f32) :
    concatenate S400000x512 1 [⟨S400000x256, a⟩, ⟨S400000x256, b⟩] concatenates_S400000x256_S400000x256_S400000x512_d1 = cat512 a b := rfl

/-- The first input array holds the edge features. -/
theorem v30 (c : Dev nD) : V1 m ρ c main_v30 = edgeFeatures (m ((c : Thread nD τ).loc main_arg0)) (m ((c : Thread nD τ).loc main_arg1)) := by
  show StableHlo.after hostOps0 (W0 m ρ c) (Proc.devRef .tc main_v30) = _
  after_results_simp; simp only [cat512_eq]; after_results_simp; simp only [cat256_eq]; after_results_simp
  simp only [edgeFeatures, edgeStep256, edgeStep128, endpoints, wrapped, cat256_eq, cat512_eq]
  rfl

/-- The fourth input array is the bias as one row. -/
theorem v31 (c : Dev nD) : Cert.Spec.rowVec (V1 m ρ c main_v31) = Cert.Spec.toVec (m ((c : Thread nD τ).loc main_arg3)) := by
  have h : V1 m ρ c main_v31 = shapeCast S1x128 (m ((c : Thread nD τ).loc main_arg3)) shapeCasts_S128_S1x128 := by
    show StableHlo.after hostOps0 (W0 m ρ c) (Proc.devRef .tc main_v31) = _
    after_results_simp
    rfl
  funext k
  show V1 m ρ c main_v31 (ix2 0 k) = _
  rw [h]
  exact shapeCast_a_1a_apply _ _ 0 k

/-- The fifth input array is `1 + eps` along one row. -/
theorem v34 (c : Dev nD) : Cert.Spec.rowVec (V1 m ρ c main_v34) = fun _ => Cert.Spec.oneLit + (m ((c : Thread nD τ).loc main_arg4)) ix0 := by
  have h : V1 m ρ c main_v34 = (broadcastInDim S1x128 ![0, 1] bcast_S1x1_S1x128_0_1
      (shapeCast S1x1 (addf (constant S_ .f32 0x3F800000#32) (m ((c : Thread nD τ).loc main_arg4) : FVec Ideal S_ .f32))
        shapeCasts_S_S1x1) : FVec Ideal S1x128 .f32) := by
    show StableHlo.after hostOps0 (W0 m ρ c) (Proc.devRef .tc main_v34) = _
    after_results_simp
    rfl
  funext k
  show V1 m ρ c main_v34 (ix2 0 k) = _
  rw [h]
  refine (broadcastInDim_apply _ _ _ (ix2 0 k) (ix2 0 0) ?_).trans ?_
  · intro a
    match a with
    | ⟨0, _⟩ => rfl
    | ⟨1, _⟩ => rfl
  · refine (shapeCast_apply _ _ _ ix0 ?_).trans rfl
    rfl

/-- The edge representation, the first weight matrix and the second are as launched. -/
theorem arg0 (c : Dev nD) : V1 m ρ c main_arg0 = (m ((c : Thread nD τ).loc main_arg0)) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem arg2 (c : Dev nD) : V1 m ρ c main_arg2 = (m ((c : Thread nD τ).loc main_arg2)) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
theorem arg5 (c : Dev nD) : V1 m ρ c main_arg5 = (m ((c : Thread nD τ).loc main_arg5)) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

end Cert.KernelIdeal.Host0

end
-- ==== Proof.KerHost1.lean ====
/-
  The host operations between two launches, from ANY contents `X` of the buffers before them: from the 256 column sums and
  column sums of squares the launch before left, the column scale `γ · (q/n - (s/n)² + ε)^(-1/2)` and the column shift
  `β - (s/n) · scale`, each as one row; the product array and the next weight matrix are not touched.
-/
import proofs.«139709_j50869592655480_1_alg».proof.Proof.Gen.KernelIdeal.Frame
import proofs.«139709_j50869592655480_1_alg».proof.Proof.Shared
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Host1

open Idealize.ShloMosaic Idealize.ShloMosaic.TcCoe Idealize.ShloMosaic.StableHlo Idealize.SL.Sem Idealize.ShloMosaic.ValueIdx
open Cert.KernelIdeal Cert.KernelIdeal.Gen

variable (X : Valuation τ sig (Elt Ideal))

/-- The scale row. -/
theorem scale (k : Fin 256) :
    StableHlo.after hostOps1 X (Proc.devRef .tc main_v46) (ix2 0 k)
      = Cert.Spec.scaleOf (X (Proc.devRef .tc main_arg6) (ix1 k)) (X (Proc.devRef .tc main_v35_1) (ix2 0 k)) (X (Proc.devRef .tc main_v35_2) (ix2 0 k)) := by
  -- γ laid out as one row reads, at column k, γ at k
  have eγ := shapeCast_a_1a_apply (X (Proc.devRef .tc main_arg6)) shapeCasts_S256_S1x256 0 k
  simp only [hostOps1]
  after_results_simp
  -- every operation is pointwise and a literal row reads its literal: at column k the row is
  -- γ · rsqrt (q/n - (s/n) · (s/n) + ε)
  show (shapeCast S1x256 (X (Proc.devRef .tc main_arg6)) shapeCasts_S256_S1x256 (ix2 0 k) : EReal)
      * Ideal.rsqrt ((Ideal.div (X (Proc.devRef .tc main_v35_2) (ix2 0 k)) Cert.Spec.nLit
          - Ideal.div (X (Proc.devRef .tc main_v35_1) (ix2 0 k)) Cert.Spec.nLit
            * Ideal.div (X (Proc.devRef .tc main_v35_1) (ix2 0 k)) Cert.Spec.nLit)
          + Cert.Spec.epsLit) = _
  rw [eγ]
  rfl

/-- The shift row. -/
theorem shift (k : Fin 256) :
    StableHlo.after hostOps1 X (Proc.devRef .tc main_v49) (ix2 0 k)
      = Cert.Spec.shiftOf (X (Proc.devRef .tc main_arg6) (ix1 k)) (X (Proc.devRef .tc main_arg7) (ix1 k)) (X (Proc.devRef .tc main_v35_1) (ix2 0 k))
          (X (Proc.devRef .tc main_v35_2) (ix2 0 k)) := by
  -- γ and β laid out as one row read, at column k, their entries at k
  have eγ := shapeCast_a_1a_apply (X (Proc.devRef .tc main_arg6)) shapeCasts_S256_S1x256 0 k
  have eβ := shapeCast_a_1a_apply (X (Proc.devRef .tc main_arg7)) shapeCasts_S256_S1x256 0 k
  simp only [hostOps1]
  after_results_simp
  -- at column k the row is β - (s/n) · (γ · rsqrt (q/n - (s/n) · (s/n) + ε))
  show (shapeCast S1x256 (X (Proc.devRef .tc main_arg7)) shapeCasts_S256_S1x256 (ix2 0 k) : EReal)
      - Ideal.div (X (Proc.devRef .tc main_v35_1) (ix2 0 k)) Cert.Spec.nLit
        * ((shapeCast S1x256 (X (Proc.devRef .tc main_arg6)) shapeCasts_S256_S1x256 (ix2 0 k) : EReal)
          * Ideal.rsqrt ((Ideal.div (X (Proc.devRef .tc main_v35_2) (ix2 0 k)) Cert.Spec.nLit
              - Ideal.div (X (Proc.devRef .tc main_v35_1) (ix2 0 k)) Cert.Spec.nLit
                * Ideal.div (X (Proc.devRef .tc main_v35_1) (ix2 0 k)) Cert.Spec.nLit)
              + Cert.Spec.epsLit)) = _
  rw [eγ, eβ]
  rfl

/-- The product array passes through. -/
theorem keep_pre : StableHlo.after hostOps1 X (Proc.devRef .tc main_v35_0) = X (Proc.devRef .tc main_v35_0) := by
  -- no operation of the stretch writes this buffer
  refine StableHlo.after_of_forall_not_mem (b := Proc.devRef .tc main_v35_0) _ _ (List.forall_iff_forall_mem.mp ?_)
  simp only [hostOps1, List.Forall, StableHlo.nullary_writes, StableHlo.unary_writes, StableHlo.binary_writes,
    StableHlo.reshape_writes, Finset.mem_singleton]
  repeat' apply And.intro
  all_goals exact StableHlo.devRef_ne_of_ne (by decide)

/-- The next weight matrix passes through. -/
theorem keep_w : StableHlo.after hostOps1 X (Proc.devRef .tc main_arg8) = X (Proc.devRef .tc main_arg8) := by
  -- no operation of the stretch writes this buffer
  refine StableHlo.after_of_forall_not_mem (b := Proc.devRef .tc main_arg8) _ _ (List.forall_iff_forall_mem.mp ?_)
  simp only [hostOps1, List.Forall, StableHlo.nullary_writes, StableHlo.unary_writes, StableHlo.binary_writes,
    StableHlo.reshape_writes, Finset.mem_singleton]
  repeat' apply And.intro
  all_goals exact StableHlo.devRef_ne_of_ne (by decide)

end Cert.KernelIdeal.Host1

end
-- ==== Proof.KerHost2.lean ====
/-
  The host operations between two launches, from ANY contents `X` of the buffers before them: from the 128 column sums and
  column sums of squares the launch before left, the column scale `γ · (q/n - (s/n)² + ε)^(-1/2)` and the column shift
  `β - (s/n) · scale`, each as one row; the product array and the next weight matrix are not touched.
-/
import proofs.«139709_j50869592655480_1_alg».proof.Proof.Gen.KernelIdeal.Frame
import proofs.«139709_j50869592655480_1_alg».proof.Proof.Shared
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Host2

open Idealize.ShloMosaic Idealize.ShloMosaic.TcCoe Idealize.ShloMosaic.StableHlo Idealize.SL.Sem Idealize.ShloMosaic.ValueIdx
open Cert.KernelIdeal Cert.KernelIdeal.Gen

variable (X : Valuation τ sig (Elt Ideal))

/-- The scale row. -/
theorem scale (k : Fin 128) :
    StableHlo.after hostOps2 X (Proc.devRef .tc main_v61) (ix2 0 k)
      = Cert.Spec.scaleOf (X (Proc.devRef .tc main_arg9) (ix1 k)) (X (Proc.devRef .tc main_v50_1) (ix2 0 k)) (X (Proc.devRef .tc main_v50_2) (ix2 0 k)) := by
  -- γ laid out as one row reads, at column k, γ at k
  have eγ := shapeCast_a_1a_apply (X (Proc.devRef .tc main_arg9)) shapeCasts_S128_S1x128 0 k
  simp only [hostOps2]
  after_results_simp
  -- every operation is pointwise and a literal row reads its literal: at column k the row is
  -- γ · rsqrt (q/n - (s/n) · (s/n) + ε)
  show (shapeCast S1x128 (X (Proc.devRef .tc main_arg9)) shapeCasts_S128_S1x128 (ix2 0 k) : EReal)
      * Ideal.rsqrt ((Ideal.div (X (Proc.devRef .tc main_v50_2) (ix2 0 k)) Cert.Spec.nLit
          - Ideal.div (X (Proc.devRef .tc main_v50_1) (ix2 0 k)) Cert.Spec.nLit
            * Ideal.div (X (Proc.devRef .tc main_v50_1) (ix2 0 k)) Cert.Spec.nLit)
          + Cert.Spec.epsLit) = _
  rw [eγ]
  rfl

/-- The shift row. -/
theorem shift (k : Fin 128) :
    StableHlo.after hostOps2 X (Proc.devRef .tc main_v64) (ix2 0 k)
      = Cert.Spec.shiftOf (X (Proc.devRef .tc main_arg9) (ix1 k)) (X (Proc.devRef .tc main_arg10) (ix1 k)) (X (Proc.devRef .tc main_v50_1) (ix2 0 k))
          (X (Proc.devRef .tc main_v50_2) (ix2 0 k)) := by
  -- γ and β laid out as one row read, at column k, their entries at k
  have eγ := shapeCast_a_1a_apply (X (Proc.devRef .tc main_arg9)) shapeCasts_S128_S1x128 0 k
  have eβ := shapeCast_a_1a_apply (X (Proc.devRef .tc main_arg10)) shapeCasts_S128_S1x128 0 k
  simp only [hostOps2]
  after_results_simp
  -- at column k the row is β - (s/n) · (γ · rsqrt (q/n - (s/n) · (s/n) + ε))
  show (shapeCast S1x128 (X (Proc.devRef .tc main_arg10)) shapeCasts_S128_S1x128 (ix2 0 k) : EReal)
      - Ideal.div (X (Proc.devRef .tc main_v50_1) (ix2 0 k)) Cert.Spec.nLit
        * ((shapeCast S1x128 (X (Proc.devRef .tc main_arg9)) shapeCasts_S128_S1x128 (ix2 0 k) : EReal)
          * Ideal.rsqrt ((Ideal.div (X (Proc.devRef .tc main_v50_2) (ix2 0 k)) Cert.Spec.nLit
              - Ideal.div (X (Proc.devRef .tc main_v50_1) (ix2 0 k)) Cert.Spec.nLit
                * Ideal.div (X (Proc.devRef .tc main_v50_1) (ix2 0 k)) Cert.Spec.nLit)
              + Cert.Spec.epsLit)) = _
  rw [eγ, eβ]
  rfl

/-- The product array passes through. -/
theorem keep_pre : StableHlo.after hostOps2 X (Proc.devRef .tc main_v50_0) = X (Proc.devRef .tc main_v50_0) := by
  -- no operation of the stretch writes this buffer
  refine StableHlo.after_of_forall_not_mem (b := Proc.devRef .tc main_v50_0) _ _ (List.forall_iff_forall_mem.mp ?_)
  simp only [hostOps2, List.Forall, StableHlo.nullary_writes, StableHlo.unary_writes, StableHlo.binary_writes,
    StableHlo.reshape_writes, Finset.mem_singleton]
  repeat' apply And.intro
  all_goals exact StableHlo.devRef_ne_of_ne (by decide)

end Cert.KernelIdeal.Host2

end
-- ==== Proof.KerValue.lean ====
/-
  The idealized kernel's result array after its run is the common result of the launch memory's argument arrays.
  The last launch's output is the clipped affine image of the second launch's product under the second scale and shift;
  the host operations between the launches compute each scale and shift from the column sums and sums of squares the
  launch before them left; the first launch's inputs are the edge features and four arguments, the bias reshaped to a
  row and `1 + eps` broadcast to a row. No finiteness is needed: every step is an identity of extended reals.
-/
import proofs.«139709_j50869592655480_1_alg».proof.Proof.KerRegion0
import proofs.«139709_j50869592655480_1_alg».proof.Proof.KerRegion1
import proofs.«139709_j50869592655480_1_alg».proof.Proof.KerRegion2
import proofs.«139709_j50869592655480_1_alg».proof.Proof.KerHost0
import proofs.«139709_j50869592655480_1_alg».proof.Proof.KerHost1
import proofs.«139709_j50869592655480_1_alg».proof.Proof.KerHost2
import proofs.«139709_j50869592655480_1_alg».proof.Proof.Shared
import Idealize.ShloMosaic.Lib.StableHlo.Run

noncomputable section

open scoped BigOperators

namespace Cert.KernelIdeal.Value

open Idealize.ShloMosaic Idealize.ShloMosaic.TcCoe Idealize.SL.Sem Idealize.ShloMosaic.ValueIdx Cert.KernelIdeal Cert.KernelIdeal.Gen

/-! ## The arguments the later stretches read are as launched

No host operation writes an argument array, and a launch leaves every array that is none of its own as it found it. -/

theorem keep0_arg6 (X : Valuation τ sig (Elt Ideal)) :
    StableHlo.after hostOps0 X (Proc.devRef .tc main_arg6) = X (Proc.devRef .tc main_arg6) := by
  after_results_simp
theorem keep0_arg7 (X : Valuation τ sig (Elt Ideal)) :
    StableHlo.after hostOps0 X (Proc.devRef .tc main_arg7) = X (Proc.devRef .tc main_arg7) := by
  after_results_simp
theorem keep0_arg8 (X : Valuation τ sig (Elt Ideal)) :
    StableHlo.after hostOps0 X (Proc.devRef .tc main_arg8) = X (Proc.devRef .tc main_arg8) := by
  after_results_simp
theorem keep0_arg9 (X : Valuation τ sig (Elt Ideal)) :
    StableHlo.after hostOps0 X (Proc.devRef .tc main_arg9) = X (Proc.devRef .tc main_arg9) := by
  after_results_simp
theorem keep0_arg10 (X : Valuation τ sig (Elt Ideal)) :
    StableHlo.after hostOps0 X (Proc.devRef .tc main_arg10) = X (Proc.devRef .tc main_arg10) := by
  after_results_simp
theorem keep1_arg9 (X : Valuation τ sig (Elt Ideal)) :
    StableHlo.after hostOps1 X (Proc.devRef .tc main_arg9) = X (Proc.devRef .tc main_arg9) := by
  after_results_simp
theorem keep1_arg10 (X : Valuation τ sig (Elt Ideal)) :
    StableHlo.after hostOps1 X (Proc.devRef .tc main_arg10) = X (Proc.devRef .tc main_arg10) := by
  after_results_simp

section Run

variable (m : (ℓ : Loc nD τ sig) → Buf (Elt Ideal) ℓ) (ρ : Dev nD → PrngReg)

theorem W2_arg6 (c : Dev nD) : W2 m ρ c (Proc.devRef .tc main_arg6) = m ((c : Thread nD τ).loc main_arg6) :=
  (W2_of_ne m ρ c main_arg6 (by decide)).trans (keep0_arg6 (W0 m ρ c))
theorem W2_arg7 (c : Dev nD) : W2 m ρ c (Proc.devRef .tc main_arg7) = m ((c : Thread nD τ).loc main_arg7) :=
  (W2_of_ne m ρ c main_arg7 (by decide)).trans (keep0_arg7 (W0 m ρ c))
theorem W2_arg8 (c : Dev nD) : W2 m ρ c (Proc.devRef .tc main_arg8) = m ((c : Thread nD τ).loc main_arg8) :=
  (W2_of_ne m ρ c main_arg8 (by decide)).trans (keep0_arg8 (W0 m ρ c))
theorem W2_arg9 (c : Dev nD) : W2 m ρ c (Proc.devRef .tc main_arg9) = m ((c : Thread nD τ).loc main_arg9) :=
  (W2_of_ne m ρ c main_arg9 (by decide)).trans (keep0_arg9 (W0 m ρ c))
theorem W2_arg10 (c : Dev nD) : W2 m ρ c (Proc.devRef .tc main_arg10) = m ((c : Thread nD τ).loc main_arg10) :=
  (W2_of_ne m ρ c main_arg10 (by decide)).trans (keep0_arg10 (W0 m ρ c))
theorem W4_arg9 (c : Dev nD) : W4 m ρ c (Proc.devRef .tc main_arg9) = m ((c : Thread nD τ).loc main_arg9) :=
  (W4_of_ne m ρ c main_arg9 (by decide)).trans ((keep1_arg9 (W2 m ρ c)).trans (W2_arg9 m ρ c))
theorem W4_arg10 (c : Dev nD) : W4 m ρ c (Proc.devRef .tc main_arg10) = m ((c : Thread nD τ).loc main_arg10) :=
  (W4_of_ne m ρ c main_arg10 (by decide)).trans ((keep1_arg10 (W2 m ρ c)).trans (W2_arg10 m ρ c))

/-! ## The launches' output arrays at the boundaries after them -/

/-- After the first launch: the first product, its column sums and its column sums of squares. -/
theorem W2_pre (c : Dev nD) : W2 m ρ c (Proc.devRef .tc main_v35_0) = Spec.ofMat (Region0.pre (V1 m ρ) c) :=
  (W2_arr m ρ c 6).trans (Region0.arr_pre (V1 m ρ) c)
theorem W2_sum (c : Dev nD) : W2 m ρ c (Proc.devRef .tc main_v35_1) = Spec.ofRow (Spec.colSum (Region0.pre (V1 m ρ) c)) :=
  (W2_arr m ρ c 7).trans (Region0.arr_sum (V1 m ρ) c)
theorem W2_sumsq (c : Dev nD) : W2 m ρ c (Proc.devRef .tc main_v35_2) = Spec.ofRow (Spec.colSumSq (Region0.pre (V1 m ρ) c)) :=
  (W2_arr m ρ c 8).trans (Region0.arr_sumsq (V1 m ρ) c)

/-- After the second launch: the second product, its column sums and its column sums of squares. -/
theorem W4_pre (c : Dev nD) : W4 m ρ c (Proc.devRef .tc main_v50_0) = Spec.ofMat (Region1.pre (V3 m ρ) c) :=
  (W4_arr m ρ c 4).trans (Region1.arr_pre (V3 m ρ) c)
theorem W4_sum (c : Dev nD) : W4 m ρ c (Proc.devRef .tc main_v50_1) = Spec.ofRow (Spec.colSum (Region1.pre (V3 m ρ) c)) :=
  (W4_arr m ρ c 5).trans (Region1.arr_sum (V3 m ρ) c)
theorem W4_sumsq (c : Dev nD) : W4 m ρ c (Proc.devRef .tc main_v50_2) = Spec.ofRow (Spec.colSumSq (Region1.pre (V3 m ρ) c)) :=
  (W4_arr m ρ c 6).trans (Region1.arr_sumsq (V3 m ρ) c)

/-- After the third launch: the clipped affine image of the second product. -/
theorem W6_res (c : Dev nD) : W6 m ρ c (Proc.devRef .tc main_v65) = Spec.ofMat (Region2.res (V5 m ρ) c) :=
  (W6_arr m ρ c 3).trans (Region2.arr_res (V5 m ρ) c)

/-! ## The first launch computes the first pre-activation of the launch memory's arguments -/

theorem pre0_eq (c : Dev nD) :
    Region0.pre (V1 m ρ) c
      = Spec.pre1 (Spec.toMat (edgeFeatures (m ((c : Thread nD τ).loc main_arg0)) (m ((c : Thread nD τ).loc main_arg1))))
          (Spec.toMat (m ((c : Thread nD τ).loc main_arg0))) (Spec.toMat (m ((c : Thread nD τ).loc main_arg2)))
          (Spec.toVec (m ((c : Thread nD τ).loc main_arg3))) (m ((c : Thread nD τ).loc main_arg4) ix0)
          (Spec.toMat (m ((c : Thread nD τ).loc main_arg5))) := by
  unfold Region0.pre Spec.pre1
  rw [Host0.v30, Host0.arg2, Host0.v31, Host0.v34, Host0.arg0, Host0.arg5]

/-! ## The second launch's inputs: the first product, and its column scale and shift from its own sums -/

theorem V3_pre (c : Dev nD) : V3 m ρ c main_v35_0 = Spec.ofMat (Region0.pre (V1 m ρ) c) :=
  (Host1.keep_pre (W2 m ρ c)).trans (W2_pre m ρ c)
theorem V3_w (c : Dev nD) : V3 m ρ c main_arg8 = m ((c : Thread nD τ).loc main_arg8) :=
  (Host1.keep_w (W2 m ρ c)).trans (W2_arg8 m ρ c)
theorem V3_scale (c : Dev nD) (k : Fin 256) :
    V3 m ρ c main_v46 (ix2 0 k)
      = Spec.scaleOf (m ((c : Thread nD τ).loc main_arg6) (ix1 k)) (Spec.colSum (Region0.pre (V1 m ρ) c) k)
          (Spec.colSumSq (Region0.pre (V1 m ρ) c) k) := by
  refine (Host1.scale (W2 m ρ c) k).trans ?_
  rw [W2_arg6, W2_sum, W2_sumsq]
  rfl
theorem V3_shift (c : Dev nD) (k : Fin 256) :
    V3 m ρ c main_v49 (ix2 0 k)
      = Spec.shiftOf (m ((c : Thread nD τ).loc main_arg6) (ix1 k)) (m ((c : Thread nD τ).loc main_arg7) (ix1 k))
          (Spec.colSum (Region0.pre (V1 m ρ) c) k) (Spec.colSumSq (Region0.pre (V1 m ρ) c) k) := by
  refine (Host1.shift (W2 m ρ c) k).trans ?_
  rw [W2_arg6, W2_arg7, W2_sum, W2_sumsq]
  rfl

/-- The second launch's hidden layer is the first product normalised by its own column statistics and clipped. -/
theorem hid1_eq (c : Dev nD) :
    Region1.hid (V3 m ρ) c
      = Spec.bnRelu (Region0.pre (V1 m ρ) c) (Spec.toVec (m ((c : Thread nD τ).loc main_arg6)))
          (Spec.toVec (m ((c : Thread nD τ).loc main_arg7))) := by
  funext r k
  unfold Region1.hid Spec.bnRelu
  rw [V3_pre, V3_scale, V3_shift]
  rfl

theorem pre1_eq (c : Dev nD) :
    Region1.pre (V3 m ρ) c
      = Spec.mm (Spec.bnRelu (Region0.pre (V1 m ρ) c) (Spec.toVec (m ((c : Thread nD τ).loc main_arg6)))
          (Spec.toVec (m ((c : Thread nD τ).loc main_arg7)))) (Spec.toMat (m ((c : Thread nD τ).loc main_arg8))) := by
  unfold Region1.pre
  rw [hid1_eq, V3_w]

/-! ## The third launch's inputs: the second product, and its column scale and shift from its own sums -/

theorem V5_pre (c : Dev nD) : V5 m ρ c main_v50_0 = Spec.ofMat (Region1.pre (V3 m ρ) c) :=
  (Host2.keep_pre (W4 m ρ c)).trans (W4_pre m ρ c)
theorem V5_scale (c : Dev nD) (k : Fin 128) :
    V5 m ρ c main_v61 (ix2 0 k)
      = Spec.scaleOf (m ((c : Thread nD τ).loc main_arg9) (ix1 k)) (Spec.colSum (Region1.pre (V3 m ρ) c) k)
          (Spec.colSumSq (Region1.pre (V3 m ρ) c) k) := by
  refine (Host2.scale (W4 m ρ c) k).trans ?_
  rw [W4_arg9, W4_sum, W4_sumsq]
  rfl
theorem V5_shift (c : Dev nD) (k : Fin 128) :
    V5 m ρ c main_v64 (ix2 0 k)
      = Spec.shiftOf (m ((c : Thread nD τ).loc main_arg9) (ix1 k)) (m ((c : Thread nD τ).loc main_arg10) (ix1 k))
          (Spec.colSum (Region1.pre (V3 m ρ) c) k) (Spec.colSumSq (Region1.pre (V3 m ρ) c) k) := by
  refine (Host2.shift (W4 m ρ c) k).trans ?_
  rw [W4_arg9, W4_arg10, W4_sum, W4_sumsq]
  rfl

/-- The third launch's result is the second product normalised by its own column statistics and clipped. -/
theorem res2_eq (c : Dev nD) :
    Region2.res (V5 m ρ) c
      = Spec.bnRelu (Region1.pre (V3 m ρ) c) (Spec.toVec (m ((c : Thread nD τ).loc main_arg9)))
          (Spec.toVec (m ((c : Thread nD τ).loc main_arg10))) := by
  funext r j
  unfold Region2.res Spec.bnRelu
  rw [V5_pre, V5_scale, V5_shift]
  rfl

end Run

/-! ## The result

The third launch's output is the second product normalised and clipped; the second product is the product with `W2` of
the first product normalised and clipped; the first product is the first pre-activation of the arguments and their edge
features. Laid out as an array this is the common result by its definition. -/

/-- The last boundary's contents at the result array: the common result of the launch memory's arguments. -/
theorem W6_out (m : (ℓ : Loc nD τ sig) → Buf (Elt Ideal) ℓ) (ρ : Dev nD → PrngReg) (c : Dev nD) :
    W6 m ρ c (Proc.devRef .tc main_v65) = Cert.Shared.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [W6_res, res2_eq, pre1_eq, pre0_eq]
  rfl

end Cert.KernelIdeal.Value

end
-- ==== Proof.RefTerm.lean ====
/-
  What the reference computes, as one function of its eleven arguments, stage by stage in its own operations: the edge
  features; the linear layer with bias, the residual `(1 + eps) · x` and the product with `W1`; a batch normalisation in
  the form `(a - mean) · (var + ε)^(-1/2) · γ + β` with the variance the mean of squared deviations, clipped at zero; the
  product with `W2`; and the same normalisation and clip once more.
-/
import proofs.«139709_j50869592655480_1_alg».proof.Proof.Shared

noncomputable section

namespace Cert.ReferenceIdeal.Hand

open Idealize.ShloMosaic Cert.ReferenceIdeal Facts₀

/-- The first pre-activation: `((h · Wl + b) + (1 + eps) · x) · W1` over the edge features `h`. -/
def pre1 (x : FVec Ideal S400000x128 .f32) (e : IVec S200000x2 32) (Wl : FVec Ideal S512x128 .f32) (b : FVec Ideal S128 .f32)
    (eps : FVec Ideal S_ .f32) (W1 : FVec Ideal S128x256 .f32) : FVec Ideal S400000x256 .f32 :=
  Host.dotGeneral dot_S400000x128_S128x256_S400000x256_1_0_0_1_n_n none
    (addf
      (addf (Host.dotGeneral dot_S400000x512_S512x128_S400000x128_1_0_0_1_n_n none (edgeFeatures x e) Wl)
        (broadcastInDim S400000x128 ![0, 1] bcast_S1x128_S400000x128_0_1 (broadcastInDim S1x128 ![1] bcast_S128_S1x128_1 b)))
      (mulf (broadcastInDim S400000x128 ![] bcast_S_S400000x128 (addf (constant S_ .f32 0x3F800000#32) eps)) x))
    W1

/-- The column means of an array of 256 columns: the column sums divided by the row count. -/
def mean256 (a : FVec Ideal S400000x256 .f32) : FVec Ideal S256 .f32 :=
  Host.divf (Host.reduceAdd a (constant S_ .f32 0x00000000#32) reducesTo_S400000x256_S256_d0 h_S_)
    (broadcastInDim S256 ![] bcast_S_S256 (constant S_ .f32 0x48C35000#32))

/-- The row count less the degrees-of-freedom correction, which is the integer zero converted. -/
def dof256 : FVec Ideal S_ .f32 := subf (constant S_ .f32 0x48C35000#32) (sitofp .f32 (constantI S_ 32 0#32))

/-- The column variances of an array of 256 columns as the library function computes them: the mean of the squared
    deviations from the column mean, kept where the corrected row count is positive and replaced by a NaN word where not. -/
def var256 (a : FVec Ideal S400000x256 .f32) : FVec Ideal S256 .f32 :=
  let d : FVec Ideal S400000x256 .f32 := subf a (broadcastInDim S400000x256 ![0, 1] bcast_S1x256_S400000x256_0_1
    (Host.divf (broadcastInDim S1x256 ![1] bcast_S256_S1x256_1 (Host.reduceAdd a (constant S_ .f32 0x00000000#32) reducesTo_S400000x256_S256_d0 h_S_))
      (broadcastInDim S1x256 ![] bcast_S_S1x256 (constant S_ .f32 0x48C35000#32))))
  select (broadcastInDim S256 ![] bcast_S_S256 (cmpf .ogt dof256 (constant S_ .f32 0x00000000#32)))
    (Host.divf (Host.reduceAdd (mulf d d) (constant S_ .f32 0x00000000#32) reducesTo_S400000x256_S256_d0 h_S_)
      (broadcastInDim S256 ![] bcast_S_S256 dof256))
    (broadcastInDim S256 ![] bcast_S_S256 (id (constant S_ .f32 0x7FC00000#32)))

/-- The batch normalisation of an array of 256 columns in the reference's form, then the clip at zero:
    `max ((a - mean) · (var + ε)^(-1/2) · γ + β) 0`, the four column vectors broadcast along the rows. -/
def bnRelu256 (a : FVec Ideal S400000x256 .f32) (g be : FVec Ideal S256 .f32) : FVec Ideal S400000x256 .f32 :=
  let up (v : FVec Ideal S256 .f32) : FVec Ideal S400000x256 .f32 :=
    broadcastInDim S400000x256 ![0, 1] bcast_S1x256_S400000x256_0_1 (broadcastInDim S1x256 ![1] bcast_S256_S1x256_1 v)
  maximumf
    (addf (mulf (mulf (subf a (up (mean256 a)))
        (up (Host.rsqrt (addf (var256 a) (broadcastInDim S256 ![] bcast_S_S256 (constant S_ .f32 0x3727C5AC#32))))))
        (up g)) (up be))
    (broadcastInDim S400000x256 ![] bcast_S_S400000x256 (constant S_ .f32 0x00000000#32))

/-- The column means of an array of 128 columns: the column sums divided by the row count. -/
def mean128 (a : FVec Ideal S400000x128 .f32) : FVec Ideal S128 .f32 :=
  Host.divf (Host.reduceAdd a (constant S_ .f32 0x00000000#32) reducesTo_S400000x128_S128_d0 h_S_)
    (broadcastInDim S128 ![] bcast_S_S128 (constant S_ .f32 0x48C35000#32))

/-- The row count less the degrees-of-freedom correction, which is the integer zero converted. -/
def dof128 : FVec Ideal S_ .f32 := subf (constant S_ .f32 0x48C35000#32) (sitofp .f32 (constantI S_ 32 0#32))

/-- The column variances of an array of 128 columns as the library function computes them: the mean of the squared
    deviations from the column mean, kept where the corrected row count is positive and replaced by a NaN word where not. -/
def var128 (a : FVec Ideal S400000x128 .f32) : FVec Ideal S128 .f32 :=
  let d : FVec Ideal S400000x128 .f32 := subf a (broadcastInDim S400000x128 ![0, 1] bcast_S1x128_S400000x128_0_1
    (Host.divf (broadcastInDim S1x128 ![1] bcast_S128_S1x128_1 (Host.reduceAdd a (constant S_ .f32 0x00000000#32) reducesTo_S400000x128_S128_d0 h_S_))
      (broadcastInDim S1x128 ![] bcast_S_S1x128 (constant S_ .f32 0x48C35000#32))))
  select (broadcastInDim S128 ![] bcast_S_S128 (cmpf .ogt dof128 (constant S_ .f32 0x00000000#32)))
    (Host.divf (Host.reduceAdd (mulf d d) (constant S_ .f32 0x00000000#32) reducesTo_S400000x128_S128_d0 h_S_)
      (broadcastInDim S128 ![] bcast_S_S128 dof128))
    (broadcastInDim S128 ![] bcast_S_S128 (id (constant S_ .f32 0x7FC00000#32)))

/-- The batch normalisation of an array of 128 columns in the reference's form, then the clip at zero:
    `max ((a - mean) · (var + ε)^(-1/2) · γ + β) 0`, the four column vectors broadcast along the rows. -/
def bnRelu128 (a : FVec Ideal S400000x128 .f32) (g be : FVec Ideal S128 .f32) : FVec Ideal S400000x128 .f32 :=
  let up (v : FVec Ideal S128 .f32) : FVec Ideal S400000x128 .f32 :=
    broadcastInDim S400000x128 ![0, 1] bcast_S1x128_S400000x128_0_1 (broadcastInDim S1x128 ![1] bcast_S128_S1x128_1 v)
  maximumf
    (addf (mulf (mulf (subf a (up (mean128 a)))
        (up (Host.rsqrt (addf (var128 a) (broadcastInDim S128 ![] bcast_S_S128 (constant S_ .f32 0x3727C5AC#32))))))
        (up g)) (up be))
    (broadcastInDim S400000x128 ![] bcast_S_S400000x128 (constant S_ .f32 0x00000000#32))

/-- The reference's result. -/
def out (x : FVec Ideal S400000x128 .f32) (e : IVec S200000x2 32) (Wl : FVec Ideal S512x128 .f32) (b : FVec Ideal S128 .f32)
    (eps : FVec Ideal S_ .f32) (W1 : FVec Ideal S128x256 .f32) (g1 be1 : FVec Ideal S256 .f32) (W2 : FVec Ideal S256x128 .f32)
    (g2 be2 : FVec Ideal S128 .f32) : FVec Ideal S400000x128 .f32 :=
  bnRelu128 (Host.dotGeneral dot_S400000x256_S256x128_S400000x128_1_0_0_1_n_n none (bnRelu256 (pre1 x e Wl b eps W1) g1 be1) W2) g2 be2

end Cert.ReferenceIdeal.Hand

end
-- ==== Proof.RefCut.lean ====
/-
  The reference's function cut where its printed program is cut: the first part ends with the centred first
  pre-activation `a - mean` and the offset variance `var + ε`; the second part finishes the first normalisation from
  those two, multiplies by `W2` and normalises again.
-/
import proofs.«139709_j50869592655480_1_alg».proof.Proof.RefTerm

noncomputable section

namespace Cert.ReferenceIdeal.Hand

open Idealize.ShloMosaic Cert.ReferenceIdeal Facts₀

/-- A vector of 256 columns repeated along the 400000 rows. -/
def up256 (v : FVec Ideal S256 .f32) : FVec Ideal S400000x256 .f32 :=
  broadcastInDim S400000x256 ![0, 1] bcast_S1x256_S400000x256_0_1 (broadcastInDim S1x256 ![1] bcast_S256_S1x256_1 v)

/-- The first part's first live result: the pre-activation less its column means. -/
def centred (a : FVec Ideal S400000x256 .f32) : FVec Ideal S400000x256 .f32 := subf a (up256 (mean256 a))

/-- The first part's second live result: the column variances plus the offset. -/
def offVar (a : FVec Ideal S400000x256 .f32) : FVec Ideal S256 .f32 :=
  addf (var256 a) (broadcastInDim S256 ![] bcast_S_S256 (constant S_ .f32 0x3727C5AC#32))

/-- The second part, from the two live results and five arguments. -/
def tail (d : FVec Ideal S400000x256 .f32) (v : FVec Ideal S256 .f32) (g1 be1 : FVec Ideal S256 .f32) (W2 : FVec Ideal S256x128 .f32)
    (g2 be2 : FVec Ideal S128 .f32) : FVec Ideal S400000x128 .f32 :=
  bnRelu128 (Host.dotGeneral dot_S400000x256_S256x128_S400000x128_1_0_0_1_n_n none
    (maximumf (addf (mulf (mulf d (up256 (Host.rsqrt v))) (up256 g1)) (up256 be1))
      (broadcastInDim S400000x256 ![] bcast_S_S400000x256 (constant S_ .f32 0x00000000#32))) W2) g2 be2

/-- The whole is the second part after the first. -/
theorem out_cut (x : FVec Ideal S400000x128 .f32) (e : IVec S200000x2 32) (Wl : FVec Ideal S512x128 .f32) (b : FVec Ideal S128 .f32)
    (eps : FVec Ideal S_ .f32) (W1 : FVec Ideal S128x256 .f32) (g1 be1 : FVec Ideal S256 .f32) (W2 : FVec Ideal S256x128 .f32)
    (g2 be2 : FVec Ideal S128 .f32) :
    out x e Wl b eps W1 g1 be1 W2 g2 be2
      = tail (centred (pre1 x e Wl b eps W1)) (offVar (pre1 x e Wl b eps W1)) g1 be1 W2 g2 be2 := rfl

end Cert.ReferenceIdeal.Hand

end
-- ==== Proof.RefRun0.lean ====
/-
  The first part of the reference (its statements 1 to 60) as a straight line of host operations, the variance function
  and its guard inlined at their call over that call's own buffers, and what the line leaves, from ANY contents `X`, in
  the two buffers the second part reads: the centred first pre-activation and the offset variance. No operation of the
  line writes an argument.

  The line is read in two stretches. The first, forty-seven operations, ends at the first pre-activation: the endpoint
  words flattened; twice over, the node sums (a scatter-add into a zero table), the wrapped words, the sums read back
  (a gather), the partner rows (reshape, reversal, reshape) added and laid beside; then the linear layer with its bias,
  the residual and the product with the first weight. The second, thirty-four operations, computes from that array
  alone: its column means, the variance function's twenty-two steps (the guard's three among them), the centring and
  the offset.
-/
import proofs.«139709_j50869592655480_1_alg».proof.Proof.RefCut
import Idealize.ShloMosaic.Lib.StableHlo.Run

noncomputable section

namespace Cert.ReferenceIdeal.Hand

open Idealize.ShloMosaic Idealize.ShloMosaic.StableHlo Idealize.SL.Sem Cert.ReferenceIdeal Facts₀

variable {F : FTy → Type} [FloatOps F]

namespace P0

/-- The first stretch: the edge features and the first pre-activation. -/
abbrev opsA : List (HloOp τ sig (Elt F)) :=
  [ StableHlo.reshape main_arg1 main_v0 rfl shapeCasts_S200000x2_S400000,
    nullary main_cst (constant S_ .f32 0x00000000#32),
    unary main_cst main_v1 (broadcastInDim S50000x128 ![] bcast_S_S50000x128 : (⟨S_, .f32⟩ : BufTy).Contents (Elt F) → (⟨S50000x128, .f32⟩ : BufTy).Contents (Elt F)),
    unary main_v0 main_v2 (broadcastInDim S400000x1 ![0] bcast_S400000_S400000x1_0 : (⟨S400000, .i32⟩ : BufTy).Contents (Elt F) → (⟨S400000x1, .i32⟩ : BufTy).Contents (Elt F)),
    ternary main_v1 main_v2 main_arg0 main_v3 ((fun x i u => Host.scatterAdd scatter_S50000x128_S400000x1_S400000x128_1_0_0_1 x i u) : (⟨S50000x128, .f32⟩ : BufTy).Contents (Elt F) → (⟨S400000x1, .i32⟩ : BufTy).Contents (Elt F) → (⟨S400000x128, .f32⟩ : BufTy).Contents (Elt F) → (⟨S50000x128, .f32⟩ : BufTy).Contents (Elt F)),
    nullary main_c (constantI S_ 32 0#32),
    unary main_c main_v4 (broadcastInDim S400000 ![] bcast_S_S400000 : (⟨S_, .i32⟩ : BufTy).Contents (Elt F) → (⟨S400000, .i32⟩ : BufTy).Contents (Elt F)),
    binary main_v0 main_v4 main_v5 (cmpi .slt : (⟨S400000, .i32⟩ : BufTy).Contents (Elt F) → (⟨S400000, .i32⟩ : BufTy).Contents (Elt F) → (⟨S400000, .i1⟩ : BufTy).Contents (Elt F)),
    nullary main_c_0 (constantI S_ 32 50000#32),
    unary main_c_0 main_v6 (broadcastInDim S400000 ![] bcast_S_S400000 : (⟨S_, .i32⟩ : BufTy).Contents (Elt F) → (⟨S400000, .i32⟩ : BufTy).Contents (Elt F)),
    binary main_v0 main_v6 main_v7 (addi : (⟨S400000, .i32⟩ : BufTy).Contents (Elt F) → (⟨S400000, .i32⟩ : BufTy).Contents (Elt F) → (⟨S400000, .i32⟩ : BufTy).Contents (Elt F)),
    ternary main_v5 main_v7 main_v0 main_v8 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v8 main_v9 (broadcastInDim S400000x1 ![0] bcast_S400000_S400000x1_0 : (⟨S400000, .i32⟩ : BufTy).Contents (Elt F) → (⟨S400000x1, .i32⟩ : BufTy).Contents (Elt F)),
    binary main_v3 main_v9 main_v10 ((fun x i => Host.gather gather_S50000x128_S400000x1_S400000x128_1_0_n_n_0_1_1128 x i) : (⟨S50000x128, .f32⟩ : BufTy).Contents (Elt F) → (⟨S400000x1, .i32⟩ : BufTy).Contents (Elt F) → (⟨S400000x128, .f32⟩ : BufTy).Contents (Elt F)),
    StableHlo.reshape main_arg0 main_v11 rfl shapeCasts_S400000x128_S200000x2x128,
    unary main_v11 main_v12 (Host.reverse [1] : (⟨S200000x2x128, .f32⟩ : BufTy).Contents (Elt F) → (⟨S200000x2x128, .f32⟩ : BufTy).Contents (Elt F)),
    StableHlo.reshape main_v12 main_v13 rfl shapeCasts_S200000x2x128_S400000x128,
    binary main_v10 main_v13 main_v14 (addf : (⟨S400000x128, .f32⟩ : BufTy).Contents (Elt F) → (⟨S400000x128, .f32⟩ : BufTy).Contents (Elt F) → (⟨S400000x128, .f32⟩ : BufTy).Contents (Elt F)),
    binary main_v10 main_v14 main_v15 ((fun a b => concatenate S400000x256 1 [⟨S400000x128, a⟩, ⟨S400000x128, b⟩] concatenates_S400000x128_S400000x128_S400000x256_d1) : (⟨S400000x128, .f32⟩ : BufTy).Contents (Elt F) → (⟨S400000x128, .f32⟩ : BufTy).Contents (Elt F) → (⟨S400000x256, .f32⟩ : BufTy).Contents (Elt F)),
    nullary main_cst_1 (constant S_ .f32 0x00000000#32),
    unary main_cst_1 main_v16 (broadcastInDim S50000x256 ![] bcast_S_S50000x256 : (⟨S_, .f32⟩ : BufTy).Contents (Elt F) → (⟨S50000x256, .f32⟩ : BufTy).Contents (Elt F)),
    unary main_v0 main_v17 (broadcastInDim S400000x1 ![0] bcast_S400000_S400000x1_0 : (⟨S400000, .i32⟩ : BufTy).Contents (Elt F) → (⟨S400000x1, .i32⟩ : BufTy).Contents (Elt F)),
    ternary main_v16 main_v17 main_v15 main_v18 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    nullary main_c_2 (constantI S_ 32 0#32),
    unary main_c_2 main_v19 (broadcastInDim S400000 ![] bcast_S_S400000 : (⟨S_, .i32⟩ : BufTy).Contents (Elt F) → (⟨S400000, .i32⟩ : BufTy).Contents (Elt F)),
    binary main_v0 main_v19 main_v20 (cmpi .slt : (⟨S400000, .i32⟩ : BufTy).Contents (Elt F) → (⟨S400000, .i32⟩ : BufTy).Contents (Elt F) → (⟨S400000, .i1⟩ : BufTy).Contents (Elt F)),
    nullary main_c_3 (constantI S_ 32 50000#32),
    unary main_c_3 main_v21 (broadcastInDim S400000 ![] bcast_S_S400000 : (⟨S_, .i32⟩ : BufTy).Contents (Elt F) → (⟨S400000, .i32⟩ : BufTy).Contents (Elt F)),
    binary main_v0 main_v21 main_v22 (addi : (⟨S400000, .i32⟩ : BufTy).Contents (Elt F) → (⟨S400000, .i32⟩ : BufTy).Contents (Elt F) → (⟨S400000, .i32⟩ : BufTy).Contents (Elt F)),
    ternary main_v20 main_v22 main_v0 main_v23 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v23 main_v24 (broadcastInDim S400000x1 ![0] bcast_S400000_S400000x1_0 : (⟨S400000, .i32⟩ : BufTy).Contents (Elt F) → (⟨S400000x1, .i32⟩ : BufTy).Contents (Elt F)),
    binary main_v18 main_v24 main_v25 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    StableHlo.reshape main_v15 main_v26 rfl shapeCasts_S400000x256_S200000x2x256,
    unary main_v26 main_v27 (Host.reverse [1] : (⟨S200000x2x256, .f32⟩ : BufTy).Contents (Elt F) → (⟨S200000x2x256, .f32⟩ : BufTy).Contents (Elt F)),
    StableHlo.reshape main_v27 main_v28 rfl shapeCasts_S200000x2x256_S400000x256,
    binary main_v25 main_v28 main_v29 (addf : (⟨S400000x256, .f32⟩ : BufTy).Contents (Elt F) → (⟨S400000x256, .f32⟩ : BufTy).Contents (Elt F) → (⟨S400000x256, .f32⟩ : BufTy).Contents (Elt F)),
    binary main_v25 main_v29 main_v30 ((fun a b => concatenate S400000x512 1 [⟨S400000x256, a⟩, ⟨S400000x256, b⟩] concatenates_S400000x256_S400000x256_S400000x512_d1) : (⟨S400000x256, .f32⟩ : BufTy).Contents (Elt F) → (⟨S400000x256, .f32⟩ : BufTy).Contents (Elt F) → (⟨S400000x512, .f32⟩ : BufTy).Contents (Elt F)),
    binary main_v30 main_arg2 main_v31 ((fun l r => Host.dotGeneral dot_S400000x512_S512x128_S400000x128_1_0_0_1_n_n none l r) : (⟨S400000x512, .f32⟩ : BufTy).Contents (Elt F) → (⟨S512x128, .f32⟩ : BufTy).Contents (Elt F) → (⟨S400000x128, .f32⟩ : BufTy).Contents (Elt F)),
    unary main_arg3 main_v32 (broadcastInDim S1x128 ![1] bcast_S128_S1x128_1 : (⟨S128, .f32⟩ : BufTy).Contents (Elt F) → (⟨S1x128, .f32⟩ : BufTy).Contents (Elt F)),
    unary main_v32 main_v33 (broadcastInDim S400000x128 ![0, 1] bcast_S1x128_S400000x128_0_1 : (⟨S1x128, .f32⟩ : BufTy).Contents (Elt F) → (⟨S400000x128, .f32⟩ : BufTy).Contents (Elt F)),
    binary main_v31 main_v33 main_v34 (addf : (⟨S400000x128, .f32⟩ : BufTy).Contents (Elt F) → (⟨S400000x128, .f32⟩ : BufTy).Contents (Elt F) → (⟨S400000x128, .f32⟩ : BufTy).Contents (Elt F)),
    nullary main_cst_4 (constant S_ .f32 0x3F800000#32),
    binary main_cst_4 main_arg4 main_v35 (addf : (⟨S_, .f32⟩ : BufTy).Contents (Elt F) → (⟨S_, .f32⟩ : BufTy).Contents (Elt F) → (⟨S_, .f32⟩ : BufTy).Contents (Elt F)),
    unary main_v35 main_v36 (broadcastInDim S400000x128 ![] bcast_S_S400000x128 : (⟨S_, .f32⟩ : BufTy).Contents (Elt F) → (⟨S400000x128, .f32⟩ : BufTy).Contents (Elt F)),
    binary main_v36 main_arg0 main_v37 (mulf : (⟨S400000x128, .f32⟩ : BufTy).Contents (Elt F) → (⟨S400000x128, .f32⟩ : BufTy).Contents (Elt F) → (⟨S400000x128, .f32⟩ : BufTy).Contents (Elt F)),
    binary main_v34 main_v37 main_v38 (addf : (⟨S400000x128, .f32⟩ : BufTy).Contents (Elt F) → (⟨S400000x128, .f32⟩ : BufTy).Contents (Elt F) → (⟨S400000x128, .f32⟩ : BufTy).Contents (Elt F)),
    binary main_v38 main_arg5 main_v39 ((fun l r => Host.dotGeneral dot_S400000x128_S128x256_S400000x256_1_0_0_1_n_n none l r) : (⟨S400000x128, .f32⟩ : BufTy).Contents (Elt F) → (⟨S128x256, .f32⟩ : BufTy).Contents (Elt F) → (⟨S400000x256, .f32⟩ : BufTy).Contents (Elt F)) ]

/-- The second stretch: the column statistics of the first pre-activation, the centring and the offset. -/
abbrev opsB0 : List (HloOp τ sig (Elt F)) :=
  [ nullary main_cst_5 (constant S_ .f32 0x00000000#32),
    binary main_v39 main_cst_5 main_v40 ((fun x v => Host.reduceAdd x v reducesTo_S400000x256_S256_d0 h_S_) : (⟨S400000x256, .f32⟩ : BufTy).Contents (Elt F) → (⟨S_, .f32⟩ : BufTy).Contents (Elt F) → (⟨S256, .f32⟩ : BufTy).Contents (Elt F)),
    nullary main_cst_6 (constant S_ .f32 0x48C35000#32),
    unary main_cst_6 main_v41 (broadcastInDim S256 ![] bcast_S_S256 : (⟨S_, .f32⟩ : BufTy).Contents (Elt F) → (⟨S256, .f32⟩ : BufTy).Contents (Elt F)),
    binary main_v40 main_v41 main_v42 (Host.divf : (⟨S256, .f32⟩ : BufTy).Contents (Elt F) → (⟨S256, .f32⟩ : BufTy).Contents (Elt F) → (⟨S256, .f32⟩ : BufTy).Contents (Elt F)),
    nullary main_c_7 (constantI S_ 32 0#32),
    TRef.nullary main_call0.cst (constant S_ .f32 0x00000000#32),
    TRef.binary (TRef.of main_v39 : TRef sig ⟨S400000x256, .f32⟩) main_call0.cst main_call0.v0 (fun x v => Host.reduceAdd x v reducesTo_S400000x256_S256_d0 h_S_),
    TRef.unary main_call0.v0 main_call0.v1 (broadcastInDim S1x256 ![1] bcast_S256_S1x256_1),
    TRef.nullary main_call0.cst_0 (constant S_ .f32 0x48C35000#32),
    TRef.unary main_call0.cst_0 main_call0.v2 (broadcastInDim S1x256 ![] bcast_S_S1x256),
    TRef.binary main_call0.v1 main_call0.v2 main_call0.v3 Host.divf,
    TRef.unary main_call0.v3 main_call0.v4 (broadcastInDim S400000x256 ![0, 1] bcast_S1x256_S400000x256_0_1),
    TRef.binary (TRef.of main_v39 : TRef sig ⟨S400000x256, .f32⟩) main_call0.v4 main_call0.v5 subf,
    TRef.binary main_call0.v5 main_call0.v5 main_call0.v6 mulf,
    TRef.unary (TRef.of main_c_7 : TRef sig ⟨S_, .i32⟩) main_call0.v7 (sitofp .f32),
    TRef.nullary main_call0.cst_1 (constant S_ .f32 0x48C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S400000x256_S256_d0 h_S_),
    TRef.unary main_call0.v8 main_call0.v10 (broadcastInDim S256 ![] bcast_S_S256),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S256 ![] bcast_S_S256),
    TRef.ternary main_call0.v12 main_call0.v11 main_call0.call0.v1 main_call0.call0.v2 (fun p a b => select (broadcastInDim S256 ![] bcast_S_S256 p) a b),
    unary main_v42 main_v44 (broadcastInDim S1x256 ![1] bcast_S256_S1x256_1 : (⟨S256, .f32⟩ : BufTy).Contents (Elt F) → (⟨S1x256, .f32⟩ : BufTy).Contents (Elt F)),
    unary main_v44 main_v45 (broadcastInDim S400000x256 ![0, 1] bcast_S1x256_S400000x256_0_1 : (⟨S1x256, .f32⟩ : BufTy).Contents (Elt F) → (⟨S400000x256, .f32⟩ : BufTy).Contents (Elt F)),
    binary main_v39 main_v45 main_v46 (subf : (⟨S400000x256, .f32⟩ : BufTy).Contents (Elt F) → (⟨S400000x256, .f32⟩ : BufTy).Contents (Elt F) → (⟨S400000x256, .f32⟩ : BufTy).Contents (Elt F)),
    nullary main_cst_8 (constant S_ .f32 0x3727C5AC#32),
    unary main_cst_8 main_v47 (broadcastInDim S256 ![] bcast_S_S256 : (⟨S_, .f32⟩ : BufTy).Contents (Elt F) → (⟨S256, .f32⟩ : BufTy).Contents (Elt F)),
    binary main_v43 main_v47 main_v48 (addf : (⟨S256, .f32⟩ : BufTy).Contents (Elt F) → (⟨S256, .f32⟩ : BufTy).Contents (Elt F) → (⟨S256, .f32⟩ : BufTy).Contents (Elt F)) ]

end P0

open P0

/-- The first part's operations, in order. -/
abbrev ops0 : List (HloOp τ sig (Elt F)) := opsA ++ opsB0

-- eighty-one binds re-associated: the rewrite under the chain recurses once per statement
set_option maxRecDepth 8192 in
set_option maxHeartbeats 2000000 in
/-- The first part IS that line. -/
theorem part0_eq (c : Dev nD) : main_part0 (F := F) c = StableHlo.seq ops0 := by
  refine (bind_pure_unit (x := main_part0 (F := F) c)).symm.trans ?_
  rw [seq_append]
  simp only [main_part0, fn_var.body, fn_where.body, seq, bind_assoc, pure_bind]

namespace P0

theorem opsA_sub : (opsA : List (HloOp τ sig (Elt F))).Forall fun op => op.bufs ⊆ StableHlo.tcRefs τ sig :=
  ⟨reshape_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., reshape_bufs_sub .., unary_bufs_sub .., reshape_bufs_sub .., binary_bufs_sub ..,
    binary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., reshape_bufs_sub .., unary_bufs_sub .., reshape_bufs_sub .., binary_bufs_sub ..,
    binary_bufs_sub .., binary_bufs_sub .., unary_bufs_sub .., unary_bufs_sub .., binary_bufs_sub .., nullary_bufs_sub ..,
    binary_bufs_sub .., unary_bufs_sub .., binary_bufs_sub .., binary_bufs_sub .., binary_bufs_sub ..⟩

theorem opsB0_sub : (opsB0 : List (HloOp τ sig (Elt F))).Forall fun op => op.bufs ⊆ StableHlo.tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..,
    unary_bufs_sub .., unary_bufs_sub .., binary_bufs_sub .., nullary_bufs_sub .., unary_bufs_sub .., binary_bufs_sub ..⟩

theorem opsA_fresh : ∀ op ∈ (opsA : List (HloOp τ sig (Elt F))), op.fresh = ∅ := by
  intro _ h; (repeat (cases h with | head => rfl | tail _ h => ?_)); exact nomatch h

theorem opsB0_fresh : ∀ op ∈ (opsB0 : List (HloOp τ sig (Elt F))), op.fresh = ∅ := by
  intro _ h; (repeat (cases h with | head => rfl | tail _ h => ?_)); exact nomatch h

/-- The contents after two lines run one after the other: the second's over the first's. -/
theorem after_two {Val : EltTy → Type} (l₁ l₂ : List (HloOp τ sig Val)) :
    ∀ V : Valuation τ sig Val, StableHlo.after (l₁ ++ l₂) V = StableHlo.after l₂ (StableHlo.after l₁ V) := by
  induction l₁ with
  | nil => intro V; rfl
  | cons op l ih => intro V; exact ih (op.result V)

end P0

/-- Each operation touches TensorCore references only. -/
theorem ops0_sub : (ops0 : List (HloOp τ sig (Elt F))).Forall fun op => op.bufs ⊆ StableHlo.tcRefs τ sig :=
  List.forall_iff_forall_mem.mpr fun op h => (List.mem_append.mp h).elim
    (List.forall_iff_forall_mem.mp opsA_sub op) (List.forall_iff_forall_mem.mp opsB0_sub op)

/-- No operation allocates a buffer. -/
theorem ops0_fresh : ∀ op ∈ (ops0 : List (HloOp τ sig (Elt F))), op.fresh = ∅ :=
  fun op h => (List.mem_append.mp h).elim (opsA_fresh op) (opsB0_fresh op)

namespace P0

attribute [local irreducible] Host.scatterAdd Host.gather Host.reduceAdd

/-- Two arrays of 128 columns laid side by side. -/
def cat128 (a b : (⟨S400000x128, .f32⟩ : BufTy).Contents (Elt F)) : (⟨S400000x256, .f32⟩ : BufTy).Contents (Elt F) :=
  concatenate S400000x256 1 [⟨S400000x128, a⟩, ⟨S400000x128, b⟩] concatenates_S400000x128_S400000x128_S400000x256_d1

/-- Two arrays of 256 columns laid side by side. -/
def cat256 (a b : (⟨S400000x256, .f32⟩ : BufTy).Contents (Elt F)) : (⟨S400000x512, .f32⟩ : BufTy).Contents (Elt F) :=
  concatenate S400000x512 1 [⟨S400000x256, a⟩, ⟨S400000x256, b⟩] concatenates_S400000x256_S400000x256_S400000x512_d1

/-- The first concatenate, its two operands read from any contents. -/
theorem cat128_at (V : Valuation τ sig (Elt F)) :
    (concatenate S400000x256 1 [⟨S400000x128, V (Proc.devRef .tc main_v10)⟩, ⟨S400000x128, V (Proc.devRef .tc main_v14)⟩]
        concatenates_S400000x128_S400000x128_S400000x256_d1 : (⟨S400000x256, .f32⟩ : BufTy).Contents (Elt F))
      = cat128 (V (Proc.devRef .tc main_v10)) (V (Proc.devRef .tc main_v14)) := rfl

/-- The second concatenate, its two operands read from any contents. -/
theorem cat256_at (V : Valuation τ sig (Elt F)) :
    (concatenate S400000x512 1 [⟨S400000x256, V (Proc.devRef .tc main_v25)⟩, ⟨S400000x256, V (Proc.devRef .tc main_v29)⟩]
        concatenates_S400000x256_S400000x256_S400000x512_d1 : (⟨S400000x512, .f32⟩ : BufTy).Contents (Elt F))
      = cat256 (V (Proc.devRef .tc main_v25)) (V (Proc.devRef .tc main_v29)) := rfl

set_option maxRecDepth 8192 in
/-- The first stretch leaves in its last buffer the first pre-activation of the six arguments it reads: each
    operation's result is its function of its operands' contents, outermost first; a concatenate's two operands are
    named so that the reading goes on inside them; what is left is the stage function's own text. -/
theorem evalA (X : Valuation τ sig (Elt Ideal)) :
    StableHlo.after (opsA (F := Ideal)) X (Proc.devRef .tc main_v39)
      = pre1 (X (Proc.devRef .tc main_arg0)) (X (Proc.devRef .tc main_arg1)) (X (Proc.devRef .tc main_arg2)) (X (Proc.devRef .tc main_arg3)) (X (Proc.devRef .tc main_arg4)) (X (Proc.devRef .tc main_arg5)) := by
  after_results_simp
  rw [cat256_at]
  after_results_simp
  rw [cat128_at]
  after_results_simp
  simp only [pre1, edgeFeatures, edgeStep256, edgeStep128, endpoints, wrapped, cat128, cat256]
  rfl

set_option maxRecDepth 8192 in
/-- The second stretch leaves in its centring buffer the first pre-activation it found, less its column means. -/
theorem evalB_centred (W : Valuation τ sig (Elt Ideal)) :
    StableHlo.after (opsB0 (F := Ideal)) W (Proc.devRef .tc main_v46) = centred (W (Proc.devRef .tc main_v39)) := by
  after_results_simp
  rfl

set_option maxRecDepth 8192 in
/-- The second stretch leaves in its offset buffer the column variances of the first pre-activation it found, plus the
    offset. -/
theorem evalB_offVar (W : Valuation τ sig (Elt Ideal)) :
    StableHlo.after (opsB0 (F := Ideal)) W (Proc.devRef .tc main_v48) = offVar (W (Proc.devRef .tc main_v39)) := by
  after_results_simp
  rfl

end P0

/-- After the line the first live buffer holds the centred first pre-activation of the arguments. -/
theorem eval0_centred (X : Valuation τ sig (Elt Ideal)) :
    StableHlo.after (ops0 (F := Ideal)) X (Proc.devRef .tc main_v46)
      = centred (pre1 (X (Proc.devRef .tc main_arg0)) (X (Proc.devRef .tc main_arg1)) (X (Proc.devRef .tc main_arg2)) (X (Proc.devRef .tc main_arg3)) (X (Proc.devRef .tc main_arg4)) (X (Proc.devRef .tc main_arg5))) := by
  rw [after_two, evalB_centred, evalA]

/-- After the line the second live buffer holds the offset variance of the first pre-activation. -/
theorem eval0_offVar (X : Valuation τ sig (Elt Ideal)) :
    StableHlo.after (ops0 (F := Ideal)) X (Proc.devRef .tc main_v48)
      = offVar (pre1 (X (Proc.devRef .tc main_arg0)) (X (Proc.devRef .tc main_arg1)) (X (Proc.devRef .tc main_arg2)) (X (Proc.devRef .tc main_arg3)) (X (Proc.devRef .tc main_arg4)) (X (Proc.devRef .tc main_arg5))) := by
  rw [after_two, evalB_offVar, evalA]

theorem keep0_arg0 (X : Valuation τ sig (Elt Ideal)) : StableHlo.after (ops0 (F := Ideal)) X (Proc.devRef .tc main_arg0) = X (Proc.devRef .tc main_arg0) := by
  rw [after_two]; after_results_simp
theorem keep0_arg1 (X : Valuation τ sig (Elt Ideal)) : StableHlo.after (ops0 (F := Ideal)) X (Proc.devRef .tc main_arg1) = X (Proc.devRef .tc main_arg1) := by
  rw [after_two]; after_results_simp
theorem keep0_arg2 (X : Valuation τ sig (Elt Ideal)) : StableHlo.after (ops0 (F := Ideal)) X (Proc.devRef .tc main_arg2) = X (Proc.devRef .tc main_arg2) := by
  rw [after_two]; after_results_simp
theorem keep0_arg3 (X : Valuation τ sig (Elt Ideal)) : StableHlo.after (ops0 (F := Ideal)) X (Proc.devRef .tc main_arg3) = X (Proc.devRef .tc main_arg3) := by
  rw [after_two]; after_results_simp
theorem keep0_arg4 (X : Valuation τ sig (Elt Ideal)) : StableHlo.after (ops0 (F := Ideal)) X (Proc.devRef .tc main_arg4) = X (Proc.devRef .tc main_arg4) := by
  rw [after_two]; after_results_simp
theorem keep0_arg5 (X : Valuation τ sig (Elt Ideal)) : StableHlo.after (ops0 (F := Ideal)) X (Proc.devRef .tc main_arg5) = X (Proc.devRef .tc main_arg5) := by
  rw [after_two]; after_results_simp
theorem keep0_arg6 (X : Valuation τ sig (Elt Ideal)) : StableHlo.after (ops0 (F := Ideal)) X (Proc.devRef .tc main_arg6) = X (Proc.devRef .tc main_arg6) := by
  rw [after_two]; after_results_simp
theorem keep0_arg7 (X : Valuation τ sig (Elt Ideal)) : StableHlo.after (ops0 (F := Ideal)) X (Proc.devRef .tc main_arg7) = X (Proc.devRef .tc main_arg7) := by
  rw [after_two]; after_results_simp
theorem keep0_arg8 (X : Valuation τ sig (Elt Ideal)) : StableHlo.after (ops0 (F := Ideal)) X (Proc.devRef .tc main_arg8) = X (Proc.devRef .tc main_arg8) := by
  rw [after_two]; after_results_simp
theorem keep0_arg9 (X : Valuation τ sig (Elt Ideal)) : StableHlo.after (ops0 (F := Ideal)) X (Proc.devRef .tc main_arg9) = X (Proc.devRef .tc main_arg9) := by
  rw [after_two]; after_results_simp
theorem keep0_arg10 (X : Valuation τ sig (Elt Ideal)) : StableHlo.after (ops0 (F := Ideal)) X (Proc.devRef .tc main_arg10) = X (Proc.devRef .tc main_arg10) := by
  rw [after_two]; after_results_simp

end Cert.ReferenceIdeal.Hand

end
-- ==== Proof.RefOps1.lean ====
import proofs.«139709_j50869592655480_1_alg».proof.Proof.RefCut

noncomputable section

namespace Cert.ReferenceIdeal.Hand

open Idealize.ShloMosaic Idealize.ShloMosaic.StableHlo Idealize.SL.Sem Cert.ReferenceIdeal Facts₀

variable {F : FTy → Type} [FloatOps F]

/-- The operations of the reference's second part (its statements 61 to 97) in order, the four calls written out over
    their own records. -/
abbrev ops1 : List (HloOp τ sig (Elt F)) :=
  [ StableHlo.unary main_v48 main_v49 (Host.rsqrt : (⟨S256, .f32⟩ : BufTy).Contents (Elt F) → (⟨S256, .f32⟩ : BufTy).Contents (Elt F)),
    StableHlo.unary main_v49 main_v50 (broadcastInDim S1x256 ![1] bcast_S256_S1x256_1 : (⟨S256, .f32⟩ : BufTy).Contents (Elt F) → (⟨S1x256, .f32⟩ : BufTy).Contents (Elt F)),
    StableHlo.unary main_v50 main_v51 (broadcastInDim S400000x256 ![0, 1] bcast_S1x256_S400000x256_0_1 : (⟨S1x256, .f32⟩ : BufTy).Contents (Elt F) → (⟨S400000x256, .f32⟩ : BufTy).Contents (Elt F)),
    StableHlo.binary main_v46 main_v51 main_v52 (mulf : (⟨S400000x256, .f32⟩ : BufTy).Contents (Elt F) → (⟨S400000x256, .f32⟩ : BufTy).Contents (Elt F) → (⟨S400000x256, .f32⟩ : BufTy).Contents (Elt F)),
    StableHlo.unary main_arg6 main_v53 (broadcastInDim S1x256 ![1] bcast_S256_S1x256_1 : (⟨S256, .f32⟩ : BufTy).Contents (Elt F) → (⟨S1x256, .f32⟩ : BufTy).Contents (Elt F)),
    StableHlo.unary main_v53 main_v54 (broadcastInDim S400000x256 ![0, 1] bcast_S1x256_S400000x256_0_1 : (⟨S1x256, .f32⟩ : BufTy).Contents (Elt F) → (⟨S400000x256, .f32⟩ : BufTy).Contents (Elt F)),
    StableHlo.binary main_v52 main_v54 main_v55 (mulf : (⟨S400000x256, .f32⟩ : BufTy).Contents (Elt F) → (⟨S400000x256, .f32⟩ : BufTy).Contents (Elt F) → (⟨S400000x256, .f32⟩ : BufTy).Contents (Elt F)),
    StableHlo.unary main_arg7 main_v56 (broadcastInDim S1x256 ![1] bcast_S256_S1x256_1 : (⟨S256, .f32⟩ : BufTy).Contents (Elt F) → (⟨S1x256, .f32⟩ : BufTy).Contents (Elt F)),
    StableHlo.unary main_v56 main_v57 (broadcastInDim S400000x256 ![0, 1] bcast_S1x256_S400000x256_0_1 : (⟨S1x256, .f32⟩ : BufTy).Contents (Elt F) → (⟨S400000x256, .f32⟩ : BufTy).Contents (Elt F)),
    StableHlo.binary main_v55 main_v57 main_v58 (addf : (⟨S400000x256, .f32⟩ : BufTy).Contents (Elt F) → (⟨S400000x256, .f32⟩ : BufTy).Contents (Elt F) → (⟨S400000x256, .f32⟩ : BufTy).Contents (Elt F)),
    StableHlo.TRef.nullary main_call1.cst (constant S_ .f32 0x00000000#32),
    StableHlo.TRef.unary main_call1.cst main_call1.v0 (broadcastInDim S400000x256 ![] bcast_S_S400000x256),
    StableHlo.TRef.binary (.of main_v58 : StableHlo.TRef sig ⟨S400000x256, .f32⟩) main_call1.v0 main_call1.v1 maximumf,
    StableHlo.binary main_v59 main_arg8 main_v60 ((fun l r => Host.dotGeneral dot_S400000x256_S256x128_S400000x128_1_0_0_1_n_n none l r) : (⟨S400000x256, .f32⟩ : BufTy).Contents (Elt F) → (⟨S256x128, .f32⟩ : BufTy).Contents (Elt F) → (⟨S400000x128, .f32⟩ : BufTy).Contents (Elt F)),
    StableHlo.nullary main_cst_9 (constant S_ .f32 0x00000000#32),
    StableHlo.binary main_v60 main_cst_9 main_v61 ((fun x v => Host.reduceAdd x v reducesTo_S400000x128_S128_d0 h_S_) : (⟨S400000x128, .f32⟩ : BufTy).Contents (Elt F) → (⟨S_, .f32⟩ : BufTy).Contents (Elt F) → (⟨S128, .f32⟩ : BufTy).Contents (Elt F)),
    StableHlo.nullary main_cst_10 (constant S_ .f32 0x48C35000#32),
    StableHlo.unary main_cst_10 main_v62 (broadcastInDim S128 ![] bcast_S_S128 : (⟨S_, .f32⟩ : BufTy).Contents (Elt F) → (⟨S128, .f32⟩ : BufTy).Contents (Elt F)),
    StableHlo.binary main_v61 main_v62 main_v63 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32),
    StableHlo.TRef.nullary main_call2.cst (constant S_ .f32 0x00000000#32),
    StableHlo.TRef.binary (.of main_v60 : StableHlo.TRef sig ⟨S400000x128, .f32⟩) main_call2.cst main_call2.v0 (fun x v => Host.reduceAdd x v reducesTo_S400000x128_S128_d0 h_S_),
    StableHlo.TRef.unary main_call2.v0 main_call2.v1 (broadcastInDim S1x128 ![1] bcast_S128_S1x128_1),
    StableHlo.TRef.nullary main_call2.cst_0 (constant S_ .f32 0x48C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S400000x128 ![0, 1] bcast_S1x128_S400000x128_0_1),
    StableHlo.TRef.binary (.of main_v60 : StableHlo.TRef sig ⟨S400000x128, .f32⟩) main_call2.v4 main_call2.v5 subf,
    StableHlo.TRef.binary main_call2.v5 main_call2.v5 main_call2.v6 mulf,
    StableHlo.TRef.unary (.of main_c_11 : StableHlo.TRef sig ⟨S_, .i32⟩) main_call2.v7 (sitofp .f32),
    StableHlo.TRef.nullary main_call2.cst_1 (constant S_ .f32 0x48C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S400000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v63 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S400000x128 ![0, 1] bcast_S1x128_S400000x128_0_1 : (⟨S1x128, .f32⟩ : BufTy).Contents (Elt F) → (⟨S400000x128, .f32⟩ : BufTy).Contents (Elt F)),
    StableHlo.binary main_v60 main_v66 main_v67 (subf : (⟨S400000x128, .f32⟩ : BufTy).Contents (Elt F) → (⟨S400000x128, .f32⟩ : BufTy).Contents (Elt F) → (⟨S400000x128, .f32⟩ : BufTy).Contents (Elt F)),
    StableHlo.nullary main_cst_12 (constant S_ .f32 0x3727C5AC#32),
    StableHlo.unary main_cst_12 main_v68 (broadcastInDim S128 ![] bcast_S_S128 : (⟨S_, .f32⟩ : BufTy).Contents (Elt F) → (⟨S128, .f32⟩ : BufTy).Contents (Elt F)),
    StableHlo.binary main_v64 main_v68 main_v69 (addf : (⟨S128, .f32⟩ : BufTy).Contents (Elt F) → (⟨S128, .f32⟩ : BufTy).Contents (Elt F) → (⟨S128, .f32⟩ : BufTy).Contents (Elt F)),
    StableHlo.unary main_v69 main_v70 (Host.rsqrt : (⟨S128, .f32⟩ : BufTy).Contents (Elt F) → (⟨S128, .f32⟩ : BufTy).Contents (Elt F)),
    StableHlo.unary main_v70 main_v71 (broadcastInDim S1x128 ![1] bcast_S128_S1x128_1 : (⟨S128, .f32⟩ : BufTy).Contents (Elt F) → (⟨S1x128, .f32⟩ : BufTy).Contents (Elt F)),
    StableHlo.unary main_v71 main_v72 (broadcastInDim S400000x128 ![0, 1] bcast_S1x128_S400000x128_0_1 : (⟨S1x128, .f32⟩ : BufTy).Contents (Elt F) → (⟨S400000x128, .f32⟩ : BufTy).Contents (Elt F)),
    StableHlo.binary main_v67 main_v72 main_v73 (mulf : (⟨S400000x128, .f32⟩ : BufTy).Contents (Elt F) → (⟨S400000x128, .f32⟩ : BufTy).Contents (Elt F) → (⟨S400000x128, .f32⟩ : BufTy).Contents (Elt F)),
    StableHlo.unary main_arg9 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S400000x128 ![0, 1] bcast_S1x128_S400000x128_0_1 : (⟨S1x128, .f32⟩ : BufTy).Contents (Elt F) → (⟨S400000x128, .f32⟩ : BufTy).Contents (Elt F)),
    StableHlo.binary main_v73 main_v75 main_v76 (mulf : (⟨S400000x128, .f32⟩ : BufTy).Contents (Elt F) → (⟨S400000x128, .f32⟩ : BufTy).Contents (Elt F) → (⟨S400000x128, .f32⟩ : BufTy).Contents (Elt F)),
    StableHlo.unary main_arg10 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S400000x128 ![0, 1] bcast_S1x128_S400000x128_0_1 : (⟨S1x128, .f32⟩ : BufTy).Contents (Elt F) → (⟨S400000x128, .f32⟩ : BufTy).Contents (Elt F)),
    StableHlo.binary main_v76 main_v78 main_v79 (addf : (⟨S400000x128, .f32⟩ : BufTy).Contents (Elt F) → (⟨S400000x128, .f32⟩ : BufTy).Contents (Elt F) → (⟨S400000x128, .f32⟩ : BufTy).Contents (Elt F)),
    StableHlo.TRef.nullary main_call3.cst (constant S_ .f32 0x00000000#32),
    StableHlo.TRef.unary main_call3.cst main_call3.v0 (broadcastInDim S400000x128 ![] bcast_S_S400000x128),
    StableHlo.TRef.binary (.of main_v79 : StableHlo.TRef sig ⟨S400000x128, .f32⟩) main_call3.v0 main_call3.v1 maximumf ]

end Cert.ReferenceIdeal.Hand

end
-- ==== Proof.RefRun1.lean ====
/-
  The second part of the reference (its statements 61 to 97) as a straight line of host operations, the clip, the
  variance function and its guard inlined at their calls over those calls' own buffers, and what the line leaves in the
  result buffer from ANY contents `Y`: the second part's function of the two live buffers and five arguments. No
  operation of the line writes an argument.
-/
import proofs.«139709_j50869592655480_1_alg».proof.Proof.RefCut
import proofs.«139709_j50869592655480_1_alg».proof.Proof.RefOps1
import Idealize.ShloMosaic.Lib.StableHlo.Run

noncomputable section

namespace Cert.ReferenceIdeal.Hand

open Idealize.ShloMosaic Idealize.ShloMosaic.StableHlo Idealize.SL.Sem Cert.ReferenceIdeal
open Facts₀

variable {F : FTy → Type} [FloatOps F]

set_option maxRecDepth 4096 in
/-- The second part IS that line. -/
theorem part1_eq (c : Dev nD) : main_part1 (F := F) c = StableHlo.seq ops1 := by
  simp only [main_part1, fn_relu.body, fn_var_0.body, fn_where_1.body, fn_relu_2.body, seq, bind_assoc, pure_bind]

/-- Each operation touches TensorCore references only. -/
theorem ops1_sub : (ops1 : List (HloOp τ sig (Elt F))).Forall fun op => op.bufs ⊆ StableHlo.tcRefs τ sig := by
  simp only [List.Forall, nullary_bufs_sub, unary_bufs_sub, binary_bufs_sub, ternary_bufs_sub, and_self]

/-- No operation allocates a buffer. -/
theorem ops1_fresh : ∀ op ∈ (ops1 : List (HloOp τ sig (Elt F))), op.fresh = ∅ := by
  refine List.forall_iff_forall_mem.mp ?_
  simp only [List.Forall]
  repeat' constructor

attribute [local irreducible] Host.reduceAdd Ideal.matmul in
set_option maxRecDepth 8192 in
/-- After the line the result buffer holds the second part's function. -/
theorem eval1 (Y : Valuation τ sig (Elt Ideal)) :
    StableHlo.after (ops1 (F := Ideal)) Y (Proc.devRef .tc main_v80)
      = tail (Y (Proc.devRef .tc main_v46)) (Y (Proc.devRef .tc main_v48)) (Y (Proc.devRef .tc main_arg6)) (Y (Proc.devRef .tc main_arg7)) (Y (Proc.devRef .tc main_arg8)) (Y (Proc.devRef .tc main_arg9)) (Y (Proc.devRef .tc main_arg10)) := by
  after_results_simp
  simp only [tail, bnRelu128, mean128, var128, dof128, up256]
  rfl

/-- An argument's buffer is the result buffer of no operation of the line, so the line leaves it as it was: each
    operation writes one buffer, and that buffer is a different reference from the argument's. -/
local macro "not_written" : tactic =>
  `(tactic| (refine StableHlo.after_of_forall_not_mem _ _ (List.forall_iff_forall_mem.mp ?_)
             simp only [List.Forall, StableHlo.nullary_writes, StableHlo.unary_writes, StableHlo.binary_writes,
               StableHlo.ternary_writes, Finset.mem_singleton]
             repeat' apply And.intro
             all_goals exact StableHlo.devRef_ne_of_ne (by decide)))

theorem keep1_arg0 (Y : Valuation τ sig (Elt Ideal)) : StableHlo.after (ops1 (F := Ideal)) Y (Proc.devRef .tc main_arg0) = Y (Proc.devRef .tc main_arg0) := by
  not_written
theorem keep1_arg1 (Y : Valuation τ sig (Elt Ideal)) : StableHlo.after (ops1 (F := Ideal)) Y (Proc.devRef .tc main_arg1) = Y (Proc.devRef .tc main_arg1) := by
  not_written
theorem keep1_arg2 (Y : Valuation τ sig (Elt Ideal)) : StableHlo.after (ops1 (F := Ideal)) Y (Proc.devRef .tc main_arg2) = Y (Proc.devRef .tc main_arg2) := by
  not_written
theorem keep1_arg3 (Y : Valuation τ sig (Elt Ideal)) : StableHlo.after (ops1 (F := Ideal)) Y (Proc.devRef .tc main_arg3) = Y (Proc.devRef .tc main_arg3) := by
  not_written
theorem keep1_arg4 (Y : Valuation τ sig (Elt Ideal)) : StableHlo.after (ops1 (F := Ideal)) Y (Proc.devRef .tc main_arg4) = Y (Proc.devRef .tc main_arg4) := by
  not_written
theorem keep1_arg5 (Y : Valuation τ sig (Elt Ideal)) : StableHlo.after (ops1 (F := Ideal)) Y (Proc.devRef .tc main_arg5) = Y (Proc.devRef .tc main_arg5) := by
  not_written
theorem keep1_arg6 (Y : Valuation τ sig (Elt Ideal)) : StableHlo.after (ops1 (F := Ideal)) Y (Proc.devRef .tc main_arg6) = Y (Proc.devRef .tc main_arg6) := by
  not_written
theorem keep1_arg7 (Y : Valuation τ sig (Elt Ideal)) : StableHlo.after (ops1 (F := Ideal)) Y (Proc.devRef .tc main_arg7) = Y (Proc.devRef .tc main_arg7) := by
  not_written
theorem keep1_arg8 (Y : Valuation τ sig (Elt Ideal)) : StableHlo.after (ops1 (F := Ideal)) Y (Proc.devRef .tc main_arg8) = Y (Proc.devRef .tc main_arg8) := by
  not_written
theorem keep1_arg9 (Y : Valuation τ sig (Elt Ideal)) : StableHlo.after (ops1 (F := Ideal)) Y (Proc.devRef .tc main_arg9) = Y (Proc.devRef .tc main_arg9) := by
  not_written
theorem keep1_arg10 (Y : Valuation τ sig (Elt Ideal)) : StableHlo.after (ops1 (F := Ideal)) Y (Proc.devRef .tc main_arg10) = Y (Proc.devRef .tc main_arg10) := by
  not_written

end Cert.ReferenceIdeal.Hand

end
-- ==== Proof.RefRun.lean ====
/-
  The reference's run, read back: the reference is a straight line of host operations (the library functions it calls —
  the variance, its guard, the clip — inlined at their calls over each call's own buffers), so from any memory with zero
  counters every weakly fair execution terminates without a fault, the result buffer ends at the operations' composed
  function of the eleven argument arrays, and the arguments end as launched. The line is the first part's operations
  followed by the second part's; the second part's result is read over what the first part leaves.
-/
import proofs.«139709_j50869592655480_1_alg».proof.Proof.RefRun0
import proofs.«139709_j50869592655480_1_alg».proof.Proof.RefRun1

noncomputable section

namespace Cert.ReferenceIdeal.Hand

open Idealize.ShloMosaic Idealize.ShloMosaic.StableHlo Idealize.SL.Sem Cert.ReferenceIdeal

variable {F : FTy → Type} [FloatOps F]

/-- The contents after two lines run one after the other are the second line's over the first's. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, StableHlo.after_cons, ih]

theorem scopedRefs_eq : (Finset.univ.filter fun b : Ref sig .tc => b.isScoped) = ∅ := by decide
theorem scopedSems_eq : (Finset.univ.filter fun sm : SemLoc sig => sm.isScoped .tc) = ∅ := by decide

/-- The reference is the two parts' operations in order. -/
theorem main_eq (c : Dev nD) : main (F := F) c = StableHlo.seq (ops0 ++ ops1) := by
  rw [StableHlo.seq_append, ← part0_eq c, ← part1_eq c]
  rfl

theorem ops_sub : (ops0 ++ ops1 : List (HloOp τ sig (Elt F))).Forall fun op => op.bufs ⊆ StableHlo.tcRefs τ sig := by
  rw [List.forall_iff_forall_mem]
  intro op hop
  rcases List.mem_append.mp hop with h | h
  · exact (List.forall_iff_forall_mem.mp ops0_sub) op h
  · exact (List.forall_iff_forall_mem.mp ops1_sub) op h

theorem ops_fresh : ∀ op ∈ (ops0 ++ ops1 : List (HloOp τ sig (Elt F))), op.fresh = ∅ := by
  intro op hop
  rcases List.mem_append.mp hop with h | h
  · exact ops0_fresh op h
  · exact ops1_fresh op h

/-- Every buffer after the run is the line's fold over the launch contents. -/
theorem run_fold (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b)
        = StableHlo.after (ops0 ++ ops1) (StableHlo.launchContents m c) (Proc.devRef .tc b) :=
  StableHlo.run_seq scopedRefs_eq scopedSems_eq defs main (fun _ => ops0 ++ ops1) main_eq (fun _ => ops_sub) m ρ
    (fun _ => ops_fresh)

/-- The run: the result buffer at `out` of the launch memory's argument arrays, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v80) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run defs _ _).mono (fun r h c => ?_) (run_fold m ρ)
  refine ⟨?_, ?_, ?_, ?_, ?_, ?_, ?_, ?_, ?_, ?_, ?_, ?_⟩
  · rw [h c main_v80, after_append, eval1, eval0_centred, eval0_offVar, keep0_arg6, keep0_arg7, keep0_arg8, keep0_arg9,
      keep0_arg10, out_cut]
  · rw [h c main_arg0, after_append, keep1_arg0, keep0_arg0]
  · rw [h c main_arg1, after_append, keep1_arg1, keep0_arg1]
  · rw [h c main_arg2, after_append, keep1_arg2, keep0_arg2]
  · rw [h c main_arg3, after_append, keep1_arg3, keep0_arg3]
  · rw [h c main_arg4, after_append, keep1_arg4, keep0_arg4]
  · rw [h c main_arg5, after_append, keep1_arg5, keep0_arg5]
  · rw [h c main_arg6, after_append, keep1_arg6, keep0_arg6]
  · rw [h c main_arg7, after_append, keep1_arg7, keep0_arg7]
  · rw [h c main_arg8, after_append, keep1_arg8, keep0_arg8]
  · rw [h c main_arg9, after_append, keep1_arg9, keep0_arg9]
  · rw [h c main_arg10, after_append, keep1_arg10, keep0_arg10]

end Cert.ReferenceIdeal.Hand

end
-- ==== Proof.RefValue.lean ====
/-
  The reference's function of the arguments IS the common result, when every float argument and the edge features are
  real numbers. Stage by stage: its two matrix products and its column sums read at an index are the plain sums of the
  specification; its variance guard picks the quotient (the corrected row count 400000 - 0 is positive); and each
  normalisation, entry by entry, is the affine form by the column lemma, which also says the entries stay real for the
  next layer.
-/
import proofs.«139709_j50869592655480_1_alg».proof.Proof.RefTerm
import proofs.«139709_j50869592655480_1_alg».proof.Proof.Algebra
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

open scoped BigOperators

namespace Cert.ReferenceIdeal.Hand

open Idealize.ShloMosaic Idealize.ShloMosaic.ValueIdx Cert.ReferenceIdeal Cert.Algebra Cert.Spec

/-! ## Layout operations and column sums read at an index -/

section Stages
variable {α : Type} {n C : Nat}

/-- A scalar broadcast to any shape reads the scalar everywhere. -/
theorem bcast0_apply {t : Shape} (h : (⟨0, ![]⟩ : Shape).BroadcastsInDim t (![] : Fin 0 → Fin t.rank))
    (x : (⟨0, ![]⟩ : Shape).Idx → α) (j : t.Idx) : broadcastInDim t ![] h x j = x ix0 := by
  unfold broadcastInDim
  exact congrArg x (funext fun a => a.elim0)

/-- A vector laid out as a one-row array reads, at (0, j), the vector at j. -/
theorem asRow_apply (h1 : (⟨1, ![C]⟩ : Shape).BroadcastsInDim ⟨2, ![1, C]⟩ ![1]) (v : (⟨1, ![C]⟩ : Shape).Idx → α) (j : Fin C) :
    broadcastInDim ⟨2, ![1, C]⟩ ![1] h1 v (ix2 (0 : Fin 1) j) = v (ix1 j) := by
  refine broadcastInDim_apply _ h1 v (ix2 (0 : Fin 1) j) (ix1 j) fun a => ?_
  match a with
  | ⟨0, _⟩ =>
    show j.val = if C = 1 then 0 else j.val
    split
    · have := j.isLt; omega
    · rfl

/-- A one-row array copied along n rows reads, at (r, j), the row at (0, j). -/
theorem alongRows_apply (h2 : (⟨2, ![1, C]⟩ : Shape).BroadcastsInDim ⟨2, ![n, C]⟩ ![0, 1]) (w : (⟨2, ![1, C]⟩ : Shape).Idx → α)
    (r : Fin n) (j : Fin C) : broadcastInDim ⟨2, ![n, C]⟩ ![0, 1] h2 w (ix2 r j) = w (ix2 (0 : Fin 1) j) := by
  refine broadcastInDim_apply _ h2 w (ix2 r j) (ix2 (0 : Fin 1) j) fun a => ?_
  match a with
  | ⟨0, _⟩ => rfl
  | ⟨1, _⟩ =>
    show j.val = if C = 1 then 0 else j.val
    split
    · have := j.isLt; omega
    · rfl

/-- A vector laid out as one row and then copied along the rows reads, at (r, j), the vector at j. -/
theorem up_apply (h1 : (⟨1, ![C]⟩ : Shape).BroadcastsInDim ⟨2, ![1, C]⟩ ![1])
    (h2 : (⟨2, ![1, C]⟩ : Shape).BroadcastsInDim ⟨2, ![n, C]⟩ ![0, 1]) (v : (⟨1, ![C]⟩ : Shape).Idx → α) (r : Fin n) (j : Fin C) :
    broadcastInDim ⟨2, ![n, C]⟩ ![0, 1] h2 (broadcastInDim ⟨2, ![1, C]⟩ ![1] h1 v) (ix2 r j) = v (ix1 j) :=
  (alongRows_apply h2 _ r j).trans (asRow_apply h1 v j)

/-- The sum along the rows of an n × C array, started from the value of the word w, at column j. -/
theorem colReduce_apply (h' : (⟨2, ![n, C]⟩ : Shape).ReducesTo [0] ⟨1, ![C]⟩) (hu : 0 < (⟨0, ![]⟩ : Shape).numel)
    (a : FVec Ideal ⟨2, ![n, C]⟩ .f32) (w : BitVec 32) (j : Fin C) :
    Host.reduceAdd a (constant (F := Ideal) ⟨0, ![]⟩ .f32 w) h' hu (ix1 j) = Ideal.ofBits .f32 w + ∑ r : Fin n, a (ix2 r j) := by
  have h : (⟨2, ![n, C]⟩ : Shape).Reduces [0] ⟨1, ![C]⟩ := ⟨h'.1, Nat.one_pos, h'.2⟩
  refine (Ideal.hostReduceAdd_single h' h a (Ideal.ofBits .f32 w) (ix1 j)).trans ?_
  refine congrArg (Ideal.ofBits .f32 w + ·) (Finset.sum_congr rfl fun r _ => congrArg a ?_)
  funext c
  apply Fin.ext
  match c with
  | ⟨0, _⟩ => rfl
  | ⟨1, _⟩ => rfl

/-- The host's quotient at an index is the quotient of the entries. -/
theorem hostDivf_apply {s : Shape} (a b : FVec Ideal s .f32) (i : s.Idx) : Host.divf a b i = Ideal.div (a i) (b i) := rfl

/-- The host's inverse square root at an index is that of the entry. -/
theorem hostRsqrt_apply {s : Shape} (a : FVec Ideal s .f32) (i : s.Idx) : Host.rsqrt a i = Ideal.rsqrt (a i) := rfl

end Stages

/-! ## The reference's three matrix products read at an index -/

/-- The 400000 × 512 by 512 × 128 product at (r, k): the sum over the 512 contracted coordinates. -/
theorem dot512_apply (A : FVec Ideal S400000x512 .f32) (B : FVec Ideal S512x128 .f32) (r : Fin 400000) (k : Fin 128) :
    Host.dotGeneral dot_S400000x512_S512x128_S400000x128_1_0_0_1_n_n none A B (ix2 r k) = ∑ l : Fin 512, A (ix2 r l) * B (ix2 l k) :=
  StackMember.dotGeneral_plain_apply none A B r k

/-- The 400000 × 128 by 128 × 256 product at (r, j): the sum over the 128 contracted coordinates. -/
theorem dot128_apply (A : FVec Ideal S400000x128 .f32) (B : FVec Ideal S128x256 .f32) (r : Fin 400000) (j : Fin 256) :
    Host.dotGeneral dot_S400000x128_S128x256_S400000x256_1_0_0_1_n_n none A B (ix2 r j) = ∑ k : Fin 128, A (ix2 r k) * B (ix2 k j) :=
  StackMember.dotGeneral_plain_apply none A B r j

/-- The 400000 × 256 by 256 × 128 product at (r, j): the sum over the 256 contracted coordinates. -/
theorem dot256_apply (A : FVec Ideal S400000x256 .f32) (B : FVec Ideal S256x128 .f32) (r : Fin 400000) (j : Fin 128) :
    Host.dotGeneral dot_S400000x256_S256x128_S400000x128_1_0_0_1_n_n none A B (ix2 r j) = ∑ k : Fin 256, A (ix2 r k) * B (ix2 k j) :=
  StackMember.dotGeneral_plain_apply none A B r j

/-! ## The first pre-activation -/

/-- The reference's first pre-activation at (r, j) is the specification's, over the shared edge features. -/
theorem pre1_apply (x : FVec Ideal S400000x128 .f32) (e : IVec S200000x2 32) (Wl : FVec Ideal S512x128 .f32) (b : FVec Ideal S128 .f32)
    (eps : FVec Ideal S_ .f32) (W1 : FVec Ideal S128x256 .f32) (r : Fin 400000) (j : Fin 256) :
    pre1 x e Wl b eps W1 (ix2 r j)
      = Spec.pre1 (toMat (Cert.KernelIdeal.edgeFeatures x e)) (toMat x) (toMat Wl) (toVec b) (eps ix0) (toMat W1) r j := by
  unfold pre1 Spec.pre1 Spec.mm
  rw [Cert.Shared.edgeFeatures_eq, dot128_apply]
  refine Finset.sum_congr rfl fun k _ => ?_
  rw [addf_apply, addf_apply, mulf_apply, dot512_apply, up_apply, bcast0_apply]
  rfl

/-! ## The normalisation of 256 columns -/

/-- The column mean at j: the column sum from the float zero, divided by the row count. -/
theorem mean256_apply (a : FVec Ideal S400000x256 .f32) (j : Fin 256) :
    mean256 a (ix1 j) = Ideal.div (zeroLit + ∑ r : Fin 400000, a (ix2 r j)) nLit := by
  unfold mean256
  rw [hostDivf_apply, colReduce_apply, bcast0_apply]
  rfl

/-- The guarded column variance at j is the quotient: the mean of the squared deviations over the corrected row count. -/
theorem var256_apply (a : FVec Ideal S400000x256 .f32) (j : Fin 256) :
    var256 a (ix1 j)
      = Ideal.div (zeroLit + ∑ r : Fin 400000,
            (a (ix2 r j) - Ideal.div (zeroLit + ∑ r : Fin 400000, a (ix2 r j)) nLit)
              * (a (ix2 r j) - Ideal.div (zeroLit + ∑ r : Fin 400000, a (ix2 r j)) nLit))
          (nLit - (((0#32 : BitVec 32).toInt : ℝ) : EReal)) := by
  unfold var256
  dsimp only
  rw [select_apply, bcast0_apply]
  have hc : cmpf .ogt dof256 (constant (F := Ideal) S_ .f32 0x00000000#32) ix0 = 1#1 := dof_gt
  rw [hc, select_one, hostDivf_apply, colReduce_apply, bcast0_apply]
  refine congrArg₂ Ideal.div (congrArg (zeroLit + ·) (Finset.sum_congr rfl fun r _ => ?_)) rfl
  rw [mulf_apply, subf_apply, alongRows_apply, hostDivf_apply, asRow_apply, colReduce_apply, bcast0_apply]
  rfl

/-- One entry of the normalised, clipped array: the reference's form on its column. -/
theorem bnRelu256_apply (a : FVec Ideal S400000x256 .f32) (g be : FVec Ideal S256 .f32) (r : Fin 400000) (j : Fin 256) :
    bnRelu256 a g be (ix2 r j) = refRelu (fun r => a (ix2 r j)) (g (ix1 j)) (be (ix1 j)) (a (ix2 r j)) := by
  unfold bnRelu256 refRelu
  dsimp only
  rw [maximumf_apply, addf_apply, mulf_apply, mulf_apply, subf_apply, up_apply, up_apply, up_apply, up_apply, bcast0_apply,
    hostRsqrt_apply, addf_apply, bcast0_apply, mean256_apply, var256_apply]
  rfl

/-! ## The normalisation of 128 columns -/

/-- The column mean at j: the column sum from the float zero, divided by the row count. -/
theorem mean128_apply (a : FVec Ideal S400000x128 .f32) (j : Fin 128) :
    mean128 a (ix1 j) = Ideal.div (zeroLit + ∑ r : Fin 400000, a (ix2 r j)) nLit := by
  unfold mean128
  rw [hostDivf_apply, colReduce_apply, bcast0_apply]
  rfl

/-- The guarded column variance at j is the quotient: the mean of the squared deviations over the corrected row count. -/
theorem var128_apply (a : FVec Ideal S400000x128 .f32) (j : Fin 128) :
    var128 a (ix1 j)
      = Ideal.div (zeroLit + ∑ r : Fin 400000,
            (a (ix2 r j) - Ideal.div (zeroLit + ∑ r : Fin 400000, a (ix2 r j)) nLit)
              * (a (ix2 r j) - Ideal.div (zeroLit + ∑ r : Fin 400000, a (ix2 r j)) nLit))
          (nLit - (((0#32 : BitVec 32).toInt : ℝ) : EReal)) := by
  unfold var128
  dsimp only
  rw [select_apply, bcast0_apply]
  have hc : cmpf .ogt dof128 (constant (F := Ideal) S_ .f32 0x00000000#32) ix0 = 1#1 := dof_gt
  rw [hc, select_one, hostDivf_apply, colReduce_apply, bcast0_apply]
  refine congrArg₂ Ideal.div (congrArg (zeroLit + ·) (Finset.sum_congr rfl fun r _ => ?_)) rfl
  rw [mulf_apply, subf_apply, alongRows_apply, hostDivf_apply, asRow_apply, colReduce_apply, bcast0_apply]
  rfl

/-- One entry of the normalised, clipped array: the reference's form on its column. -/
theorem bnRelu128_apply (a : FVec Ideal S400000x128 .f32) (g be : FVec Ideal S128 .f32) (r : Fin 400000) (j : Fin 128) :
    bnRelu128 a g be (ix2 r j) = refRelu (fun r => a (ix2 r j)) (g (ix1 j)) (be (ix1 j)) (a (ix2 r j)) := by
  unfold bnRelu128 refRelu
  dsimp only
  rw [maximumf_apply, addf_apply, mulf_apply, mulf_apply, subf_apply, up_apply, up_apply, up_apply, up_apply, bcast0_apply,
    hostRsqrt_apply, addf_apply, bcast0_apply, mean128_apply, var128_apply]
  rfl

/-! ## From the reference's form to the specification's, on real entries -/

/-- An array whose entries are a matrix's entries reads as that matrix. -/
theorem toMat_eq {n C : Nat} (v : (⟨2, ![n, C]⟩ : Shape).Idx → EReal) (M : Mat n C) (h : ∀ r j, v (ix2 r j) = M r j) : toMat v = M :=
  funext fun r => funext fun j => h r j

/-- On real entries, with real scales and shifts, the reference's normalisation of 256 columns is the specification's affine
    form entry by entry, and every entry of it is real. -/
theorem bnRelu256_eq (a : FVec Ideal S400000x256 .f32) (g be : FVec Ideal S256 .f32) (ha : ∀ r j, IsReal (a (ix2 r j)))
    (hg : ∀ i, IsReal (g i)) (hbe : ∀ i, IsReal (be i)) (r : Fin 400000) (j : Fin 256) :
    bnRelu256 a g be (ix2 r j) = Spec.bnRelu (toMat a) (toVec g) (toVec be) r j
      ∧ IsReal (Spec.bnRelu (toMat a) (toVec g) (toVec be) r j) := by
  rw [bnRelu256_apply]
  exact refRelu_eq (fun r => a (ix2 r j)) (fun r => ha r j) (g (ix1 j)) (be (ix1 j)) (hg _) (hbe _) r

/-- The same for 128 columns. -/
theorem bnRelu128_eq (a : FVec Ideal S400000x128 .f32) (g be : FVec Ideal S128 .f32) (ha : ∀ r j, IsReal (a (ix2 r j)))
    (hg : ∀ i, IsReal (g i)) (hbe : ∀ i, IsReal (be i)) (r : Fin 400000) (j : Fin 128) :
    bnRelu128 a g be (ix2 r j) = Spec.bnRelu (toMat a) (toVec g) (toVec be) r j
      ∧ IsReal (Spec.bnRelu (toMat a) (toVec g) (toVec be) r j) := by
  rw [bnRelu128_apply]
  exact refRelu_eq (fun r => a (ix2 r j)) (fun r => ha r j) (g (ix1 j)) (be (ix1 j)) (hg _) (hbe _) r

/-! ## The result -/

/-- The reference's result is the common result, on real arguments. -/
theorem out_eq (x : FVec Ideal S400000x128 .f32) (e : IVec S200000x2 32) (Wl : FVec Ideal S512x128 .f32) (b : FVec Ideal S128 .f32)
    (eps : FVec Ideal S_ .f32) (W1 : FVec Ideal S128x256 .f32) (g1 be1 : FVec Ideal S256 .f32) (W2 : FVec Ideal S256x128 .f32)
    (g2 be2 : FVec Ideal S128 .f32)
    (hx : ∀ i, IsReal (x i)) (hh : ∀ i, IsReal (Cert.KernelIdeal.edgeFeatures x e i)) (hWl : ∀ i, IsReal (Wl i)) (hb : ∀ i, IsReal (b i))
    (heps : ∀ i, IsReal (eps i)) (hW1 : ∀ i, IsReal (W1 i)) (hg1 : ∀ i, IsReal (g1 i)) (hbe1 : ∀ i, IsReal (be1 i)) (hW2 : ∀ i, IsReal (W2 i))
    (hg2 : ∀ i, IsReal (g2 i)) (hbe2 : ∀ i, IsReal (be2 i)) :
    out x e Wl b eps W1 g1 be1 W2 g2 be2 = Cert.Shared.result x e Wl b eps W1 g1 be1 W2 g2 be2 := by
  -- the first pre-activation is the specification's, and real
  have hP := pre1_apply x e Wl b eps W1
  have hPr : ∀ r j, IsReal (pre1 x e Wl b eps W1 (ix2 r j)) := fun r j => by
    rw [hP]
    exact isReal_mm _ _ (fun r k => isReal_lin _ _ _ _ _ (fun _ _ => hh _) (fun _ _ => hWl _) (fun _ => hb _)
      (fun _ => isReal_add ⟨1, oneLit_eq⟩ (heps _)) (fun _ _ => hx _) r k) (fun _ _ => hW1 _) r j
  have eP := toMat_eq _ _ hP
  -- the first normalised layer, then the second product, are the specification's, and real
  have h1 := bnRelu256_eq (pre1 x e Wl b eps W1) g1 be1 hPr hg1 hbe1
  rw [eP] at h1
  have hQ : ∀ r j, Host.dotGeneral dot_S400000x256_S256x128_S400000x128_1_0_0_1_n_n none
        (bnRelu256 (pre1 x e Wl b eps W1) g1 be1) W2 (ix2 r j)
      = Spec.mm (Spec.bnRelu (Spec.pre1 (toMat (Cert.KernelIdeal.edgeFeatures x e)) (toMat x) (toMat Wl) (toVec b) (eps ix0) (toMat W1))
          (toVec g1) (toVec be1)) (toMat W2) r j := fun r j => by
    rw [dot256_apply]
    unfold Spec.mm
    exact Finset.sum_congr rfl fun k _ => congrArg (· * W2 (ix2 k j)) (h1 r k).1
  have hQr : ∀ r j, IsReal (Host.dotGeneral dot_S400000x256_S256x128_S400000x128_1_0_0_1_n_n none
        (bnRelu256 (pre1 x e Wl b eps W1) g1 be1) W2 (ix2 r j)) := fun r j => by
    rw [hQ]
    exact isReal_mm _ _ (fun r k => (h1 r k).2) (fun _ _ => hW2 _) r j
  have eQ := toMat_eq _ _ hQ
  -- the second normalised layer
  funext i
  obtain ⟨r, j, rfl⟩ : ∃ (r : Fin 400000) (j : Fin 128), i = ix2 r j := ⟨i 0, i 1, eq_ix2 i⟩
  unfold out
  rw [(bnRelu128_eq _ g2 be2 hQr hg2 hbe2 r j).1, eQ]
  rfl

end Cert.ReferenceIdeal.Hand

end
-- ==== Proof.LibGatherScatter.lean ====
/-
  How a gather and a float scatter-add read AT ONE INDEX, for four dimension-number records:
  a gather of table rows and a gather of vector entries by a column of start words, and the scatter-adds that send
  update rows, or update entries, back to the rows those words name.

  A gather reads its start word SIGNED and CLAMPS it into the table: a negative word reads row 0, a word past the end
  reads the last row. A scatter-add reads the word signed and does NOT clamp: an update whose word is outside the table
  is dropped, so operand entry i receives exactly the updates whose word, as an integer, equals i.

  Every statement is for an arbitrary record whose fields are given as hypotheses, so that it applies to any record
  with those fields, at arbitrary extents.
-/
import Idealize.ShloMosaic.PureOps.Ideal
import Idealize.ShloMosaic.Lib.ValueIdx
import Idealize.ShloMosaic.Lib.StableHlo.Predicate

noncomputable section

open scoped BigOperators

namespace Cert.LibGS

open Idealize.ShloMosaic Idealize.ShloMosaic.ValueIdx

/-- The shape of an array of N rows and C columns. -/
abbrev Sh (N C : Nat) : Shape := ⟨2, ![N, C]⟩

/-- An N × C array of extended reals. -/
abbrev RArr (N C : Nat) : Type := (Sh N C).Idx → EReal

/-- The table row a start word names: the word read signed, clamped into the N rows. -/
def rowOf (N : Nat) (hN : 0 < N) (w : BitVec 32) : Fin N := ⟨min w.toInt.toNat (N - 1), by omega⟩

/-! ## The row gather: one table row per start word -/

section GatherRows

variable {N n C : Nat} (d : GatherDims (Sh N C) (Sh n 1) (Sh n C))

/-- An index of the result read on an axis known to be the first gives the row coordinate. -/
theorem ix2_val_zero {a b : Nat} (e : Fin a) (c : Fin b) (X : Fin 2) (h : X = 0) : (ix2 e c X).val = e.val := by
  subst h; rfl

/-- An index of the result read on an axis known to be the second gives the column coordinate. -/
theorem ix2_val_one {a b : Nat} (e : Fin a) (c : Fin b) (X : Fin 2) (h : X = 1) : (ix2 e c X).val = c.val := by
  subst h; rfl

/-- When the second axis is the one offset axis, the result's batch axes are the first alone. -/
theorem rows_batch_mem (hoff : d.offsetDims = [1]) (X : Fin (Sh n C).rank) (hX : X ∈ d.batchDims) : X = (0 : Fin 2) := by
  have h1 : X ∉ d.offsetDims := by
    have := (List.mem_filter.1 hX).2
    simpa using this
  rw [hoff] at h1
  match X with
  | ⟨0, _⟩ => rfl
  | ⟨1, _⟩ => exact absurd (List.mem_singleton.mpr rfl) h1

/-- The start word a result entry (e, c) reads is the one in row e of the index column. -/
theorem rows_siIdx (hoff : d.offsetDims = [1]) (hsim : d.startIndexMap = [0]) (hivd : d.indexVectorDim = 1)
    (e : Fin n) (c : Fin C) (k : Fin d.startIndexMap.length) : d.siIdx (ix2 e c) k = ix2 e 0 := by
  funext b
  match b with
  | ⟨0, _⟩ =>
    unfold GatherDims.siIdx
    rw [dif_neg (by rw [hivd]; exact Nat.zero_ne_one)]
    unfold GatherDims.siCoord
    apply Fin.ext
    simp only [Fin.val_cast]
    exact ix2_val_zero e c _ (rows_batch_mem d hoff _ (List.getElem_mem _))
  | ⟨1, _⟩ =>
    unfold GatherDims.siIdx
    rw [dif_pos (by rw [hivd])]
    apply Fin.ext
    have hlen : d.startIndexMap.length = 1 := by rw [hsim]; rfl
    have hk : k.val < d.startIndexMap.length := k.isLt
    show k.val = 0
    omega

end GatherRows

section GatherRows2
variable {N n C : Nat} (d : GatherDims (Sh N C) (Sh n 1) (Sh n C))

/-- On the table's row axis the operand index is the start word, read signed and clamped into the table. -/
theorem rows_operand_zero (hN : 0 < N) (hoff : d.offsetDims = [1]) (hcoll : d.collapsedSliceDims = [0])
    (hob : d.operandBatchingDims = []) (hsim : d.startIndexMap = [0]) (hivd : d.indexVectorDim = 1)
    (hss : d.sliceSizes = ![1, C]) (idx : IVec (Sh n 1) 32) (e : Fin n) (c : Fin C) :
    (d.operandIdx (ix2 e c) idx (0 : Fin 2)).val = (rowOf N hN (idx (ix2 e 0))).val := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes (0 : Fin 2) = 1 := by rw [hss]; rfl
  simp only [GatherDims.operandIdx, GatherDims.batchCoord_eq_zero _ _ _ hb, GatherDims.offCoord_eq_zero _ _ _ hk,
    Nat.add_zero, GatherDims.start, dif_pos hm, hsl, rows_siIdx d hoff hsim hivd]
  rfl

/-- On the table's column axis the operand index is the result's column. -/
theorem rows_operand_one (hoff : d.offsetDims = [1]) (hcoll : d.collapsedSliceDims = [0])
    (hob : d.operandBatchingDims = []) (hsim : d.startIndexMap = [0])
    (idx : IVec (Sh n 1) 32) (e : Fin n) (c : Fin C) :
    (d.operandIdx (ix2 e c) idx (1 : Fin 2)).val = c.val := by
  have hb : (1 : Fin 2) ∉ d.operandBatchingDims := by rw [hob]; exact List.not_mem_nil
  have hm : (1 : Fin 2) ∉ d.startIndexMap := by rw [hsim]; show (1 : Fin 2) ∉ [(0 : Fin 2)]; decide
  have hk : (1 : Fin 2) ∈ d.sKept := by rw [GatherDims.mem_sKept, hcoll, hob]; show (1 : Fin 2) ∉ [(0 : Fin 2)] ∧ (1 : Fin 2) ∉ []; decide
  have hall : ∀ X ∈ d.offsetDims, X = (1 : Fin 2) := by rw [hoff]; simp
  simp only [GatherDims.operandIdx, GatherDims.batchCoord_eq_zero _ _ _ hb, GatherDims.start, dif_neg hm,
    GatherDims.offCoord, dif_pos hk, Nat.zero_add, Nat.add_zero]
  exact ix2_val_one e c _ (hall _ (List.getElem_mem _))

/-- THE ROW GATHER AT ONE ENTRY: entry (e, c) of the result is column c of the table row that start word e names. -/
theorem gather_rows_gen {α : Type} (hN : 0 < N) (hoff : d.offsetDims = [1]) (hcoll : d.collapsedSliceDims = [0])
    (hob : d.operandBatchingDims = []) (hsim : d.startIndexMap = [0]) (hivd : d.indexVectorDim = 1)
    (hss : d.sliceSizes = ![1, C]) (t : (Sh N C).Idx → α) (idx : IVec (Sh n 1) 32) (e : Fin n) (c : Fin C) :
    Host.gather d t idx (ix2 e c) = t (ix2 (rowOf N hN (idx (ix2 e 0))) c) := by
  unfold Host.gather
  congr 1
  funext a
  refine Fin.ext ?_
  match a with
  | ⟨0, _⟩ => exact rows_operand_zero d hN hoff hcoll hob hsim hivd hss idx e c
  | ⟨1, _⟩ => exact rows_operand_one d hoff hcoll hob hsim idx e c

end GatherRows2

/-! ## The vector gather: one entry per start word -/

/-- The rank-1 index at a coordinate, written in two ways. -/
theorem ix1_eq_ofFin {n : Nat} (e : Fin n) : ix1 e = Shape.Idx.ofFin e := by
  funext a
  match a with
  | ⟨0, _⟩ => exact Fin.ext rfl

/-- Row e of an index column, written in two ways. -/
theorem ixP_eq_ix2 {n : Nat} (e : Fin n) : StableHlo.Predicate.ixP e = ix2 e (0 : Fin 1) := by
  funext a
  match a with
  | ⟨0, _⟩ => rfl
  | ⟨1, _⟩ => rfl

/-- THE VECTOR GATHER AT ONE ENTRY: entry e of the result is the vector's entry that start word e names. -/
theorem gather_vec_gen {α : Type} {N n : Nat} (hN : 0 < N) (d : GatherDims ⟨1, ![N]⟩ (Sh n 1) ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec (Sh n 1) 32) (e : Fin n) :
    Host.gather d x idx (ix1 e) = x (ix1 (rowOf N hN (idx (ix2 e 0)))) := by
  rw [ix1_eq_ofFin, ix1_eq_ofFin, StableHlo.Predicate.gather_take d hcoll hob hsim hivd x idx e hN]
  refine congrArg x (congrArg Shape.Idx.ofFin (Fin.ext ?_))
  show min (idx (StableHlo.Predicate.ixP e)).toInt.toNat (N - 1) = min (idx (ix2 e 0)).toInt.toNat (N - 1)
  rw [ixP_eq_ix2]

/-! ## The row scatter-add -/

/-- An index read on two names of one axis gives one coordinate. -/
theorem idx2_val_congr {a b : Nat} (j : (Sh a b).Idx) (X Y : Fin 2) (h : X = Y) : (j X).val = (j Y).val := by
  subst h; rfl

section ScatterRows
variable {N n C : Nat} (d : ScatterDims (Sh N C) (Sh n 1) (Sh n C))

/-- When the second axis is the one window axis, the updates' scatter axes are the first alone. -/
theorem srows_scatter_mem (huw : d.updateWindowDims = [1]) (X : Fin (Sh n C).rank) (hX : X ∈ d.uScatter) : X = (0 : Fin 2) := by
  have h1 : X ∉ d.updateWindowDims := by
    have := (List.mem_filter.1 hX).2
    simpa using this
  rw [huw] at h1
  match X with
  | ⟨0, _⟩ => rfl
  | ⟨1, _⟩ => exact absurd (List.mem_singleton.mpr rfl) h1

/-- The start word an update entry j reads is the one in j's row of the index column. -/
theorem srows_siIdx (huw : d.updateWindowDims = [1]) (hsd : d.scatterDimsToOperandDims = [0]) (hivd : d.indexVectorDim = 1)
    (j : (Sh n C).Idx) (k : Fin d.scatterDimsToOperandDims.length) : d.siIdx j k = ix2 (j 0) 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    exact idx2_val_congr j _ 0 (srows_scatter_mem d huw _ (List.getElem_mem _))
  | ⟨1, _⟩ =>
    unfold ScatterDims.siIdx
    rw [dif_pos (by rw [hivd])]
    apply Fin.ext
    have hlen : d.scatterDimsToOperandDims.length = 1 := by rw [hsd]; rfl
    have hk : k.val < d.scatterDimsToOperandDims.length := k.isLt
    show k.val = 0
    omega

/-- The window's start on the row axis is the start word read signed. -/
theorem srows_start_zero (huw : d.updateWindowDims = [1]) (hsd : d.scatterDimsToOperandDims = [0]) (hivd : d.indexVectorDim = 1)
    (idx : IVec (Sh n 1) 32) (j : (Sh n C).Idx) : d.start j idx (0 : Fin 2) = (idx (ix2 (j 0) 0)).toInt := by
  have hm : (0 : Fin 2) ∈ d.scatterDimsToOperandDims := by rw [hsd]; exact List.mem_singleton.mpr rfl
  unfold ScatterDims.start
  rw [dif_pos hm, srows_siIdx d huw hsd hivd]
  rfl

/-- The window's start on the column axis is zero. -/
theorem srows_start_one (hsd : d.scatterDimsToOperandDims = [0])
    (idx : IVec (Sh n 1) 32) (j : (Sh n C).Idx) : d.start j idx (1 : Fin 2) = 0 := by
  have hm : (1 : Fin 2) ∉ d.scatterDimsToOperandDims := by rw [hsd]; show (1 : Fin 2) ∉ [(0 : Fin 2)]; decide
  unfold ScatterDims.start
  rw [dif_neg hm]

/-- The window coordinate on the row axis, an inserted one, is zero. -/
theorem srows_window_zero (hiw : d.insertedWindowDims = [0]) (j : (Sh n C).Idx) : d.window j (0 : Fin 2) = 0 := by
  have hk : (0 : Fin 2) ∉ d.sKept := by
    intro h
    have := (List.mem_filter.1 h).2
    rw [hiw] at this
    simp at this
  unfold ScatterDims.window
  rw [dif_neg hk]

/-- The window coordinate on the column axis is the update's column. -/
theorem srows_window_one (huw : d.updateWindowDims = [1]) (hiw : d.insertedWindowDims = [0]) (j : (Sh n C).Idx) :
    d.window j (1 : Fin 2) = (j 1).val := by
  have hk : (1 : Fin 2) ∈ d.sKept := by
    refine List.mem_filter.2 ⟨List.mem_finRange _, ?_⟩
    rw [hiw]
    show decide ((1 : Fin 2) ∉ [(0 : Fin 2)]) = true
    decide
  have hall : ∀ X ∈ d.updateWindowDims, X = (1 : Fin 2) := by rw [huw]; simp
  unfold ScatterDims.window
  rw [dif_pos hk]
  exact idx2_val_congr j _ 1 (hall _ (List.getElem_mem _))

end ScatterRows

section ScatterRows2
variable {N n C : Nat} (d : ScatterDims (Sh N C) (Sh n 1) (Sh n C))

/-- WHERE AN UPDATE LANDS. Update entry j lands on operand entry t exactly when j's start word, read signed, is t's row
    and j's column is t's column. -/
theorem srows_resultIdx_iff (huw : d.updateWindowDims = [1]) (hiw : d.insertedWindowDims = [0])
    (hsd : d.scatterDimsToOperandDims = [0]) (hivd : d.indexVectorDim = 1)
    (idx : IVec (Sh n 1) 32) (j : (Sh n C).Idx) (t : (Sh N C).Idx) :
    d.resultIdx? j idx = some t ↔ (idx (ix2 (j 0) 0)).toInt = ((t 0).val : ℤ) ∧ (j 1).val = (t 1).val := by
  have hs0 := srows_start_zero d huw hsd hivd idx j
  have hs1 := srows_start_one d hsd idx j
  have hw0 := srows_window_zero d hiw j
  have hw1 := srows_window_one d huw hiw j
  have ht0 : (t 0).val < N := idx2_lt0 t
  have ht1 : (t 1).val < C := idx2_lt1 t
  constructor
  · intro h
    unfold ScatterDims.resultIdx? at h
    split at h
    · rename_i hh
      have hf := Option.some.inj h
      have h0 : (d.start j idx (0 : Fin 2) + d.window j (0 : Fin 2)).toNat = (t 0).val :=
        congrArg (fun f : (Sh N C).Idx => (f 0).val) hf
      have h1 : (d.start j idx (1 : Fin 2) + d.window j (1 : Fin 2)).toNat = (t 1).val :=
        congrArg (fun f : (Sh N C).Idx => (f 1).val) hf
      have hh0 := (hh (0 : Fin 2)).1
      rw [hs0, hw0] at h0 hh0
      rw [hs1, hw1] at h1
      constructor <;> omega
    · exact absurd h (by simp)
  · rintro ⟨h0, h1⟩
    have hh : ∀ a, 0 ≤ d.start j idx a + d.window j a ∧ d.start j idx a + d.window j a < (Sh N C).size a := by
      intro a
      match a with
      | ⟨0, _⟩ =>
        show 0 ≤ d.start j idx (0 : Fin 2) + d.window j (0 : Fin 2) ∧ d.start j idx (0 : Fin 2) + d.window j (0 : Fin 2) < (N : ℤ)
        rw [hs0, hw0, h0]
        omega
      | ⟨1, _⟩ =>
        show 0 ≤ d.start j idx (1 : Fin 2) + d.window j (1 : Fin 2) ∧ d.start j idx (1 : Fin 2) + d.window j (1 : Fin 2) < (C : ℤ)
        rw [hs1, hw1, h1]
        omega
    unfold ScatterDims.resultIdx?
    rw [dif_pos hh]
    congr 1
    funext a
    apply Fin.ext
    match a with
    | ⟨0, _⟩ =>
      show (d.start j idx (0 : Fin 2) + d.window j (0 : Fin 2)).toNat = (t 0).val
      rw [hs0, hw0, h0]
      omega
    | ⟨1, _⟩ =>
      show (d.start j idx (1 : Fin 2) + d.window j (1 : Fin 2)).toNat = (t 1).val
      rw [hs1, hw1, h1]
      omega

end ScatterRows2

section ScatterRows3
variable {N n C : Nat} (d : ScatterDims (Sh N C) (Sh n 1) (Sh n C))

/-- THE ROW SCATTER-ADD AT ONE ENTRY: entry (i, c) of the result is the operand's entry plus column c of every update
    row whose start word, read signed, is i. (A word outside the table matches no i: its row is dropped.) -/
theorem scatterAdd_rows_gen (huw : d.updateWindowDims = [1]) (hiw : d.insertedWindowDims = [0])
    (hsd : d.scatterDimsToOperandDims = [0]) (hivd : d.indexVectorDim = 1)
    (x : RArr N C) (idx : IVec (Sh n 1) 32) (u : RArr n C) (i : Fin N) (c : Fin C) :
    Ideal.hostScatterAdd d x idx u (ix2 i c)
      = x (ix2 i c) + ∑ e ∈ Finset.univ.filter (fun e : Fin n => (idx (ix2 e 0)).toInt = (i.val : ℤ)), u (ix2 e c) := by
  have key := fun j => srows_resultIdx_iff d huw hiw hsd hivd idx j (ix2 i c)
  have back : ∀ j : (Sh n C).Idx, (j 1).val = c.val → ix2 (j 0) c = j := by
    intro j hj
    funext a
    match a with
    | ⟨0, _⟩ => rfl
    | ⟨1, _⟩ => exact Fin.ext hj.symm
  unfold Ideal.hostScatterAdd
  congr 1
  refine Finset.sum_bij' (fun j _ => j 0) (fun e _ => ix2 e c) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e c)).2 ⟨(Finset.mem_filter.1 he).2, rfl⟩⟩
  · intro j hj
    exact back j ((key j).1 (Finset.mem_filter.1 hj).2).2
  · intro e he
    rfl
  · intro j hj
    exact congrArg u (back j ((key j).1 (Finset.mem_filter.1 hj).2).2).symm

end ScatterRows3

/-! ## The vector scatter-add -/

section ScatterVec
variable {N n : Nat} (d : ScatterDims ⟨1, ![N]⟩ (Sh n 1) ⟨1, ![n]⟩)

/-- The start word update entry j reads is the one in row j of the index column (the updates have one axis). -/
theorem svec_siIdx (hsd : d.scatterDimsToOperandDims = [0]) (hivd : d.indexVectorDim = 1)
    (j : (⟨1, ![n]⟩ : Shape).Idx) (k : Fin d.scatterDimsToOperandDims.length) : d.siIdx j k = ix2 (j 0) 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    have hlen : d.scatterDimsToOperandDims.length = 1 := by rw [hsd]; rfl
    have hk : k.val < d.scatterDimsToOperandDims.length := k.isLt
    show k.val = 0
    omega

/-- The window's start on the vector's one axis is the start word read signed. -/
theorem svec_start (hsd : d.scatterDimsToOperandDims = [0]) (hivd : d.indexVectorDim = 1)
    (idx : IVec (Sh n 1) 32) (j : (⟨1, ![n]⟩ : Shape).Idx) : d.start j idx (0 : Fin 1) = (idx (ix2 (j 0) 0)).toInt := by
  have hm : (0 : Fin 1) ∈ d.scatterDimsToOperandDims := by rw [hsd]; exact List.mem_singleton.mpr rfl
  unfold ScatterDims.start
  rw [dif_pos hm, svec_siIdx d hsd hivd]
  rfl

/-- The window coordinate on the vector's one axis, an inserted one, is zero. -/
theorem svec_window (hiw : d.insertedWindowDims = [0]) (j : (⟨1, ![n]⟩ : Shape).Idx) : d.window j (0 : Fin 1) = 0 := by
  have hk : (0 : Fin 1) ∉ d.sKept := by
    intro h
    have := (List.mem_filter.1 h).2
    rw [hiw] at this
    simp at this
  unfold ScatterDims.window
  rw [dif_neg hk]

/-- WHERE AN UPDATE LANDS. Update entry j lands on operand entry t exactly when j's start word, read signed, is t. -/
theorem svec_resultIdx_iff (hiw : d.insertedWindowDims = [0]) (hsd : d.scatterDimsToOperandDims = [0])
    (hivd : d.indexVectorDim = 1) (idx : IVec (Sh n 1) 32) (j : (⟨1, ![n]⟩ : Shape).Idx) (t : (⟨1, ![N]⟩ : Shape).Idx) :
    d.resultIdx? j idx = some t ↔ (idx (ix2 (j 0) 0)).toInt = ((t 0).val : ℤ) := by
  have hs0 := svec_start d hsd hivd idx j
  have hw0 := svec_window d hiw j
  have ht0 : (t 0).val < N := (t 0).isLt
  constructor
  · intro h
    unfold ScatterDims.resultIdx? at h
    split at h
    · rename_i hh
      have hf := Option.some.inj h
      have h0 : (d.start j idx (0 : Fin 1) + d.window j (0 : Fin 1)).toNat = (t 0).val :=
        congrArg (fun f : (⟨1, ![N]⟩ : Shape).Idx => (f 0).val) hf
      have hh0 := (hh (0 : Fin 1)).1
      rw [hs0, hw0] at h0 hh0
      omega
    · exact absurd h (by simp)
  · intro h0
    have hh : ∀ a, 0 ≤ d.start j idx a + d.window j a ∧ d.start j idx a + d.window j a < (⟨1, ![N]⟩ : Shape).size a := by
      intro a
      match a with
      | ⟨0, _⟩ =>
        show 0 ≤ d.start j idx (0 : Fin 1) + d.window j (0 : Fin 1) ∧ d.start j idx (0 : Fin 1) + d.window j (0 : Fin 1) < (N : ℤ)
        rw [hs0, hw0, h0]
        omega
    unfold ScatterDims.resultIdx?
    rw [dif_pos hh]
    congr 1
    funext a
    apply Fin.ext
    match a with
    | ⟨0, _⟩ =>
      show (d.start j idx (0 : Fin 1) + d.window j (0 : Fin 1)).toNat = (t 0).val
      rw [hs0, hw0, h0]
      omega

/-- THE VECTOR SCATTER-ADD AT ONE ENTRY: entry i of the result is the operand's entry plus every update entry whose
    start word, read signed, is i. -/
theorem scatterAdd_vec_gen (hiw : d.insertedWindowDims = [0]) (hsd : d.scatterDimsToOperandDims = [0])
    (hivd : d.indexVectorDim = 1) (x : (⟨1, ![N]⟩ : Shape).Idx → EReal) (idx : IVec (Sh n 1) 32)
    (u : (⟨1, ![n]⟩ : Shape).Idx → EReal) (i : Fin N) :
    Ideal.hostScatterAdd d x idx u (ix1 i)
      = x (ix1 i) + ∑ e ∈ Finset.univ.filter (fun e : Fin n => (idx (ix2 e 0)).toInt = (i.val : ℤ)), u (ix1 e) := by
  have key := fun j => svec_resultIdx_iff d hiw hsd hivd idx j (ix1 i)
  unfold Ideal.hostScatterAdd
  congr 1
  refine Finset.sum_bij' (fun j _ => j 0) (fun e _ => ix1 e) ?_ ?_ ?_ ?_ ?_
  · intro j hj
    exact Finset.mem_filter.2 ⟨Finset.mem_univ _, (key j).1 (Finset.mem_filter.1 hj).2⟩
  · intro e he
    exact Finset.mem_filter.2 ⟨Finset.mem_univ _, (key (ix1 e)).2 (Finset.mem_filter.1 he).2⟩
  · intro j hj
    exact (eq_ix1 j).symm
  · intro e he
    rfl
  · intro j hj
    exact congrArg u (eq_ix1 j)

end ScatterVec

end Cert.LibGS

end
-- ==== Proof.Finite.lean ====
/-
  Finiteness. The precondition says every float argument array holds only finite numbers: each entry's absolute value is
  below the float infinity, so each entry is a real number. And the edge features of real rows are real: a scatter-add
  into a zero table leaves at each entry zero plus a finite sum of update entries, a gather reads one table entry, the
  reshapes, the reversal and the concatenation move entries, and the one addition adds two real entries.
-/
import proofs.«139709_j50869592655480_1_alg».proof.Defs
import proofs.«139709_j50869592655480_1_alg».proof.Proof.Gen.Pre_finite_inputs
import proofs.«139709_j50869592655480_1_alg».proof.Proof.Shared
import proofs.«139709_j50869592655480_1_alg».proof.Proof.Algebra
import proofs.«139709_j50869592655480_1_alg».proof.Proof.LibGatherScatter
import Idealize.ShloMosaic.Lib.ReduceAll
import Idealize.ShloMosaic.Lib.ValueIdx
import Idealize.ShloMosaic.Lib.ValueLayout
import Idealize.ShloMosaic.Lib.Pipeline.Value

noncomputable section

open scoped BigOperators

namespace Cert.Finite

open Idealize.ShloMosaic Idealize.ShloMosaic.ValueIdx Idealize.SL.Sem Cert.Algebra

/-! ## From the precondition to real entries -/

/-- The rank-0 shape has one index. -/
instance subsingleton_scalar_idx : Subsingleton (⟨0, ![]⟩ : Shape).Idx := ⟨fun a b => funext fun d => d.elim0⟩

/-- The float infinity's word is the top of the extended reals. -/
theorem inf_word : Ideal.ofBits .f32 0x7F800000#32 = ⊤ := by simp [Ideal.ofBits, Ideal.ieee]

/-- An extended real whose absolute value compares below the float infinity is a real number: the two infinities have
    absolute value the top, which is not below itself. -/
theorem isReal_of_abs_lt (x : EReal)
    (h : FloatOps.cmpf (F := Ideal) (φ := .f32) .olt (FloatOps.hostAbsf x) (Ideal.ofBits .f32 0x7F800000#32) = 1#1) : IsReal x := by
  change BitVec.ofBool (decide (max x (-x) < Ideal.ofBits .f32 0x7F800000#32)) = 1#1 at h
  rw [inf_word] at h
  induction x using EReal.rec with
  | bot => simp at h
  | coe r => exact ⟨r, rfl⟩
  | top => simp at h

/-- An array all of whose entries have absolute value below a comparand that is the float infinity everywhere — the
    conjunction over all entries came out true — holds only real numbers. -/
theorem all_real {s : Shape} {axes : List (Fin s.rank)} (rd : s.ReducesTo axes (⟨0, ![]⟩ : Shape))
    (hS : 0 < (⟨0, ![]⟩ : Shape).numel) (x top : FVec Ideal s .f32) (htop : ∀ i, top i = Ideal.ofBits .f32 0x7F800000#32)
    (init : IVec (⟨0, ![]⟩ : Shape) 1)
    (h : Host.reduce IntOp.andi (cmpf .olt (Host.absf x) top) init rd hS ix0 = 1#1) (i : s.Idx) : IsReal (x i) := by
  have e := Host.reduce_andi_all (cmpf .olt (Host.absf x) top) init rd hS ix0 h i
  rw [cmpf_apply, htop i] at e
  exact isReal_of_abs_lt (x i) e

/-- Under the precondition every float argument array of the idealized kernel holds real numbers. -/
theorem args_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i))
    ∧ (∀ i, IsReal (m ((c.tc : Thread Cert.KernelIdeal.nD Cert.KernelIdeal.τ).loc Cert.KernelIdeal.main_arg6) i))
    ∧ (∀ i, IsReal (m ((c.tc : Thread Cert.KernelIdeal.nD Cert.KernelIdeal.τ).loc Cert.KernelIdeal.main_arg7) i))
    ∧ (∀ i, IsReal (m ((c.tc : Thread Cert.KernelIdeal.nD Cert.KernelIdeal.τ).loc Cert.KernelIdeal.main_arg8) i))
    ∧ (∀ i, IsReal (m ((c.tc : Thread Cert.KernelIdeal.nD Cert.KernelIdeal.τ).loc Cert.KernelIdeal.main_arg9) i))
    ∧ (∀ i, IsReal (m ((c.tc : Thread Cert.KernelIdeal.nD Cert.KernelIdeal.τ).loc Cert.KernelIdeal.main_arg10) i)) := by
  have e := congrFun (h c) ix0
  dsimp only [Cert.Pre_finite_inputs.fn, Cert.Pre_finite_inputs.fn_part1, Cert.Pre_finite_inputs.fn_part2] at e
  simp only [andi, IntOp.andi_eq_one] at e
  obtain ⟨⟨⟨⟨⟨⟨⟨⟨⟨h0, h2⟩, h3⟩, h4⟩, h5⟩, h6⟩, h7⟩, h8⟩, h9⟩, h10⟩ := e
  exact ⟨all_real _ _ _ _ (fun _ => rfl) _ h0, all_real _ _ _ _ (fun _ => rfl) _ h2, all_real _ _ _ _ (fun _ => rfl) _ h3,
    all_real _ _ _ _ (fun _ => rfl) _ h4, all_real _ _ _ _ (fun _ => rfl) _ h5, all_real _ _ _ _ (fun _ => rfl) _ h6,
    all_real _ _ _ _ (fun _ => rfl) _ h7, all_real _ _ _ _ (fun _ => rfl) _ h8, all_real _ _ _ _ (fun _ => rfl) _ h9,
    all_real _ _ _ _ (fun _ => rfl) _ h10⟩

/-! ## Real entries through the operations of the edge features -/

/-- A reshape moves entries: every entry of the result is an entry of the operand. -/
theorem isReal_shapeCast {s t : Shape} (x : s.Idx → EReal) (h : s.ShapeCasts t) (hx : ∀ i, IsReal (x i)) (j : t.Idx) :
    IsReal (shapeCast t x h j) := hx _

/-- A reversal moves entries. -/
theorem isReal_reverse {s : Shape} (axes : List (Fin s.rank)) (x : s.Idx → EReal) (hx : ∀ i, IsReal (x i)) (j : s.Idx) :
    IsReal (Host.reverse axes x j) := hx _

/-- A gather reads, at each result index, one entry of the table. -/
theorem isReal_gather {s si t : Shape} {w : Nat} (d : GatherDims s si t) (x : s.Idx → EReal) (idx : IVec si w)
    (hx : ∀ i, IsReal (x i)) (j : t.Idx) : IsReal (Host.gather d x idx j) := hx _

/-- A scatter-add leaves at each entry the operand's entry plus a finite sum of update entries. -/
theorem isReal_scatterAdd {s si u : Shape} {w : Nat} (d : ScatterDims s si u) (x : FVec Ideal s .f32) (idx : IVec si w)
    (upd : FVec Ideal u .f32) (hx : ∀ i, IsReal (x i)) (hu : ∀ j, IsReal (upd j)) (i : s.Idx) :
    IsReal (Host.scatterAdd (F := Ideal) d x idx upd i) := by
  show IsReal (x i + ∑ j ∈ Finset.univ.filter (fun j => d.resultIdx? j idx = some i), upd j)
  exact isReal_add (hx i) (isReal_sum _ _ (fun j _ => hu j))

/-- The table of float zeros holds the real number zero at every entry. -/
theorem isReal_zeros {s : Shape} (bc : (⟨0, ![]⟩ : Shape).BroadcastsInDim s (![] : Fin 0 → Fin s.rank)) (i : s.Idx) :
    IsReal (broadcastInDim s ![] bc (constant (F := Ideal) (⟨0, ![]⟩ : Shape) .f32 0x00000000#32) i) := by
  show IsReal (Ideal.ofBits .f32 0x00000000#32)
  rw [Ideal.ofBits_zero_f32]
  exact ⟨0, EReal.coe_zero.symm⟩

/-- An entrywise sum of two real arrays is real. -/
theorem isReal_addf {s : Shape} (a b : FVec Ideal s .f32) (ha : ∀ i, IsReal (a i)) (hb : ∀ i, IsReal (b i)) (i : s.Idx) :
    IsReal (addf a b i) := isReal_add (ha i) (hb i)

/-- A concatenation moves entries: every entry of the result is an entry of one of the pieces. -/
theorem isReal_concatenate {t : Shape} (a : Fin t.rank) (xs : List ((s : Shape) × (s.Idx → EReal)))
    (h : Shape.Concatenates (xs.map (·.1)) t a) (hall : ∀ p ∈ xs, ∀ i, IsReal (p.2 i)) (j : t.Idx) :
    IsReal (concatenate t a xs h j) := by
  unfold concatenate
  exact hall _ (List.getElem_mem _) _

/-- The two-piece case: every entry of the result is an entry of the first piece or of the second. -/
theorem isReal_concatenate_pair {t s₁ s₂ : Shape} (a : Fin t.rank) (x₁ : s₁.Idx → EReal) (x₂ : s₂.Idx → EReal)
    (h : Shape.Concatenates [s₁, s₂] t a) (h₁ : ∀ i, IsReal (x₁ i)) (h₂ : ∀ i, IsReal (x₂ i)) (j : t.Idx) :
    IsReal (concatenate t a [⟨s₁, x₁⟩, ⟨s₂, x₂⟩] h j) := by
  refine isReal_concatenate a [⟨s₁, x₁⟩, ⟨s₂, x₂⟩] h ?_ j
  intro p hp
  simp only [List.mem_cons, List.mem_nil_iff, or_false] at hp
  rcases hp with rfl | rfl
  · exact h₁
  · exact h₂

/-! ## The two gather steps and the edge features -/

/-- The first gather step of real rows is real. -/
theorem edgeStep128_real (x : FVec Ideal Cert.KernelIdeal.S400000x128 .f32) (e : IVec Cert.KernelIdeal.S200000x2 32)
    (hx : ∀ i, IsReal (x i)) : ∀ i, IsReal (Cert.KernelIdeal.edgeStep128 x e i) := by
  intro i
  unfold Cert.KernelIdeal.edgeStep128
  exact isReal_concatenate_pair _ _ _ _
    (isReal_gather _ _ _ (isReal_scatterAdd _ _ _ _ (isReal_zeros _) hx))
    (isReal_addf _ _ (isReal_gather _ _ _ (isReal_scatterAdd _ _ _ _ (isReal_zeros _) hx))
      (isReal_shapeCast _ _ (isReal_reverse _ _ (isReal_shapeCast _ _ hx)))) i

/-- The second gather step of real rows is real. -/
theorem edgeStep256_real (y : FVec Ideal Cert.KernelIdeal.S400000x256 .f32) (e : IVec Cert.KernelIdeal.S200000x2 32)
    (hy : ∀ i, IsReal (y i)) : ∀ i, IsReal (Cert.KernelIdeal.edgeStep256 y e i) := by
  intro i
  unfold Cert.KernelIdeal.edgeStep256
  exact isReal_concatenate_pair _ _ _ _
    (isReal_gather _ _ _ (isReal_scatterAdd _ _ _ _ (isReal_zeros _) hy))
    (isReal_addf _ _ (isReal_gather _ _ _ (isReal_scatterAdd _ _ _ _ (isReal_zeros _) hy))
      (isReal_shapeCast _ _ (isReal_reverse _ _ (isReal_shapeCast _ _ hy)))) i

/-- The edge features of a real edge representation are real, whatever the endpoint words. -/
theorem edgeFeatures_real (x : FVec Ideal Cert.KernelIdeal.S400000x128 .f32) (e : IVec Cert.KernelIdeal.S200000x2 32)
    (hx : ∀ i, IsReal (x i)) : ∀ i, IsReal (Cert.KernelIdeal.edgeFeatures x e i) := by
  exact edgeStep256_real _ e (edgeStep128_real x e hx)

end Cert.Finite

end
-- ==== Proof.lean ====
/-
  The certificate's five claims.

  The two kernel programs' frames are the generated frame certificates. The reference is a straight line of host
  operations; its frame is its run with the result dropped. The idealization rewrote nothing, so it is preserved
  trivially. For the equivalence over the extended reals both runs are stated with ONE result: the idealized kernel's
  result array ends at the common function of the arguments outright — its three launches compute two matrix products
  blockwise, the column sums and sums of squares of each product accumulated across the grid, and a clipped affine map
  whose scale and shift the host computes from those sums; the reference's result is the same function once every float
  argument is a real number, which the precondition says: then the mean of squared deviations is the mean of squares less
  the squared mean, the inverse square root of the offset variance is a real number, and the normalisation distributes
  into scale and shift.
-/
import proofs.«139709_j50869592655480_1_alg».proof.Defs
import proofs.«139709_j50869592655480_1_alg».proof.Proof.Gen.Kernel
import proofs.«139709_j50869592655480_1_alg».proof.Proof.Gen.Kernel.Skeleton
import proofs.«139709_j50869592655480_1_alg».proof.Proof.Gen.Kernel.Launch
import proofs.«139709_j50869592655480_1_alg».proof.Proof.Gen.Kernel.Points
import proofs.«139709_j50869592655480_1_alg».proof.Proof.Gen.Kernel.Frame
import proofs.«139709_j50869592655480_1_alg».proof.Proof.Gen.KernelIdeal
import proofs.«139709_j50869592655480_1_alg».proof.Proof.Gen.KernelIdeal.Skeleton
import proofs.«139709_j50869592655480_1_alg».proof.Proof.Gen.KernelIdeal.Launch
import proofs.«139709_j50869592655480_1_alg».proof.Proof.Gen.KernelIdeal.Points
import proofs.«139709_j50869592655480_1_alg».proof.Proof.Gen.KernelIdeal.Frame
import proofs.«139709_j50869592655480_1_alg».proof.Proof.Gen.ReferenceIdeal
import proofs.«139709_j50869592655480_1_alg».proof.Proof.Gen.Pre_finite_inputs
import proofs.«139709_j50869592655480_1_alg».proof.Proof.KerRun
import proofs.«139709_j50869592655480_1_alg».proof.Proof.KerValue
import proofs.«139709_j50869592655480_1_alg».proof.Proof.RefRun
import proofs.«139709_j50869592655480_1_alg».proof.Proof.RefValue
import proofs.«139709_j50869592655480_1_alg».proof.Proof.Finite
import Idealize.ShloMosaic.Adequacy
import Idealize.ShloMosaic.Init

noncomputable section

namespace Cert.Proof

open Idealize.ShloMosaic Idealize.SL.Sem

/-- The kernel as printed runs and keeps its arguments: the generated frame certificate. -/
theorem frame_kernel : Cert.frame_Kernel := fun m ρ _ => Cert.Kernel.Gen.frame m ρ

/-- The idealized kernel runs and keeps its arguments: the generated frame certificate. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Hand.run m ρ)

/-- The idealization rewrote no operation. -/
theorem preserves : Cert.preserves_Kernel_KernelIdeal := trivial

/-- Both idealized programs end with the common result of the arguments they agree on. -/
theorem algebraic : Cert.algebraic_KernelIdeal_ReferenceIdeal := by
  intro m ρ m' ρ' hpre hagree
  refine ⟨fun c => Cert.Shared.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Value.W6_out m ρ c), (h c).2⟩) (Cert.KernelIdeal.Gen.run_W6 m ρ)
  · refine (θ_run Cert.ReferenceIdeal.defs _ _).mono (fun r h c => ⟨(h c).1.trans ?_, (h c).2⟩)
      (Cert.ReferenceIdeal.Hand.run m' ρ')
    obtain ⟨a0, a1, a2, a3, a4, a5, a6, a7, a8, a9, a10⟩ := hagree c
    rw [a0, a1, a2, a3, a4, a5, a6, a7, a8, a9, a10]
    obtain ⟨r0, r2, r3, r4, r5, r6, r7, r8, r9, r10⟩ := Cert.Finite.args_real m hpre c
    exact Cert.ReferenceIdeal.Hand.out_eq _ _ _ _ _ _ _ _ _ _ _ r0 (Cert.Finite.edgeFeatures_real _ _ r0) r2 r3 r4 r5 r6 r7 r8 r9 r10

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
